-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S_ : Shape := ⟨0, ![]⟩

class Facts : Prop where
  bcast_S_S10000x1433 : S_.BroadcastsInDim S10000x1433 (![] : Fin 0 → Fin S10000x1433.rank)
  reducesTo_S10000x1433_S_d0_1 : S10000x1433.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S1433x512 : S_.BroadcastsInDim S1433x512 (![] : Fin 0 → Fin S1433x512.rank)
  reducesTo_S1433x512_S_d0_1 : S1433x512.ReducesTo [0, 1] S_
  bcast_S_S512 : S_.BroadcastsInDim S512 (![] : Fin 0 → Fin S512.rank)
  reducesTo_S512_S_d0 : S512.ReducesTo [0] S_
  bcast_S_S512x7 : S_.BroadcastsInDim S512x7 (![] : Fin 0 → Fin S512x7.rank)
  reducesTo_S512x7_S_d0_1 : S512x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S512x7 .f32) (main_arg5 : FVec F S7 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x7 .f32 := Host.absf main_arg4
  let main_cst_6 : FVec F S_ .f32 := constant S_ .f32 0x7F800000#32
  let main_v20 : FVec F S512x7 .f32 := broadcastInDim S512x7 ![] bcast_S_S512x7 main_cst_6
  let main_v21 : IVec S512x7 1 := cmpf .olt main_v19 main_v20
  let main_c_7 : IVec S_ 1 := constantI S_ 1 1#1
  let main_v22 : IVec S_ 1 := (fun x v => Host.reduce IntOp.andi x v reducesTo_S512x7_S_d0_1 h_S_) main_v21 main_c_7
  let main_v23 : IVec S_ 1 := andi main_v18 main_v22
  let main_v24 : FVec F S7 .f32 := Host.absf main_arg5
  let main_cst_8 : FVec F S_ .f32 := constant S_ .f32 0x7F800000#32
  let main_v25 : FVec F S7 .f32 := broadcastInDim S7 ![] bcast_S_S7 main_cst_8
  let main_v26 : IVec S7 1 := cmpf .olt main_v24 main_v25
  let main_c_9 : IVec S_ 1 := constantI S_ 1 1#1
  let main_v27 : IVec S_ 1 := (fun x v => Host.reduce IntOp.andi x v reducesTo_S7_S_d0 h_S_) main_v26 main_c_9
  let main_v28 : IVec S_ 1 := andi main_v23 main_v27
  main_v28

def fn {F : FTy → Type} [FloatOps F] (main_arg0 : FVec F S10000x1433 .f32) (main_arg1 : FVec F S10000x10000 .f32) (main_arg2 : FVec F S1433x512 .f32) (main_arg3 : FVec F S512 .f32) (main_arg4 : FVec F S512x7 .f32) (main_arg5 : FVec F S7 .f32) : IVec S_ 1 :=
  let main_v0 : FVec F S10000x1433 .f32 := Host.absf main_arg0
  let main_cst : FVec F S_ .f32 := constant S_ .f32 0x7F800000#32
  let main_v1 : FVec F S10000x1433 .f32 := broadcastInDim S10000x1433 ![] bcast_S_S10000x1433 main_cst
  let main_v2 : IVec S10000x1433 1 := cmpf .olt main_v0 main_v1
  let main_c : IVec S_ 1 := constantI S_ 1 1#1
  let main_v3 : IVec S_ 1 := (fun x v => Host.reduce IntOp.andi x v reducesTo_S10000x1433_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S1433x512 .f32 := Host.absf main_arg2
  let main_cst_2 : FVec F S_ .f32 := constant S_ .f32 0x7F800000#32
  let main_v10 : FVec F S1433x512 .f32 := broadcastInDim S1433x512 ![] bcast_S_S1433x512 main_cst_2
  let main_v11 : IVec S1433x512 1 := cmpf .olt main_v9 main_v10
  let main_c_3 : IVec S_ 1 := constantI S_ 1 1#1
  let main_v12 : IVec S_ 1 := (fun x v => Host.reduce IntOp.andi x v reducesTo_S1433x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S_ : Shape := ⟨0, ![]⟩
abbrev S1536x512 : Shape := ⟨2, ![1536, 512]⟩
abbrev S1280x512 : Shape := ⟨2, ![1280, 512]⟩
abbrev S256x512 : Shape := ⟨2, ![256, 512]⟩
abbrev S10000x512 : Shape := ⟨2, ![10000, 512]⟩
abbrev S2000x1280 : Shape := ⟨2, ![2000, 1280]⟩
abbrev S2000x256 : Shape := ⟨2, ![2000, 256]⟩
abbrev S2000x512 : Shape := ⟨2, ![2000, 512]⟩
abbrev S1x512 : Shape := ⟨2, ![1, 512]⟩
abbrev S10000x7 : Shape := ⟨2, ![10000, 7]⟩
abbrev S400x10000 : Shape := ⟨2, ![400, 10000]⟩
abbrev S400x7 : Shape := ⟨2, ![400, 7]⟩
abbrev S400x512 : Shape := ⟨2, ![400, 512]⟩
abbrev S1x7 : Shape := ⟨2, ![1, 7]⟩
abbrev S400 : Shape := ⟨1, ![400]⟩
abbrev S400x1 : Shape := ⟨2, ![400, 1]⟩

abbrev nBuf : Space → Nat
  | .hbm => 18
  | .vmem => 21
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S_, .i32⟩
  | .hbm, ⟨7, _⟩ => ⟨S_, .f32⟩
  | .hbm, ⟨8, _⟩ => ⟨S1536x512, .f32⟩
  | .hbm, ⟨9, _⟩ => ⟨S1536x512, .bf16⟩
  | .hbm, ⟨10, _⟩ => ⟨S1280x512, .bf16⟩
  | .hbm, ⟨11, _⟩ => ⟨S256x512, .bf16⟩
  | .hbm, ⟨12, _⟩ => ⟨S512x7, .bf16⟩
  | .hbm, ⟨13, _⟩ => ⟨S10000x512, .bf16⟩
  | .hbm, ⟨14, _⟩ => ⟨S1x512, .f32⟩
  | .hbm, ⟨15, _⟩ => ⟨S10000x7, .bf16⟩
  | .hbm, ⟨16, _⟩ => ⟨S1x7, .f32⟩
  | .hbm, ⟨17, _⟩ => ⟨S10000x7, .f32⟩
  | .local _ .vmem, ⟨0, _⟩ => ⟨S2000x1280, .f32⟩
  | .local _ .vmem, ⟨1, _⟩ => ⟨S2000x1280, .f32⟩
  | .local _ .vmem, ⟨2, _⟩ => ⟨S2000x256, .f32⟩
  | .local _ .vmem, ⟨3, _⟩ => ⟨S2000x256, .f32⟩
  | .local _ .vmem, ⟨4, _⟩ => ⟨S1280x512, .bf16⟩
  | .local _ .vmem, ⟨5, _⟩ => ⟨S256x512, .bf16⟩
  | .local _ .vmem, ⟨6, _⟩ => ⟨S2000x512, .bf16⟩
  | .local _ .vmem, ⟨7, _⟩ => ⟨S2000x512, .bf16⟩
  | .local _ .vmem, ⟨8, _⟩ => ⟨S400x10000, .f32⟩
  | .local _ .vmem, ⟨9, _⟩ => ⟨S400x10000, .f32⟩
  | .local _ .vmem, ⟨10, _⟩ => ⟨S10000x512, .bf16⟩
  | .local _ .vmem, ⟨11, _⟩ => ⟨S1x512, .f32⟩
  | .local _ .vmem, ⟨12, _⟩ => ⟨S512x7, .bf16⟩
  | .local _ .vmem, ⟨13, _⟩ => ⟨S400x7, .bf16⟩
  | .local _ .vmem, ⟨14, _⟩ => ⟨S400x7, .bf16⟩
  | .local _ .vmem, ⟨15, _⟩ => ⟨S400x10000, .f32⟩
  | .local _ .vmem, ⟨16, _⟩ => ⟨S400x10000, .f32⟩
  | .local _ .vmem, ⟨17, _⟩ => ⟨S10000x7, .bf16⟩
  | .local _ .vmem, ⟨18, _⟩ => ⟨S1x7, .f32⟩
  | .local _ .vmem, ⟨19, _⟩ => ⟨S400x7, .f32⟩
  | .local _ .vmem, ⟨20, _⟩ => ⟨S400x7, .f32⟩
  | _, _ => ⟨S10000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x7 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x7 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x7 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S400x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  pads_S1433x512_S1536x512_01030_000 : S1433x512.Pads (![0, 0] : Fin 2 → Nat) ![103, 0] ![0, 0] S1536x512
  h_S_ : 0 < S_.numel
  bitsLt_bf16_f32 : FTy.bits .bf16 < FTy.bits .f32
  slices_S1536x512_S1280x512_0_0 : S1536x512.Slices ![0, 0] S1280x512
  slices_S1536x512_S256x512_1280_0 : S1536x512.Slices ![1280, 0] S256x512
  inb_S2000x1280_S2000x1280_0_0 : ∀ a, (![0, 0] : Fin 2 → Nat) a + S2000x1280.size a ≤ S2000x1280.size a
  h_S2000x1280 : 0 < S2000x1280.numel
  iota_S2000x256_d1_w32 : S2000x256.Iotas .tc 32 [1]
  inb_S2000x256_S2000x256_0_0 : ∀ a, (![0, 0] : Fin 2 → Nat) a + S2000x256.size a ≤ S2000x256.size a
  h_S2000x256 : 0 < S2000x256.numel
  inb_S1280x512_S1280x512_0_0 : ∀ a, (![0, 0] : Fin 2 → Nat) a + S1280x512.size a ≤ S1280x512.size a
  h_S1280x512 : 0 < S1280x512.numel
  shapeCasts_S1280x512_S1280x512 : S1280x512.ShapeCasts S1280x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S2000x512_S2000x512_0_0 : ∀ a, (![0, 0] : Fin 2 → Nat) a + S2000x512.size a ≤ S2000x512.size a
  h_S2000x512 : 0 < S2000x512.numel
  packedbf16_S2000x512_S2000x512_0_0 : (Rect.unit (s := S2000x512) ![0, 0] S2000x512.size inb_S2000x512_S2000x512_0_0).PackedRows (EltTy.packing .bf16)
  shapeCasts_S512_S1x512 : S512.ShapeCasts S1x512
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x7_S512x7_0_0 : ∀ a, (![0, 0] : Fin 2 → Nat) a + S512x7.size a ≤ S512x7.size a
  h_S512x7 : 0 < S512x7.numel
  shapeCasts_S512x7_S512x7 : S512x7.ShapeCasts S512x7
  inb_S400x7_S400x7_0_0 : ∀ a, (![0, 0] : Fin 2 → Nat) a + S400x7.size a ≤ S400x7.size a
  h_S400x7 : 0 < S400x7.numel
  packedbf16_S400x7_S400x7_0_0 : (Rect.unit (s := S400x7) ![0, 0] S400x7.size inb_S400x7_S400x7_0_0).PackedRows (EltTy.packing .bf16)
  shapeCasts_S7_S1x7 : S7.ShapeCasts S1x7
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S400x7 : S1x7.Broadcasts S400x7
  reduces_S400x7_S400 : S400x7.Reduces [1] S400
  shapeCasts_S400_S400x1 : S400.ShapeCasts S400x1
  broadcasts_S400x1_S400x7 : S400x1.Broadcasts S400x7
  dot_S2000x1280_S1280x512_S2000x512_1_0_0_1_n_n_wf : DotDims.WF S2000x1280 S1280x512 S2000x512 [1] [0] [0] [1] [] []
  dot_S2000x256_S256x512_S2000x512_1_0_0_1_n_n_wf : DotDims.WF S2000x256 S256x512 S2000x512 [1] [0] [0] [1] [] []
  dot_S400x10000_S10000x512_S400x512_1_0_0_1_n_n_wf : DotDims.WF S400x10000 S10000x512 S400x512 [1] [0] [0] [1] [] []
  dot_S400x512_S512x7_S400x7_1_0_0_1_n_n_wf : DotDims.WF S400x512 S512x7 S400x7 [1] [0] [0] [1] [] []
  dot_S400x10000_S10000x7_S400x7_1_0_0_1_n_n_wf : DotDims.WF S400x10000 S10000x7 S400x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S2000x1280.size a < S10000x1433.size a
  hwx0_0 : ∀ i : grid0.Coords, EltTy.bits .f32 = 32 ∨ (Rect.unit (s := S10000x1433) (fun a => cc0_transform_0 i a * S2000x1280.size a) (fun a => (Pipeline.Clip.of (cc0_transform_0 i a) (S2000x1280.size a) (S10000x1433.size a)).extent (S2000x1280.size a)) fun a => Pipeline.Clip.inb (Pipeline.Clip.ok_of (hstart0_0 i a))).WholeWords (EltTy.packing .f32)
  hwxs0_0 : ∀ i : grid0.Coords, EltTy.bits .f32 = 32 ∨ (Rect.unit (s := S2000x1280) (fun _ => 0) (fun a => (Pipeline.Clip.of (cc0_transform_0 i a) (S2000x1280.size a) (S10000x1433.size a)).extent (S2000x1280.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S2000x256.size a < S10000x1433.size a
  hwx0_1 : ∀ i : grid0.Coords, EltTy.bits .f32 = 32 ∨ (Rect.unit (s := S10000x1433) (fun a => cc0_transform_1 i a * S2000x256.size a) (fun a => (Pipeline.Clip.of (cc0_transform_1 i a) (S2000x256.size a) (S10000x1433.size a)).extent (S2000x256.size a)) fun a => Pipeline.Clip.inb (Pipeline.Clip.ok_of (hstart0_1 i a))).WholeWords (EltTy.packing .f32)
  hwxs0_1 : ∀ i : grid0.Coords, EltTy.bits .f32 = 32 ∨ (Rect.unit (s := S2000x256) (fun _ => 0) (fun a => (Pipeline.Clip.of (cc0_transform_1 i a) (S2000x256.size a) (S10000x1433.size a)).extent (S2000x256.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1280x512.size a ≤ S1280x512.size a
  hwx0_2 : ∀ i : grid0.Coords, EltTy.bits .bf16 = 32 ∨ (Rect.block (s := S1280x512) S1280x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x512.size a ≤ S10000x512.size a
  hwx0_4 : ∀ i : grid0.Coords, EltTy.bits .bf16 = 32 ∨ (Rect.block (s := S10000x512) S2000x512.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x7.size a ≤ S512x7.size a
  hwx1_3 : ∀ i : grid1.Coords, EltTy.bits .bf16 = 32 ∨ (Rect.block (s := S512x7) S512x7.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x7.size a ≤ S10000x7.size a
  hwx1_4 : ∀ i : grid1.Coords, EltTy.bits .bf16 = 32 ∨ (Rect.block (s := S10000x7) S400x7.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S10000x7.size a
  hwx2_1 : ∀ i : grid2.Coords, EltTy.bits .bf16 = 32 ∨ (Rect.block (s := S10000x7) S10000x7.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x7.size a ≤ S10000x7.size a
  hwx2_3 : ∀ i : grid2.Coords, EltTy.bits .f32 = 32 ∨ (Rect.block (s := S10000x7) S400x7.size (cc2_transform_3 i) (hinb2_3 i)).WholeWords (EltTy.packing .f32)

variable [Facts₀]

def dot_S2000x1280_S1280x512_S2000x512_1_0_0_1_n_n : DotDims S2000x1280 S1280x512 S2000x512 where
  lhsContracting := [1]
  rhsContracting := [0]
  lhsNonContracting := [0]
  rhsNonContracting := [1]
  lhsBatch := []
  rhsBatch := []
  wf := dot_S2000x1280_S1280x512_S2000x512_1_0_0_1_n_n_wf
def dot_S2000x256_S256x512_S2000x512_1_0_0_1_n_n : DotDims S2000x256 S256x512 S2000x512 where
  lhsContracting := [1]
  rhsContracting := [0]
  lhsNonContracting := [0]
  rhsNonContracting := [1]
  lhsBatch := []
  rhsBatch := []
  wf := dot_S2000x256_S256x512_S2000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf
def dot_S400x512_S512x7_S400x7_1_0_0_1_n_n : DotDims S400x512 S512x7 S400x7 where
  lhsContracting := [1]
  rhsContracting := [0]
  lhsNonContracting := [0]
  rhsNonContracting := [1]
  lhsBatch := []
  rhsBatch := []
  wf := dot_S400x512_S512x7_S400x7_1_0_0_1_n_n_wf
def dot_S400x10000_S10000x7_S400x7_1_0_0_1_n_n : DotDims S400x10000 S10000x7 S400x7 where
  lhsContracting := [1]
  rhsContracting := [0]
  lhsNonContracting := [0]
  rhsNonContracting := [1]
  lhsBatch := []
  rhsBatch := []
  wf := dot_S400x10000_S10000x7_S400x7_1_0_0_1_n_n_wf

abbrev win0_0 : Pipeline.Window sig grid0 :=
  Pipeline.Window.ofSpecClip (Memref.whole main_arg0) S2000x1280.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg0) S2000x256.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v2) S1280x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S2000x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x7.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S400x7.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v7) S10000x7.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v8) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S400x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S10000x1433 : Shape := ⟨2, ![10000, 1433]⟩
abbrev S10000x10000 : Shape := ⟨2, ![10000, 10000]⟩
abbrev S1433x512 : Shape := ⟨2, ![1433, 512]⟩
abbrev S512 : Shape := ⟨1, ![512]⟩
abbrev S512x7 : Shape := ⟨2, ![512, 7]⟩
abbrev S7 : Shape := ⟨1, ![7]⟩
abbrev S10000x512 : Shape := ⟨2, ![10000, 512]⟩
abbrev S1x512 : Shape := ⟨2, ![1, 512]⟩
abbrev S_ : Shape := ⟨0, ![]⟩
abbrev S10000x7 : Shape := ⟨2, ![10000, 7]⟩
abbrev S1x7 : Shape := ⟨2, ![1, 7]⟩
abbrev S10000 : Shape := ⟨1, ![10000]⟩
abbrev S10000x1 : Shape := ⟨2, ![10000, 1]⟩

abbrev nBuf : Space → Nat
  | .hbm => 33
  | .vmem => 0
  | .smem => 0
  | _ => 0

abbrev bufTy : (tb : Table) → Fin (tcTables nBuf tb) → BufTy
  | .hbm, ⟨0, _⟩ => ⟨S10000x1433, .f32⟩
  | .hbm, ⟨1, _⟩ => ⟨S10000x10000, .f32⟩
  | .hbm, ⟨2, _⟩ => ⟨S1433x512, .f32⟩
  | .hbm, ⟨3, _⟩ => ⟨S512, .f32⟩
  | .hbm, ⟨4, _⟩ => ⟨S512x7, .f32⟩
  | .hbm, ⟨5, _⟩ => ⟨S7, .f32⟩
  | .hbm, ⟨6, _⟩ => ⟨S10000x512, .f32⟩
  | .hbm, ⟨7, _⟩ => ⟨S10000x512, .f32⟩
  | .hbm, ⟨8, _⟩ => ⟨S1x512, .f32⟩
  | .hbm, ⟨9, _⟩ => ⟨S10000x512, .f32⟩
  | .hbm, ⟨10, _⟩ => ⟨S10000x512, .f32⟩
  | .hbm, ⟨11, _⟩ => ⟨S_, .f32⟩
  | .hbm, ⟨12, _⟩ => ⟨S10000x512, .f32⟩
  | .hbm, ⟨13, _⟩ => ⟨S10000x512, .f32⟩
  | .hbm, ⟨14, _⟩ => ⟨S10000x7, .f32⟩
  | .hbm, ⟨15, _⟩ => ⟨S10000x7, .f32⟩
  | .hbm, ⟨16, _⟩ => ⟨S1x7, .f32⟩
  | .hbm, ⟨17, _⟩ => ⟨S10000x7, .f32⟩
  | .hbm, ⟨18, _⟩ => ⟨S10000x7, .f32⟩
  | .hbm, ⟨19, _⟩ => ⟨S_, .f32⟩
  | .hbm, ⟨20, _⟩ => ⟨S10000, .f32⟩
  | .hbm, ⟨21, _⟩ => ⟨S_, .f32⟩
  | .hbm, ⟨22, _⟩ => ⟨S10000, .f32⟩
  | .hbm, ⟨23, _⟩ => ⟨S10000, .f32⟩
  | .hbm, ⟨24, _⟩ => ⟨S10000x1, .f32⟩
  | .hbm, ⟨25, _⟩ => ⟨S10000x7, .f32⟩
  | .hbm, ⟨26, _⟩ => ⟨S10000x7, .f32⟩
  | .hbm, ⟨27, _⟩ => ⟨S10000x7, .f32⟩
  | .hbm, ⟨28, _⟩ => ⟨S_, .f32⟩
  | .hbm, ⟨29, _⟩ => ⟨S10000, .f32⟩
  | .hbm, ⟨30, _⟩ => ⟨S10000x1, .f32⟩
  | .hbm, ⟨31, _⟩ => ⟨S10000x7, .f32⟩
  | .hbm, ⟨32, _⟩ => ⟨S10000x7, .f32⟩
  | _, _ => ⟨S10000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  bcast_S_S10000x512 : S_.BroadcastsInDim S10000x512 (![] : Fin 0 → Fin S10000x512.rank)
  bcast_S7_S1x7_1 : S7.BroadcastsInDim S1x7 (![1] : Fin 1 → Fin S1x7.rank)
  bcast_S1x7_S10000x7_0_1 : S1x7.BroadcastsInDim S10000x7 (![0, 1] : Fin 2 → Fin S10000x7.rank)
  reducesTo_S10000x7_S10000_d1 : S10000x7.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x7_0_1 : S10000x1.BroadcastsInDim S10000x7 (![0, 1] : Fin 2 → Fin S10000x7.rank)
  dot_S10000x1433_S1433x512_S10000x512_1_0_0_1_n_n_wf : DotDims.WF S10000x1433 S1433x512 S10000x512 [1] [0] [0] [1] [] []
  dot_S10000x10000_S10000x512_S10000x512_1_0_0_1_n_n_wf : DotDims.WF S10000x10000 S10000x512 S10000x512 [1] [0] [0] [1] [] []
  dot_S10000x512_S512x7_S10000x7_1_0_0_1_n_n_wf : DotDims.WF S10000x512 S512x7 S10000x7 [1] [0] [0] [1] [] []
  dot_S10000x10000_S10000x7_S10000x7_1_0_0_1_n_n_wf : DotDims.WF S10000x10000 S10000x7 S10000x7 [1] [0] [0] [1] [] []

variable [Facts₀]

def dot_S10000x1433_S1433x512_S10000x512_1_0_0_1_n_n : DotDims S10000x1433 S1433x512 S10000x512 where
  lhsContracting := [1]
  rhsContracting := [0]
  lhsNonContracting := [0]
  rhsNonContracting := [1]
  lhsBatch := []
  rhsBatch := []
  wf := dot_S10000x1433_S1433x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf
def dot_S10000x512_S512x7_S10000x7_1_0_0_1_n_n : DotDims S10000x512 S512x7 S10000x7 where
  lhsContracting := [1]
  rhsContracting := [0]
  lhsNonContracting := [0]
  rhsNonContracting := [1]
  lhsBatch := []
  rhsBatch := []
  wf := dot_S10000x512_S512x7_S10000x7_1_0_0_1_n_n_wf
def dot_S10000x10000_S10000x7_S10000x7_1_0_0_1_n_n : DotDims S10000x10000 S10000x7 S10000x7 where
  lhsContracting := [1]
  rhsContracting := [0]
  lhsNonContracting := [0]
  rhsNonContracting := [1]
  lhsBatch := []
  rhsBatch := []
  wf := dot_S10000x10000_S10000x7_S10000x7_1_0_0_1_n_n_wf

class Facts : Prop extends Facts₀ where

variable [Facts]
-- ==== Proof.K.Defs0.lean ====
import proofs.«122189_g25812753449811_cont_sun_m_348_20_alg».proof.Proof.Gen.Kernel.Launch
import proofs.«122189_g25812753449811_cont_sun_m_348_20_alg».proof.Proof.Gen.Kernel.Skeleton
import proofs.«122189_g25812753449811_cont_sun_m_348_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The first call: a row block of the features against the zero-padded first weight, the feature axis read
    through two windows of one array — columns 0‥1279, and the 256-wide block that starts at column 1280 and runs
    103 columns past the array's end. Everything is stated at the contents `V` the buffers hold when the call
    is entered. This module holds the definitions; the obligations and the values are proved over them. -/

variable (V : (c : Dev nD) → (b : Ref sig .tc) → Buf (Elt F) ((c : Thread nD τ).loc b))

/-- Window `w`'s block at point `t`, read off its array at the entry contents: the block's part inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two feature blocks as staging-buffer contents: the part inside the array, and the zero word past the
    array's end (what the body computes there does not depend on the filler: the wide window never overhangs at a
    block column it visits, and the narrow one is masked to zero on exactly the lanes past the end). -/
def xa0 (c : Dev nD) (t : Fin cfg0.N) : S2000x1280.Idx → Elt F .f32 :=
  win0_0.fill (grid0.coords t) (fun _ => Scalar.ofBits .f32 0#32) (iblk0 V c 0 t)
def xb0 (c : Dev nD) (t : Fin cfg0.N) : S2000x256.Idx → Elt F .f32 :=
  win0_1.fill (grid0.coords t) (fun _ => Scalar.ofBits .f32 0#32) (iblk0 V c 1 t)

/-! ## The body's accesses: every load and the one store take the whole staging buffer -/

abbrev r0_0 : Rect S2000x1280 := Rect.unit (s := S2000x1280) ![0, 0] S2000x1280.size inb_S2000x1280_S2000x1280_0_0
abbrev r0_1 : Rect S2000x256 := Rect.unit (s := S2000x256) ![0, 0] S2000x256.size inb_S2000x256_S2000x256_0_0
abbrev r0_2 : Rect S1280x512 := Rect.unit (s := S1280x512) ![0, 0] S1280x512.size inb_S1280x512_S1280x512_0_0
abbrev r0_3 : Rect S256x512 := Rect.unit (s := S256x512) ![0, 0] S256x512.size inb_S256x512_S256x512_0_0
abbrev r0_4 : Rect S2000x512 := Rect.unit (s := S2000x512) ![0, 0] S2000x512.size inb_S2000x512_S2000x512_0_0

/-- What the body leaves in the result's staging buffer, from the four input buffers' contents: its one store. -/
def out0_4 (x0 : Vec F S2000x1280 .f32) (x1 : Vec F S2000x256 .f32) (x2 : Vec F S1280x512 .bf16) (x3 : Vec F S256x512 .bf16) : Vec F S2000x512 .bf16 :=
  View.canon [⟨r0_4, k0_pay1 (View.ld x0 r0_0) (View.ld x1 r0_1) (View.ld x2 r0_2) (View.ld x3 r0_3)⟩]

/-- The proof data: the arrays as the call finds them; after the body the two feature windows' buffers at their
    zero-filled blocks, the two weight windows' at their blocks, the result's at `out0_4` of those; nothing
    owed. The two feature windows read ONE array: each holds half of it; the other arrays are held whole. -/
def dat0 (c : Dev nD) : Dat τ (Elt F) Unit ℕ (UR sig nD τ) ℕ cfg0 c where
  A w := V c (Pipeline.arrRef spec0 w)
  after w t := match w with
    | ⟨0, _⟩ => xa0 V c t
    | ⟨1, _⟩ => xb0 V c t
    | ⟨2, _⟩ => iblk0 V c 2 t
    | ⟨3, _⟩ => iblk0 V c 3 t
    | ⟨4, _⟩ => out0_4 (xa0 V c t) (xb0 V c t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xa0 V c t := by dsimp only [dat0]
theorem after0_1 (c : Dev nD) (t : Fin cfg0.N) : (dat0 V c).after 1 t = xb0 V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (xa0 V c t) (xb0 V c t) (iblk0 V c 2 t) (iblk0 V c 3 t) := by dsimp only [dat0]

end Cert.Kernel.Hand

end
-- ==== Proof.K.Region1.lean ====
import proofs.«122189_g25812753449811_cont_sun_m_348_20_alg».proof.Proof.Gen.Kernel.Launch
import proofs.«122189_g25812753449811_cont_sun_m_348_20_alg».proof.Proof.Gen.Kernel.Skeleton
import proofs.«122189_g25812753449811_cont_sun_m_348_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The second call: a row block of the adjacency against the whole first-layer product, the bias, the
    rectifier, and the second weight. Everything is stated at the contents `V` the buffers hold when the call
    is entered. -/

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether that point fetched it or an
    earlier one did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S400x10000 := Rect.unit (s := S400x10000) ![0, 0] S400x10000.size inb_S400x10000_S400x10000_0_0
abbrev r1_1 : Rect S10000x512 := Rect.unit (s := S10000x512) ![0, 0] S10000x512.size inb_S10000x512_S10000x512_0_0
abbrev r1_2 : Rect S1x512 := Rect.unit (s := S1x512) ![0, 0] S1x512.size inb_S1x512_S1x512_0_0
abbrev r1_3 : Rect S512x7 := Rect.unit (s := S512x7) ![0, 0] S512x7.size inb_S512x7_S512x7_0_0
abbrev r1_4 : Rect S400x7 := Rect.unit (s := S400x7) ![0, 0] S400x7.size inb_S400x7_S400x7_0_0

/-- What the body leaves in the result's staging buffer, from the four input blocks: its one store. -/
def out1_4 (x0 : Vec F S400x10000 .f32) (x1 : Vec F S10000x512 .bf16) (x2 : Vec F S1x512 .f32) (x3 : Vec F S512x7 .bf16) : Vec F S400x7 .bf16 :=
  View.canon [⟨r1_4, k1_pay1 (View.ld x0 r1_0) (View.ld x1 r1_1) (View.ld x2 r1_2) (View.ld x3 r1_3)⟩]

/-- The store covers the buffer. -/
theorem cover1_4 (p0 : Vec F S400x7 .bf16) (y : S400x7.Idx) :
    ∃ pc ∈ ([⟨r1_4, p0⟩] : List (View.Piece (Elt F) S400x7 .bf16)), y ∈ pc.1.set :=
  View.cover_of_tiled [⟨r1_4, p0⟩] S400x7.size (by rfl) y

set_option maxHeartbeats 1000000 in
/-- The body on whole staging memrefs: the inputs' at contents `xW`, the result's at anything, run to the
    continuation with the inputs' unchanged and the result's at `out1_4` of the inputs'. -/
theorem sound_kernel1 (c : Dev nD) (E : Set ℕ) (i : grid1.Coords)
    (arg1 : Memref sig .tc .vmem S400x10000 .f32) (harg1 : arg1.IsWhole) (arg2 : Memref sig .tc .vmem S10000x512 .bf16) (harg2 : arg2.IsWhole)
    (arg3 : Memref sig .tc .vmem S1x512 .f32) (harg3 : arg3.IsWhole) (arg4 : Memref sig .tc .vmem S512x7 .bf16) (harg4 : arg4.IsWhole)
    (arg5 : Memref sig .tc .vmem S400x7 .bf16) (harg5 : arg5.IsWhole)
    (x0 : Vec F S400x10000 .f32) (x1 : Vec F S10000x512 .bf16) (x2 : Vec F S1x512 .f32) (x3 : Vec F S512x7 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__k2_body i arg1 harg1 arg2 harg2 arg3 harg3 arg4 harg4 arg5 harg5) K := by
  simp only [cc1__k2_body_eq_skeleton]; unfold cc1__k2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The arrays as the call finds them; after the body each input's buffer at its block and the result's at
    `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Region2.lean ====
import proofs.«122189_g25812753449811_cont_sun_m_348_20_alg».proof.Proof.Gen.Kernel.Launch
import proofs.«122189_g25812753449811_cont_sun_m_348_20_alg».proof.Proof.Gen.Kernel.Skeleton
import proofs.«122189_g25812753449811_cont_sun_m_348_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The third call: a row block of the adjacency against the whole second-layer product, the bias, and the
    row-wise normalised exponential. Everything is stated at the contents `V` the buffers hold when the call
    is entered. -/

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether that point fetched it or an
    earlier one did (the block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S400x10000 := Rect.unit (s := S400x10000) ![0, 0] S400x10000.size inb_S400x10000_S400x10000_0_0
abbrev r2_1 : Rect S10000x7 := Rect.unit (s := S10000x7) ![0, 0] S10000x7.size inb_S10000x7_S10000x7_0_0
abbrev r2_2 : Rect S1x7 := Rect.unit (s := S1x7) ![0, 0] S1x7.size inb_S1x7_S1x7_0_0
abbrev r2_3 : Rect S400x7 := Rect.unit (s := S400x7) ![0, 0] S400x7.size inb_S400x7_S400x7_0_0

/-- What the body leaves in the result's staging buffer, from the three input blocks: its one store. -/
def out2_3 (x0 : Vec F S400x10000 .f32) (x1 : Vec F S10000x7 .bf16) (x2 : Vec F S1x7 .f32) : Vec F S400x7 .f32 :=
  View.canon [⟨r2_3, k2_pay1 (View.ld x0 r2_0) (View.ld x1 r2_1) (View.ld x2 r2_2)⟩]

/-- The store covers the buffer. -/
theorem cover2_3 (p0 : Vec F S400x7 .f32) (y : S400x7.Idx) :
    ∃ pc ∈ ([⟨r2_3, p0⟩] : List (View.Piece (Elt F) S400x7 .f32)), y ∈ pc.1.set :=
  View.cover_of_tiled [⟨r2_3, p0⟩] S400x7.size (by rfl) y

set_option maxHeartbeats 1000000 in
/-- The body on whole staging memrefs: the inputs' at contents `xW`, the result's at anything, run to the
    continuation with the inputs' unchanged and the result's at `out2_3` of the inputs'. -/
theorem sound_kernel2 (c : Dev nD) (E : Set ℕ) (i : grid2.Coords)
    (arg1 : Memref sig .tc .vmem S400x10000 .f32) (harg1 : arg1.IsWhole) (arg2 : Memref sig .tc .vmem S10000x7 .bf16) (harg2 : arg2.IsWhole)
    (arg3 : Memref sig .tc .vmem S1x7 .f32) (harg3 : arg3.IsWhole) (arg4 : Memref sig .tc .vmem S400x7 .f32) (harg4 : arg4.IsWhole)
    (x0 : Vec F S400x10000 .f32) (x1 : Vec F S10000x7 .bf16) (x2 : Vec F S1x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__k3_body i arg1 harg1 arg2 harg2 arg3 harg3 arg4 harg4) K := by
  simp only [cc2__k3_body_eq_skeleton]; unfold cc2__k3_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The arrays as the call finds them; after the body each input's buffer at its block and the result's at
    `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.RunDefs.lean ====
import proofs.«122189_g25812753449811_cont_sun_m_348_20_alg».proof.Proof.Gen.Kernel.Launch
import proofs.«122189_g25812753449811_cont_sun_m_348_20_alg».proof.Proof.Gen.Kernel.Skeleton
import proofs.«122189_g25812753449811_cont_sun_m_348_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«122189_g25812753449811_cont_sun_m_348_20_alg».proof.Proof.K.Defs0
import proofs.«122189_g25812753449811_cont_sun_m_348_20_alg».proof.Proof.K.Region1
import proofs.«122189_g25812753449811_cont_sun_m_348_20_alg».proof.Proof.K.Region2
import proofs.«122189_g25812753449811_cont_sun_m_348_20_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's eight items from the launch to the return

## The buffers' contents at each boundary between two items: a fold from the launch memory. A host stretch
applies its operations; a call leaves its result array at what its write-backs leave and nothing else changed. -/

/-- Core `c`'s buffers at launch. -/
abbrev W0 (c : Dev nD) : Valuation τ sig (Elt F) := fun b => m (c, b)
/-- After the constant. -/
abbrev W1 (c : Dev nD) : Valuation τ sig (Elt F) := StableHlo.after hostOps0 (W0 m c)
/-- After the padding of the first weight. -/
abbrev W2 (c : Dev nD) : Valuation τ sig (Elt F) := StableHlo.after hostOps0_1 (W1 m c)
/-- After the format changes and the two slices: the first call's entry. -/
abbrev W3 (c : Dev nD) : Valuation τ sig (Elt F) := StableHlo.after hostOps0_2 (W2 m c)
abbrev V3 : (c : Dev nD) → (b : Ref sig .tc) → Buf (Elt F) ((c : Thread nD τ).loc b) := fun c b => W3 m c b
/-- What the first call leaves in its result array. -/
def A4 (c : Dev nD) : Buf (Elt F) ((c : Thread nD τ).loc main_v5) := (dat0 (V3 m) c).arrAt 4 cfg0.N
/-- At the first call's exit. -/
abbrev W4 (c : Dev nD) : Valuation τ sig (Elt F) := Function.update (W3 m c) main_v5 (A4 m c)
/-- After the first bias is reshaped to a row: the second call's entry. -/
abbrev W5 (c : Dev nD) : Valuation τ sig (Elt F) := StableHlo.after hostOps1 (W4 m c)
abbrev V5 : (c : Dev nD) → (b : Ref sig .tc) → Buf (Elt F) ((c : Thread nD τ).loc b) := fun c b => W5 m c b
/-- What the second call leaves in its result array. -/
def A6 (c : Dev nD) : Buf (Elt F) ((c : Thread nD τ).loc main_v7) := (dat1 (V5 m) c).arrAt 4 cfg1.N
/-- At the second call's exit. -/
abbrev W6 (c : Dev nD) : Valuation τ sig (Elt F) := Function.update (W5 m c) main_v7 (A6 m c)
/-- After the second bias is reshaped to a row: the third call's entry. -/
abbrev W7 (c : Dev nD) : Valuation τ sig (Elt F) := StableHlo.after hostOps2 (W6 m c)
abbrev V7 : (c : Dev nD) → (b : Ref sig .tc) → Buf (Elt F) ((c : Thread nD τ).loc b) := fun c b => W7 m c b
/-- What the third call leaves in its result array. -/
def A8 (c : Dev nD) : Buf (Elt F) ((c : Thread nD τ).loc main_v9) := (dat2 (V7 m) c).arrAt 3 cfg2.N
/-- At the return. -/
abbrev W8 (c : Dev nD) : Valuation τ sig (Elt F) := Function.update (W7 m c) main_v9 (A8 m c)
abbrev V4 : (c : Dev nD) → (b : Ref sig .tc) → Buf (Elt F) ((c : Thread nD τ).loc b) := fun c b => W4 m c b
abbrev V6 : (c : Dev nD) → (b : Ref sig .tc) → Buf (Elt F) ((c : Thread nD τ).loc b) := fun c b => W6 m c b
abbrev V8 : (c : Dev nD) → (b : Ref sig .tc) → Buf (Elt F) ((c : Thread nD τ).loc b) := fun c b => W8 m c b

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ ([main_v5] : List (Ref sig .tc))) : W4 m c r = W3 m c r := by
  simp only [W4, Function.update_of_ne (StableHlo.devRef_ne_of_ne (List.ne_of_not_mem_cons h) : (Proc.devRef .tc r : DevRef τ sig) ≠ Proc.devRef .tc main_v5)]
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ ([main_v7] : List (Ref sig .tc))) : W6 m c r = W5 m c r := by
  simp only [W6, Function.update_of_ne (StableHlo.devRef_ne_of_ne (List.ne_of_not_mem_cons h) : (Proc.devRef .tc r : DevRef τ sig) ≠ Proc.devRef .tc main_v7)]
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ ([main_v9] : List (Ref sig .tc))) : W8 m c r = W7 m c r := by
  simp only [W8, Function.update_of_ne (StableHlo.devRef_ne_of_ne (List.ne_of_not_mem_cons h) : (Proc.devRef .tc r : DevRef τ sig) ≠ Proc.devRef .tc main_v9)]

theorem W4_main_v5 (c : Dev nD) : W4 m c main_v5 = A4 m c := by simp only [W4, Function.update_self]
theorem W6_main_v7 (c : Dev nD) : W6 m c main_v7 = A6 m c := by simp only [W6, Function.update_self]
theorem W8_main_v9 (c : Dev nD) : W8 m c main_v9 = A8 m c := by simp only [W8, Function.update_self]

/-- An argument reaches the end as launched: no host stretch writes it and no call's result array is one. -/
theorem W8_arg (c : Dev nD) (r : Ref sig .tc) (h0 : r ∉ hostOps0_W) (h1 : r ∉ hostOps0_1_W) (h2 : r ∉ hostOps0_2_W)
    (h3 : r ∉ ([main_v5] : List (Ref sig .tc))) (h4 : r ∉ hostOps1_W) (h5 : r ∉ ([main_v7] : List (Ref sig .tc)))
    (h6 : r ∉ hostOps2_W) (h7 : r ∉ ([main_v9] : List (Ref sig .tc))) : W8 m c r = m ((c : Thread nD τ).loc r) :=
  (W8_of m c r h7).trans <| (W7_of m c r h6).trans <| (W6_of m c r h5).trans <| (W5_of m c r h4).trans <|
    (W4_of m c r h3).trans <| (W3_of m c r h2).trans <| (W2_of m c r h1).trans <| (W1_of m c r h0).trans rfl

end Cert.Kernel.Hand

end
-- ==== Proof.K.Region0.lean ====
import proofs.«122189_g25812753449811_cont_sun_m_348_20_alg».proof.Proof.K.Defs0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.StableHlo.Predicate
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The first call: its body obligation, and the exchange of the buffers for the windows' arrays

    The two feature windows are loose: a fetch lands the block's part inside the array and leaves words nothing
    names on the rest of the staging buffer. The body's result must not depend on them. For the wide window no
    such word exists (every block it visits lies inside the array); for the narrow one they sit on lanes 153‥255,
    which the body replaces by the zero word before it uses the buffer. -/

/-! ## The payload does not see the filler -/

/-- The mask (the lane number below 153) is set only on a lane below 153. -/
theorem lane_of_mask0 (j : S2000x256.Idx)
    (h : cmpi .slt (iota .tc S2000x256 32 [1] iota_S2000x256_d1_w32) (broadcast S2000x256 153#32) j = 1#1) : (j 1).val < 153 := by
  have hj : (j 1).val < 256 := (j 1).isLt
  have h' : IntOp.cmpi .slt (BitVec.ofNat 32 (j 1).val) 153#32 = 1#1 := by
    rw [← iota_single_apply .tc S2000x256 32 1 iota_S2000x256_d1_w32 j]; exact h
  have e : (BitVec.ofNat 32 (j 1).val).toNat = (j 1).val := by
    rw [BitVec.toNat_ofNat]; exact Nat.mod_eq_of_lt (by omega)
  have := (StableHlo.Predicate.slt_iff_toNat (a := BitVec.ofNat 32 (j 1).val) (b := 153#32) (by rw [e]; omega) (by decide)).mp h'
  rw [e] at this
  exact this

/-- The masked narrow block reads its buffer on lanes below 153 only. -/
theorem masked_congr0 (b b' : Vec F S2000x256 .f32) (h : ∀ j : S2000x256.Idx, (j 1).val < 153 → b j = b' j) (z : Vec F S2000x256 .f32) :
    select (cmpi .slt (iota .tc S2000x256 32 [1] iota_S2000x256_d1_w32) (broadcast S2000x256 153#32)) b z
      = select (cmpi .slt (iota .tc S2000x256 32 [1] iota_S2000x256_d1_w32) (broadcast S2000x256 153#32)) b' z := by
  funext j
  rw [ValueIdx.select_apply, ValueIdx.select_apply]
  unfold Scalar.select
  split
  · next hc => rw [h j (lane_of_mask0 j hc)]
  · rfl

/-- So does the payload: two narrow buffers that agree on lanes below 153 give one result. -/
theorem k0_pay1_congr_lanes (a : Vec F S2000x1280 .f32) (b b' : Vec F S2000x256 .f32) (w2 : Vec F S1280x512 .bf16) (w3 : Vec F S256x512 .bf16)
    (h : ∀ j : S2000x256.Idx, (j 1).val < 153 → b j = b' j) : k0_pay1 a b w2 w3 = k0_pay1 a b' w2 w3 := by
  unfold k0_pay1
  dsimp only
  rw [masked_congr0 b b' h]

/-- A load through the whole-buffer rectangle reads the contents. -/
theorem zero_off0 : (![0, 0] : Fin 2 → Nat) = fun _ => 0 := funext fun a => by fin_cases a <;> rfl
theorem ld0_0 (x : Vec F S2000x1280 .f32) : View.ld x r0_0 = x := View.ld_unit_zero zero_off0 _ x
theorem ld0_1 (x : Vec F S2000x256 .f32) : View.ld x r0_1 = x := View.ld_unit_zero zero_off0 _ x

/-- The result buffer's contents depend on the wide buffer as a whole and on the narrow one on lanes below 153 only. -/
theorem out0_4_congr {x0 x0' : Vec F S2000x1280 .f32} {x1 x1' : Vec F S2000x256 .f32} (x2 : Vec F S1280x512 .bf16) (x3 : Vec F S256x512 .bf16)
    (h0 : x0 = x0') (h1 : ∀ j : S2000x256.Idx, (j 1).val < 153 → x1 j = x1' j) : out0_4 x0 x1 x2 x3 = out0_4 x0' x1' x2 x3 := by
  subst h0
  unfold out0_4
  rw [ld0_1 x1, ld0_1 x1', k0_pay1_congr_lanes _ x1 x1' _ _ h1]

/-! ## What the transfers move of the two feature blocks -/

/-- The wide window's transfers move its whole block at every point; the narrow window's its 2000 rows and its
    first 153 lanes. -/
theorem xsize0_0 : ∀ t : Fin grid0.N, win0_0.xsize (grid0.coords t) 0 = 2000 ∧ win0_0.xsize (grid0.coords t) 1 = 1280 := by decide +kernel
theorem xsize0_1 : ∀ t : Fin grid0.N, win0_1.xsize (grid0.coords t) 0 = 2000 ∧ win0_1.xsize (grid0.coords t) 1 = 153 := by decide +kernel

theorem moved0_0 (t : Fin grid0.N) (j : S2000x1280.Idx) : win0_0.moved (grid0.coords t) j = true :=
  (win0_0.moved_iff _ j).mpr fun a => match a with
    | ⟨0, _⟩ => by show (j 0).val < win0_0.xsize (grid0.coords t) 0; rw [(xsize0_0 t).1]; exact (j 0).isLt
    | ⟨1, _⟩ => by show (j 1).val < win0_0.xsize (grid0.coords t) 1; rw [(xsize0_0 t).2]; exact (j 1).isLt

theorem moved0_1 (t : Fin grid0.N) (j : S2000x256.Idx) (hj : (j 1).val < 153) : win0_1.moved (grid0.coords t) j = true :=
  (win0_1.moved_iff _ j).mpr fun a => match a with
    | ⟨0, _⟩ => by show (j 0).val < win0_1.xsize (grid0.coords t) 0; rw [(xsize0_1 t).1]; exact (j 0).isLt
    | ⟨1, _⟩ => by show (j 1).val < win0_1.xsize (grid0.coords t) 1; rw [(xsize0_1 t).2]; exact hj

/-- So a fetched wide buffer holds nothing of what it held before, -/
theorem fill0_0 {α : Type} (t : Fin grid0.N) (d d' : S2000x1280.Idx → α) (g : (win0_0.xblock (grid0.coords t)).Idx → α) :
    win0_0.fill (grid0.coords t) d g = win0_0.fill (grid0.coords t) d' g := by
  funext j; unfold Window.fill; rw [dif_pos (moved0_0 t j), dif_pos (moved0_0 t j)]

/-- and a fetched narrow buffer nothing on lanes below 153. -/
theorem fill0_1 {α : Type} (t : Fin grid0.N) (d d' : S2000x256.Idx → α) (g : (win0_1.xblock (grid0.coords t)).Idx → α)
    (j : S2000x256.Idx) (hj : (j 1).val < 153) : win0_1.fill (grid0.coords t) d g j = win0_1.fill (grid0.coords t) d' g j := by
  unfold Window.fill; rw [dif_pos (moved0_1 t j hj), dif_pos (moved0_1 t j hj)]

/-! ## The body -/

/-- The store covers the buffer. -/
theorem cover0_4 (p0 : Vec F S2000x512 .bf16) (y : S2000x512.Idx) :
    ∃ pc ∈ ([⟨r0_4, p0⟩] : List (View.Piece (Elt F) S2000x512 .bf16)), y ∈ pc.1.set :=
  View.cover_of_tiled [⟨r0_4, p0⟩] S2000x512.size (by rfl) y

set_option maxHeartbeats 1000000 in
/-- The body on whole staging memrefs: the inputs' at any contents, the result's at anything, run to the
    continuation with the inputs' unchanged and the result's at the one store's payload over the inputs'. -/
theorem sound_kernel0 (c : Dev nD) (E : Set ℕ) (i : grid0.Coords)
    (arg1 : Memref sig .tc .vmem S2000x1280 .f32) (harg1 : arg1.IsWhole) (arg2 : Memref sig .tc .vmem S2000x256 .f32) (harg2 : arg2.IsWhole)
    (arg3 : Memref sig .tc .vmem S1280x512 .bf16) (harg3 : arg3.IsWhole) (arg4 : Memref sig .tc .vmem S256x512 .bf16) (harg4 : arg4.IsWhole)
    (arg5 : Memref sig .tc .vmem S2000x512 .bf16) (harg5 : arg5.IsWhole)
    (x0 : Vec F S2000x1280 .f32) (x1 : Vec F S2000x256 .f32) (x2 : Vec F S1280x512 .bf16) (x3 : Vec F S256x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__k1_body i arg1 harg1 arg2 harg2 arg3 harg3 arg4 harg4 arg5 harg5) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## What the body finds in the staging buffers -/

variable (V : (c : Dev nD) → (b : Ref sig .tc) → Buf (Elt F) ((c : Thread nD τ).loc b))

/-- The two feature windows are fetched at every point: the buffer holds the block on the part the fetch moved and
    what the overwrite before the fetch left, any words, elsewhere. -/
theorem before0_0 (c : Dev nD) (t : Fin cfg0.N) (d) :
    (dat0 V c).before 0 t d = win0_0.fill (grid0.coords t) d (iblk0 V c 0 t) := by
  unfold Dat.before; rw [if_pos (fetch0_0 t)]; rfl
theorem before0_1 (c : Dev nD) (t : Fin cfg0.N) (d) :
    (dat0 V c).before 1 t d = win0_1.fill (grid0.coords t) d (iblk0 V c 1 t) := by
  unfold Dat.before; rw [if_pos (fetch0_1 t)]; rfl

/-- The two weight windows hold their block at every point, fetched there or at the first point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The zero-filled feature blocks, cut back to what the transfers move, are the blocks. -/
theorem cut_xa0 (c : Dev nD) (t : Fin cfg0.N) : win0_0.cut (grid0.coords t) (xa0 V c t) = iblk0 V c 0 t := by
  unfold xa0; exact win0_0.cut_fill _ _ _
theorem cut_xb0 (c : Dev nD) (t : Fin cfg0.N) : win0_1.cut (grid0.coords t) (xb0 V c t) = iblk0 V c 1 t := by
  unfold xb0; exact win0_1.cut_fill _ _ _

/-- The result over two fetched feature buffers, whatever words the fetches left past the blocks, is the result
    over the zero-filled blocks. -/
theorem out0_4_fill (c : Dev nD) (t : Fin cfg0.N) (d0 : S2000x1280.Idx → Elt F .f32) (d1 : S2000x256.Idx → Elt F .f32)
    (x2 : Vec F S1280x512 .bf16) (x3 : Vec F S256x512 .bf16) :
    out0_4 (win0_0.fill (grid0.coords t) d0 (iblk0 V c 0 t)) (win0_1.fill (grid0.coords t) d1 (iblk0 V c 1 t)) x2 x3
      = out0_4 (xa0 V c t) (xb0 V c t) x2 x3 := by
  unfold xa0 xb0
  exact out0_4_congr x2 x3 (fill0_0 t _ _ _) (fun j hj => fill0_1 t _ _ _ j hj)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- The feature windows' buffers are stated on the part their transfers move only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2, after0_3, after0_4, cut_xa0, cut_xb0]
  iintro ⟨HΦ, Ho, ⟨%d0, H0⟩, ⟨%d1, H1⟩, ⟨%d2, H2⟩, ⟨%d3, H3⟩, ⟨%d4, H4⟩⟩
  rw [before0_0 V c t d0, before0_1 V c t d1, before0_2 V c t d2, before0_3 V c t d3]
  iapply (sound_kernel0 c Set.univ _ _ _ _ _ _ _ _ _ _ _ (win0_0.fill (grid0.coords t) d0 (iblk0 V c 0 t))
    (win0_1.fill (grid0.coords t) d1 (iblk0 V c 1 t)) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  rw [out0_4_fill V c t d0 d1]
  iexact H4

theorem body_obligation0 (c : Dev nD) : BodyObligationLoose (dat0 (F := F) V c) (defs₀ (F := F)) Variants.none () Set.univ := fun t => by
  rw [bigSep_W0, bigSep_W0]
  exact sound_body0 V c t

/-! ## Entry and exit: the core's unscoped buffers against the windows' arrays

    The two feature windows read one array: the pipeline holds it twice, at the two halves of the full share.
    The other three arrays are held whole. -/

/-- The four buffers behind the five windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v5) ↦{fullShare} W main_v5)) := by
  unfold Pipeline.arrBufs
  exact bigSep_eq_bigSepL_of_eq [main_arg0, main_v2, main_v3, main_v5] (by decide) (by decide) _

/-- The five windows' arrays at contents F, one by one: each a whole buffer, at the window's share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v5) ↦{fullShare} G 4)) := by
  unfold Dat.arrays
  -- the two feature windows' arrays are one memref: one equation says of both that the memref is its whole buffer
  rw [bigSep_W0, (arr_whole0 0).set_eq_univ, (arr_whole0 2).set_eq_univ, (arr_whole0 3).set_eq_univ, (arr_whole0 4).set_eq_univ]
  rfl

theorem entry0 (c : Dev nD) : (unscopedBufs c (V c) : sProp 𝕄)
    ⊢ iprop((dat0 V c).arrays (dat0 V c).A ∗ Pipeline.unscopedRest (Ix := Unit) (Name := ℕ) (U := UR sig nD τ) (Lvl := ℕ) spec0 c (V c)) := by
  have hsplit : (unscopedBufs c (V c) : sProp 𝕄)
      = iprop(Pipeline.arrBufs (Ix := Unit) (Name := ℕ) (U := UR sig nD τ) (Lvl := ℕ) spec0 c (V c)
          ∗ Pipeline.unscopedRest (Ix := Unit) (Name := ℕ) (U := UR sig nD τ) (Lvl := ℕ) spec0 c (V c)) :=
    Pipeline.unscopedBufs_split₀ cfgs (0 : Fin 3) winFacts₀0.arr_unscoped c (V c)
  rw [hsplit, arrBufs0_eq, arrays0_eq]
  iintro ⟨⟨H0, H2, H3, H5⟩, Hr⟩
  ihave H0 := (pointsTo_share (PosShare.mem_left_op_right fullShare)).1 $$ H0
  icases H0 with ⟨H0l, H0r⟩
  isplitr [Hr]
  swap; · iexact Hr
  isplitl [H0l]; · iexact H0l
  isplitl [H0r]; · iexact H0r
  isplitl [H2]; · iexact H2
  isplitl [H3]; · iexact H3
  iexact H5

theorem exit0 (c : Dev nD) (V' : (b : Ref sig .tc) → Buf (Elt F) ((c : Thread nD τ).loc b))
    (h5 : V' main_v5 = (dat0 V c).arrAt 4 cfg0.N) (hrest : ∀ b, b ≠ main_v5 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs c V' : sProp 𝕄) := by
  have hsplit : (unscopedBufs c V' : sProp 𝕄)
      = iprop(Pipeline.arrBufs (Ix := Unit) (Name := ℕ) (U := UR sig nD τ) (Lvl := ℕ) spec0 c V'
          ∗ Pipeline.unscopedRest (Ix := Unit) (Name := ℕ) (U := UR sig nD τ) (Lvl := ℕ) spec0 c V') :=
    Pipeline.unscopedBufs_split₀ cfgs (0 : Fin 3) winFacts₀0.arr_unscoped c V'
  -- off the windows' arrays the two valuations agree: the result's array is a window's
  have hr : (Pipeline.unscopedRest (Ix := Unit) (Name := ℕ) (U := UR sig nD τ) (Lvl := ℕ) spec0 c (V c) : sProp 𝕄)
      = Pipeline.unscopedRest (Ix := Unit) (Name := ℕ) (U := UR sig nD τ) (Lvl := ℕ) spec0 c V' := by
    unfold Pipeline.unscopedRest
    exact bigSep_congr fun b hb => by
      rw [hrest b fun e => (Finset.mem_sdiff.mp hb).2 (e ▸ Finset.mem_image.mpr ⟨(4 : Fin 5), Finset.mem_univ _, rfl⟩)]
  -- the input windows' arrays are never written
  rw [hsplit, arrBufs0_eq, arrays0_eq, hr, (dat0 V c).arrAt_in 0 rfl, (dat0 V c).arrAt_in 1 rfl, (dat0 V c).arrAt_in 2 rfl,
    (dat0 V c).arrAt_in 3 rfl, A_eq0, A_eq0, A_eq0, A_eq0, ← h5]
  iintro ⟨⟨H0l, H0r, H2, H3, H5⟩, Hr⟩
  ihave H0 := (pointsTo_share (PosShare.mem_left_op_right fullShare)).2 $$ [H0l H0r]
  · isplitl [H0l]; · iexact H0l
    iexact H0r
  isplitr [Hr]
  swap; · iexact Hr
  isplitl [H0]; · rw [hrest main_arg0 (by decide)]; iexact H0
  isplitl [H2]; · rw [hrest main_v2 (by decide)]; iexact H2
  isplitl [H3]; · rw [hrest main_v3 (by decide)]; iexact H3
  iexact H5

end Cert.Kernel.Hand

end
-- ==== Proof.K.Run.lean ====
import proofs.«122189_g25812753449811_cont_sun_m_348_20_alg».proof.Proof.Gen.Kernel.Launch
import proofs.«122189_g25812753449811_cont_sun_m_348_20_alg».proof.Proof.Gen.Kernel.Skeleton
import proofs.«122189_g25812753449811_cont_sun_m_348_20_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«122189_g25812753449811_cont_sun_m_348_20_alg».proof.Proof.K.RunDefs
import proofs.«122189_g25812753449811_cont_sun_m_348_20_alg».proof.Proof.K.Region0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: @main's eight items as segments over the fold of contents -/

/-! ## The proof data family and the thread state between two items -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the register at some state. -/
abbrev Tₙ (c : Dev nD) : sProp 𝕄 := iprop(StableHlo.held (c : Thread nD τ) (Pipeline.ucRefs τ sig) (W8 m c) ∗ ∃ r, prngReg c r)

theorem hrest0 (c : Dev nD) : ∀ b, b ≠ main_v5 → V4 m c b = V3 m c b := fun b hb =>
  W4_of m c b (fun h => hb (List.mem_singleton.mp h))

set_option backward.isDefEq.respectTransparency.types false in
/-- Call 0 over the thread state: entered from every unscoped buffer at its entry contents, left at its exit
    contents. The feature array is split between the two windows that read it and joined again; the generator
    register goes into the invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := body_obligation0 (V3 m) c
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit : (unscopedBufs c (V3 m c) : sProp 𝕄) ⊢ iprop((pdats m 0 c).arrays (pdats m 0 c).A
          ∗ Pipeline.unscopedRest (Ix := Unit) (Name := ℕ) (U := UR sig nD τ) (Lvl := ℕ) spec0 c (V3 m c)) := entry0 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V3 m c))
        ⊢ (unscopedBufs c (V4 m c) : sProp 𝕄) := exit0 (V3 m) c (V4 m c) (W4_main_v5 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After call 1 each of its arrays holds what the pipeline leaves (an input what it held, the result the folded
    write-backs), and every other buffer what it held at entry. -/
theorem hF1 (c : Dev nD) : ∀ w, (dat1 (V5 m) c).arrAt w cfg1.N = V6 m c (Pipeline.arrRef spec1 w) := fun
  | ⟨0, _⟩ => ((dat1 (V5 m) c).arrAt_in 0 rfl _).trans ((A_eq1 (V5 m) c 0).trans (W6_of m c _ (by decide)).symm)
  | ⟨1, _⟩ => ((dat1 (V5 m) c).arrAt_in 1 rfl _).trans ((A_eq1 (V5 m) c 1).trans (W6_of m c _ (by decide)).symm)
  | ⟨2, _⟩ => ((dat1 (V5 m) c).arrAt_in 2 rfl _).trans ((A_eq1 (V5 m) c 2).trans (W6_of m c _ (by decide)).symm)
  | ⟨3, _⟩ => ((dat1 (V5 m) c).arrAt_in 3 rfl _).trans ((A_eq1 (V5 m) c 3).trans (W6_of m c _ (by decide)).symm)
  | ⟨4, _⟩ => (W6_main_v7 m c).symm
theorem hrest1 (c : Dev nD) : ∀ b, b ∉ Finset.univ.image (Pipeline.arrRef spec1) → V6 m c b = V5 m c b := fun b hb =>
  W6_of m c b (fun h => hb (Finset.mem_image.mpr ⟨4, Finset.mem_univ _, (List.mem_singleton.mp h).symm⟩))

set_option backward.isDefEq.respectTransparency.types false in
/-- Call 1 over the thread state: entered from every unscoped buffer at its entry contents, left at its exit
    contents. Its arrays are split out of the unscoped buffers and put back; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After call 2 each of its arrays holds what the pipeline leaves (an input what it held, the result the folded
    write-backs), and every other buffer what it held at entry. -/
theorem hF2 (c : Dev nD) : ∀ w, (dat2 (V7 m) c).arrAt w cfg2.N = V8 m c (Pipeline.arrRef spec2 w) := fun
  | ⟨0, _⟩ => ((dat2 (V7 m) c).arrAt_in 0 rfl _).trans ((A_eq2 (V7 m) c 0).trans (W8_of m c _ (by decide)).symm)
  | ⟨1, _⟩ => ((dat2 (V7 m) c).arrAt_in 1 rfl _).trans ((A_eq2 (V7 m) c 1).trans (W8_of m c _ (by decide)).symm)
  | ⟨2, _⟩ => ((dat2 (V7 m) c).arrAt_in 2 rfl _).trans ((A_eq2 (V7 m) c 2).trans (W8_of m c _ (by decide)).symm)
  | ⟨3, _⟩ => (W8_main_v9 m c).symm
theorem hrest2 (c : Dev nD) : ∀ b, b ∉ Finset.univ.image (Pipeline.arrRef spec2) → V8 m c b = V7 m c b := fun b hb =>
  W8_of m c b (fun h => hb (Finset.mem_image.mpr ⟨3, Finset.mem_univ _, (List.mem_singleton.mp h).symm⟩))

set_option backward.isDefEq.respectTransparency.types false in
/-- Call 2 over the thread state: entered from every unscoped buffer at its entry contents, left at its exit
    contents. Its arrays are split out of the unscoped buffers and put back; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and
    every unscoped buffer ends at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The same run read at the result and the six arguments: the result array holds what the third call's
    write-backs leave, every argument what it held at launch. -/
theorem run_result : θ_run defs (onTc (τ := τ) (main (F := F))) ⟨m, fun _ => 0, ρ⟩ (fun r => ∀ c : Dev nD,
      r.2.mem ((c.tc : Thread nD τ).loc main_v9) = A8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v9 (by decide))).trans (W8_main_v9 m c),
     (h c _ (mem_uc main_arg0 (by decide))).trans (W8_arg m c main_arg0 (by decide) (by decide) (by decide) (by decide) (by decide) (by decide) (by decide) (by decide)),
     (h c _ (mem_uc main_arg1 (by decide))).trans (W8_arg m c main_arg1 (by decide) (by decide) (by decide) (by decide) (by decide) (by decide) (by decide) (by decide)),
     (h c _ (mem_uc main_arg2 (by decide))).trans (W8_arg m c main_arg2 (by decide) (by decide) (by decide) (by decide) (by decide) (by decide) (by decide) (by decide)),
     (h c _ (mem_uc main_arg3 (by decide))).trans (W8_arg m c main_arg3 (by decide) (by decide) (by decide) (by decide) (by decide) (by decide) (by decide) (by decide)),
     (h c _ (mem_uc main_arg4 (by decide))).trans (W8_arg m c main_arg4 (by decide) (by decide) (by decide) (by decide) (by decide) (by decide) (by decide) (by decide)),
     (h c _ (mem_uc main_arg5 (by decide))).trans (W8_arg m c main_arg5 (by decide) (by decide) (by decide) (by decide) (by decide) (by decide) (by decide) (by decide))⟩)
    (run_main m ρ)

end Cert.Kernel.Hand

end
-- ==== Proof.KI.Defs0.lean ====
import proofs.«122189_g25812753449811_cont_sun_m_348_20_alg».proof.Proof.Gen.KernelIdeal.Launch
import proofs.«122189_g25812753449811_cont_sun_m_348_20_alg».proof.Proof.Gen.KernelIdeal.Skeleton
import proofs.«122189_g25812753449811_cont_sun_m_348_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The first call: a row block of the features against the zero-padded first weight, the feature axis read
    through two windows of one array — columns 0‥1279, and the 256-wide block that starts at column 1280 and runs
    103 columns past the array's end. Everything is stated at the contents `V` the buffers hold when the call
    is entered. This module holds the definitions; the obligations and the values are proved over them. -/

variable (V : (c : Dev nD) → (b : Ref sig .tc) → Buf (Elt F) ((c : Thread nD τ).loc b))

/-- Window `w`'s block at point `t`, read off its array at the entry contents: the block's part inside the array. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two feature blocks as staging-buffer contents: the part inside the array, and the zero word past the
    array's end (what the body computes there does not depend on the filler: the wide window never overhangs at a
    block column it visits, and the narrow one is masked to zero on exactly the lanes past the end). -/
def xa0 (c : Dev nD) (t : Fin cfg0.N) : S2000x1280.Idx → Elt F .f32 :=
  win0_0.fill (grid0.coords t) (fun _ => Scalar.ofBits .f32 0#32) (iblk0 V c 0 t)
def xb0 (c : Dev nD) (t : Fin cfg0.N) : S2000x256.Idx → Elt F .f32 :=
  win0_1.fill (grid0.coords t) (fun _ => Scalar.ofBits .f32 0#32) (iblk0 V c 1 t)

/-! ## The body's accesses: every load and the one store take the whole staging buffer -/

abbrev r0_0 : Rect S2000x1280 := Rect.unit (s := S2000x1280) ![0, 0] S2000x1280.size inb_S2000x1280_S2000x1280_0_0
abbrev r0_1 : Rect S2000x256 := Rect.unit (s := S2000x256) ![0, 0] S2000x256.size inb_S2000x256_S2000x256_0_0
abbrev r0_2 : Rect S1280x512 := Rect.unit (s := S1280x512) ![0, 0] S1280x512.size inb_S1280x512_S1280x512_0_0
abbrev r0_3 : Rect S256x512 := Rect.unit (s := S256x512) ![0, 0] S256x512.size inb_S256x512_S256x512_0_0
abbrev r0_4 : Rect S2000x512 := Rect.unit (s := S2000x512) ![0, 0] S2000x512.size inb_S2000x512_S2000x512_0_0

/-- What the body leaves in the result's staging buffer, from the four input buffers' contents: its one store. -/
def out0_4 (x0 : Vec F S2000x1280 .f32) (x1 : Vec F S2000x256 .f32) (x2 : Vec F S1280x512 .bf16) (x3 : Vec F S256x512 .bf16) : Vec F S2000x512 .bf16 :=
  View.canon [⟨r0_4, k0_pay1 (View.ld x0 r0_0) (View.ld x1 r0_1) (View.ld x2 r0_2) (View.ld x3 r0_3)⟩]

/-- The proof data: the arrays as the call finds them; after the body the two feature windows' buffers at their
    zero-filled blocks, the two weight windows' at their blocks, the result's at `out0_4` of those; nothing
    owed. The two feature windows read ONE array: each holds half of it; the other arrays are held whole. -/
def dat0 (c : Dev nD) : Dat τ (Elt F) Unit ℕ (UR sig nD τ) ℕ cfg0 c where
  A w := V c (Pipeline.arrRef spec0 w)
  after w t := match w with
    | ⟨0, _⟩ => xa0 V c t
    | ⟨1, _⟩ => xb0 V c t
    | ⟨2, _⟩ => iblk0 V c 2 t
    | ⟨3, _⟩ => iblk0 V c 3 t
    | ⟨4, _⟩ => out0_4 (xa0 V c t) (xb0 V c t) (iblk0 V c 2 t) (iblk0 V c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = xa0 V c t := by dsimp only [dat0]
theorem after0_1 (c : Dev nD) (t : Fin cfg0.N) : (dat0 V c).after 1 t = xb0 V c t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (xa0 V c t) (xb0 V c t) (iblk0 V c 2 t) (iblk0 V c 3 t) := by dsimp only [dat0]

end Cert.KernelIdeal.Hand

end
-- ==== Proof.KI.Region1.lean ====
import proofs.«122189_g25812753449811_cont_sun_m_348_20_alg».proof.Proof.Gen.KernelIdeal.Launch
import proofs.«122189_g25812753449811_cont_sun_m_348_20_alg».proof.Proof.Gen.KernelIdeal.Skeleton
import proofs.«122189_g25812753449811_cont_sun_m_348_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The second call: a row block of the adjacency against the whole first-layer product, the bias, the
    rectifier, and the second weight. Everything is stated at the contents `V` the buffers hold when the call
    is entered. -/

variable (V : (c : Dev nD) → (b : Ref sig .tc) → Buf (Elt F) ((c : Thread nD τ).loc b))

/-- Window `w`'s block at point `t`, read off its array at the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether that point fetched it or an
    earlier one did (the block index has not moved since). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take the whole staging buffer -/

abbrev r1_0 : Rect S400x10000 := Rect.unit (s := S400x10000) ![0, 0] S400x10000.size inb_S400x10000_S400x10000_0_0
abbrev r1_1 : Rect S10000x512 := Rect.unit (s := S10000x512) ![0, 0] S10000x512.size inb_S10000x512_S10000x512_0_0
abbrev r1_2 : Rect S1x512 := Rect.unit (s := S1x512) ![0, 0] S1x512.size inb_S1x512_S1x512_0_0
abbrev r1_3 : Rect S512x7 := Rect.unit (s := S512x7) ![0, 0] S512x7.size inb_S512x7_S512x7_0_0
abbrev r1_4 : Rect S400x7 := Rect.unit (s := S400x7) ![0, 0] S400x7.size inb_S400x7_S400x7_0_0

/-- What the body leaves in the result's staging buffer, from the four input blocks: its one store. -/
def out1_4 (x0 : Vec F S400x10000 .f32) (x1 : Vec F S10000x512 .bf16) (x2 : Vec F S1x512 .f32) (x3 : Vec F S512x7 .bf16) : Vec F S400x7 .bf16 :=
  View.canon [⟨r1_4, k1_pay1 (View.ld x0 r1_0) (View.ld x1 r1_1) (View.ld x2 r1_2) (View.ld x3 r1_3)⟩]

/-- The store covers the buffer. -/
theorem cover1_4 (p0 : Vec F S400x7 .bf16) (y : S400x7.Idx) :
    ∃ pc ∈ ([⟨r1_4, p0⟩] : List (View.Piece (Elt F) S400x7 .bf16)), y ∈ pc.1.set :=
  View.cover_of_tiled [⟨r1_4, p0⟩] S400x7.size (by rfl) y

set_option maxHeartbeats 1000000 in
/-- The body on whole staging memrefs: the inputs' at contents `xW`, the result's at anything, run to the
    continuation with the inputs' unchanged and the result's at `out1_4` of the inputs'. -/
theorem sound_kernel1 (c : Dev nD) (E : Set ℕ) (i : grid1.Coords)
    (arg1 : Memref sig .tc .vmem S400x10000 .f32) (harg1 : arg1.IsWhole) (arg2 : Memref sig .tc .vmem S10000x512 .bf16) (harg2 : arg2.IsWhole)
    (arg3 : Memref sig .tc .vmem S1x512 .f32) (harg3 : arg3.IsWhole) (arg4 : Memref sig .tc .vmem S512x7 .bf16) (harg4 : arg4.IsWhole)
    (arg5 : Memref sig .tc .vmem S400x7 .bf16) (harg5 : arg5.IsWhole)
    (x0 : Vec F S400x10000 .f32) (x1 : Vec F S10000x512 .bf16) (x2 : Vec F S1x512 .f32) (x3 : Vec F S512x7 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__k2_body i arg1 harg1 arg2 harg2 arg3 harg3 arg4 harg4 arg5 harg5) K := by
  simp only [cc1__k2_body_eq_skeleton]; unfold cc1__k2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The proof data -/

/-- The arrays as the call finds them; after the body each input's buffer at its block and the result's at
    `out1_4` of the input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«122189_g25812753449811_cont_sun_m_348_20_alg».proof.Proof.Gen.KernelIdeal.Launch
import proofs.«122189_g25812753449811_cont_sun_m_348_20_alg».proof.Proof.Gen.KernelIdeal.Skeleton
import proofs.«122189_g25812753449811_cont_sun_m_348_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The third call: a row block of the adjacency against the whole second-layer product, the bias, and the
    row-wise normalised exponential. Everything is stated at the contents `V` the buffers hold when the call
    is entered. -/

variable (V : (c : Dev nD) → (b : Ref sig .tc) → Buf (Elt F) ((c : Thread nD τ).loc b))

/-- Window `w`'s block at point `t`, read off its array at the entry contents. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether that point fetched it or an
    earlier one did (the block index has not moved since). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/

abbrev r2_0 : Rect S400x10000 := Rect.unit (s := S400x10000) ![0, 0] S400x10000.size inb_S400x10000_S400x10000_0_0
abbrev r2_1 : Rect S10000x7 := Rect.unit (s := S10000x7) ![0, 0] S10000x7.size inb_S10000x7_S10000x7_0_0
abbrev r2_2 : Rect S1x7 := Rect.unit (s := S1x7) ![0, 0] S1x7.size inb_S1x7_S1x7_0_0
abbrev r2_3 : Rect S400x7 := Rect.unit (s := S400x7) ![0, 0] S400x7.size inb_S400x7_S400x7_0_0

/-- What the body leaves in the result's staging buffer, from the three input blocks: its one store. -/
def out2_3 (x0 : Vec F S400x10000 .f32) (x1 : Vec F S10000x7 .bf16) (x2 : Vec F S1x7 .f32) : Vec F S400x7 .f32 :=
  View.canon [⟨r2_3, k2_pay1 (View.ld x0 r2_0) (View.ld x1 r2_1) (View.ld x2 r2_2)⟩]

/-- The store covers the buffer. -/
theorem cover2_3 (p0 : Vec F S400x7 .f32) (y : S400x7.Idx) :
    ∃ pc ∈ ([⟨r2_3, p0⟩] : List (View.Piece (Elt F) S400x7 .f32)), y ∈ pc.1.set :=
  View.cover_of_tiled [⟨r2_3, p0⟩] S400x7.size (by rfl) y

set_option maxHeartbeats 1000000 in
/-- The body on whole staging memrefs: the inputs' at contents `xW`, the result's at anything, run to the
    continuation with the inputs' unchanged and the result's at `out2_3` of the inputs'. -/
theorem sound_kernel2 (c : Dev nD) (E : Set ℕ) (i : grid2.Coords)
    (arg1 : Memref sig .tc .vmem S400x10000 .f32) (harg1 : arg1.IsWhole) (arg2 : Memref sig .tc .vmem S10000x7 .bf16) (harg2 : arg2.IsWhole)
    (arg3 : Memref sig .tc .vmem S1x7 .f32) (harg3 : arg3.IsWhole) (arg4 : Memref sig .tc .vmem S400x7 .f32) (harg4 : arg4.IsWhole)
    (x0 : Vec F S400x10000 .f32) (x1 : Vec F S10000x7 .bf16) (x2 : Vec F S1x7 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__k3_body i arg1 harg1 arg2 harg2 arg3 harg3 arg4 harg4) K := by
  simp only [cc2__k3_body_eq_skeleton]; unfold cc2__k3_body_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The proof data -/

/-- The arrays as the call finds them; after the body each input's buffer at its block and the result's at
    `out2_3` of the input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.RunDefs.lean ====
import proofs.«122189_g25812753449811_cont_sun_m_348_20_alg».proof.Proof.Gen.KernelIdeal.Launch
import proofs.«122189_g25812753449811_cont_sun_m_348_20_alg».proof.Proof.Gen.KernelIdeal.Skeleton
import proofs.«122189_g25812753449811_cont_sun_m_348_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«122189_g25812753449811_cont_sun_m_348_20_alg».proof.Proof.KI.Defs0
import proofs.«122189_g25812753449811_cont_sun_m_348_20_alg».proof.Proof.KI.Region1
import proofs.«122189_g25812753449811_cont_sun_m_348_20_alg».proof.Proof.KI.Region2
import proofs.«122189_g25812753449811_cont_sun_m_348_20_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run: @main's eight items from the launch to the return

## The buffers' contents at each boundary between two items: a fold from the launch memory. A host stretch
applies its operations; a call leaves its result array at what its write-backs leave and nothing else changed. -/

/-- Core `c`'s buffers at launch. -/
abbrev W0 (c : Dev nD) : Valuation τ sig (Elt F) := fun b => m (c, b)
/-- After the constant. -/
abbrev W1 (c : Dev nD) : Valuation τ sig (Elt F) := StableHlo.after hostOps0 (W0 m c)
/-- After the padding of the first weight. -/
abbrev W2 (c : Dev nD) : Valuation τ sig (Elt F) := StableHlo.after hostOps0_1 (W1 m c)
/-- After the format changes and the two slices: the first call's entry. -/
abbrev W3 (c : Dev nD) : Valuation τ sig (Elt F) := StableHlo.after hostOps0_2 (W2 m c)
abbrev V3 : (c : Dev nD) → (b : Ref sig .tc) → Buf (Elt F) ((c : Thread nD τ).loc b) := fun c b => W3 m c b
/-- What the first call leaves in its result array. -/
def A4 (c : Dev nD) : Buf (Elt F) ((c : Thread nD τ).loc main_v5) := (dat0 (V3 m) c).arrAt 4 cfg0.N
/-- At the first call's exit. -/
abbrev W4 (c : Dev nD) : Valuation τ sig (Elt F) := Function.update (W3 m c) main_v5 (A4 m c)
/-- After the first bias is reshaped to a row: the second call's entry. -/
abbrev W5 (c : Dev nD) : Valuation τ sig (Elt F) := StableHlo.after hostOps1 (W4 m c)
abbrev V5 : (c : Dev nD) → (b : Ref sig .tc) → Buf (Elt F) ((c : Thread nD τ).loc b) := fun c b => W5 m c b
/-- What the second call leaves in its result array. -/
def A6 (c : Dev nD) : Buf (Elt F) ((c : Thread nD τ).loc main_v7) := (dat1 (V5 m) c).arrAt 4 cfg1.N
/-- At the second call's exit. -/
abbrev W6 (c : Dev nD) : Valuation τ sig (Elt F) := Function.update (W5 m c) main_v7 (A6 m c)
/-- After the second bias is reshaped to a row: the third call's entry. -/
abbrev W7 (c : Dev nD) : Valuation τ sig (Elt F) := StableHlo.after hostOps2 (W6 m c)
abbrev V7 : (c : Dev nD) → (b : Ref sig .tc) → Buf (Elt F) ((c : Thread nD τ).loc b) := fun c b => W7 m c b
/-- What the third call leaves in its result array. -/
def A8 (c : Dev nD) : Buf (Elt F) ((c : Thread nD τ).loc main_v9) := (dat2 (V7 m) c).arrAt 3 cfg2.N
/-- At the return. -/
abbrev W8 (c : Dev nD) : Valuation τ sig (Elt F) := Function.update (W7 m c) main_v9 (A8 m c)
abbrev V4 : (c : Dev nD) → (b : Ref sig .tc) → Buf (Elt F) ((c : Thread nD τ).loc b) := fun c b => W4 m c b
abbrev V6 : (c : Dev nD) → (b : Ref sig .tc) → Buf (Elt F) ((c : Thread nD τ).loc b) := fun c b => W6 m c b
abbrev V8 : (c : Dev nD) → (b : Ref sig .tc) → Buf (Elt F) ((c : Thread nD τ).loc b) := fun c b => W8 m c b

/-! ## What each item leaves unchanged -/

theorem W1_of (c : Dev nD) (r : Ref sig .tc) (h : r ∉ hostOps0_W) : W1 m c r = W0 m c r :=
  StableHlo.after_of_writes_sub hostOps0 _ hostOps0_writes h
theorem W2_of (c : Dev nD) (r : Ref sig .tc) (h : r ∉ hostOps0_1_W) : W2 m c r = W1 m c r :=
  StableHlo.after_of_writes_sub hostOps0_1 _ hostOps0_1_writes h
theorem W3_of (c : Dev nD) (r : Ref sig .tc) (h : r ∉ hostOps0_2_W) : W3 m c r = W2 m c r :=
  StableHlo.after_of_writes_sub hostOps0_2 _ hostOps0_2_writes h
theorem W4_of (c : Dev nD) (r : Ref sig .tc) (h : r ∉ ([main_v5] : List (Ref sig .tc))) : W4 m c r = W3 m c r := by
  simp only [W4, Function.update_of_ne (StableHlo.devRef_ne_of_ne (List.ne_of_not_mem_cons h) : (Proc.devRef .tc r : DevRef τ sig) ≠ Proc.devRef .tc main_v5)]
theorem W5_of (c : Dev nD) (r : Ref sig .tc) (h : r ∉ hostOps1_W) : W5 m c r = W4 m c r :=
  StableHlo.after_of_writes_sub hostOps1 _ hostOps1_writes h
theorem W6_of (c : Dev nD) (r : Ref sig .tc) (h : r ∉ ([main_v7] : List (Ref sig .tc))) : W6 m c r = W5 m c r := by
  simp only [W6, Function.update_of_ne (StableHlo.devRef_ne_of_ne (List.ne_of_not_mem_cons h) : (Proc.devRef .tc r : DevRef τ sig) ≠ Proc.devRef .tc main_v7)]
theorem W7_of (c : Dev nD) (r : Ref sig .tc) (h : r ∉ hostOps2_W) : W7 m c r = W6 m c r :=
  StableHlo.after_of_writes_sub hostOps2 _ hostOps2_writes h
theorem W8_of (c : Dev nD) (r : Ref sig .tc) (h : r ∉ ([main_v9] : List (Ref sig .tc))) : W8 m c r = W7 m c r := by
  simp only [W8, Function.update_of_ne (StableHlo.devRef_ne_of_ne (List.ne_of_not_mem_cons h) : (Proc.devRef .tc r : DevRef τ sig) ≠ Proc.devRef .tc main_v9)]

theorem W4_main_v5 (c : Dev nD) : W4 m c main_v5 = A4 m c := by simp only [W4, Function.update_self]
theorem W6_main_v7 (c : Dev nD) : W6 m c main_v7 = A6 m c := by simp only [W6, Function.update_self]
theorem W8_main_v9 (c : Dev nD) : W8 m c main_v9 = A8 m c := by simp only [W8, Function.update_self]

/-- An argument reaches the end as launched: no host stretch writes it and no call's result array is one. -/
theorem W8_arg (c : Dev nD) (r : Ref sig .tc) (h0 : r ∉ hostOps0_W) (h1 : r ∉ hostOps0_1_W) (h2 : r ∉ hostOps0_2_W)
    (h3 : r ∉ ([main_v5] : List (Ref sig .tc))) (h4 : r ∉ hostOps1_W) (h5 : r ∉ ([main_v7] : List (Ref sig .tc)))
    (h6 : r ∉ hostOps2_W) (h7 : r ∉ ([main_v9] : List (Ref sig .tc))) : W8 m c r = m ((c : Thread nD τ).loc r) :=
  (W8_of m c r h7).trans <| (W7_of m c r h6).trans <| (W6_of m c r h5).trans <| (W5_of m c r h4).trans <|
    (W4_of m c r h3).trans <| (W3_of m c r h2).trans <| (W2_of m c r h1).trans <| (W1_of m c r h0).trans rfl

end Cert.KernelIdeal.Hand

end
-- ==== Proof.KI.Region0.lean ====
import proofs.«122189_g25812753449811_cont_sun_m_348_20_alg».proof.Proof.KI.Defs0
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.StableHlo.Predicate
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! # The first call: its body obligation, and the exchange of the buffers for the windows' arrays

    The two feature windows are loose: a fetch lands the block's part inside the array and leaves words nothing
    names on the rest of the staging buffer. The body's result must not depend on them. For the wide window no
    such word exists (every block it visits lies inside the array); for the narrow one they sit on lanes 153‥255,
    which the body replaces by the zero word before it uses the buffer. -/

/-! ## The payload does not see the filler -/

/-- The mask (the lane number below 153) is set only on a lane below 153. -/
theorem lane_of_mask0 (j : S2000x256.Idx)
    (h : cmpi .slt (iota .tc S2000x256 32 [1] iota_S2000x256_d1_w32) (broadcast S2000x256 153#32) j = 1#1) : (j 1).val < 153 := by
  have hj : (j 1).val < 256 := (j 1).isLt
  have h' : IntOp.cmpi .slt (BitVec.ofNat 32 (j 1).val) 153#32 = 1#1 := by
    rw [← iota_single_apply .tc S2000x256 32 1 iota_S2000x256_d1_w32 j]; exact h
  have e : (BitVec.ofNat 32 (j 1).val).toNat = (j 1).val := by
    rw [BitVec.toNat_ofNat]; exact Nat.mod_eq_of_lt (by omega)
  have := (StableHlo.Predicate.slt_iff_toNat (a := BitVec.ofNat 32 (j 1).val) (b := 153#32) (by rw [e]; omega) (by decide)).mp h'
  rw [e] at this
  exact this

/-- The masked narrow block reads its buffer on lanes below 153 only. -/
theorem masked_congr0 (b b' : Vec F S2000x256 .f32) (h : ∀ j : S2000x256.Idx, (j 1).val < 153 → b j = b' j) (z : Vec F S2000x256 .f32) :
    select (cmpi .slt (iota .tc S2000x256 32 [1] iota_S2000x256_d1_w32) (broadcast S2000x256 153#32)) b z
      = select (cmpi .slt (iota .tc S2000x256 32 [1] iota_S2000x256_d1_w32) (broadcast S2000x256 153#32)) b' z := by
  funext j
  rw [ValueIdx.select_apply, ValueIdx.select_apply]
  unfold Scalar.select
  split
  · next hc => rw [h j (lane_of_mask0 j hc)]
  · rfl

/-- So does the payload: two narrow buffers that agree on lanes below 153 give one result. -/
theorem k0_pay1_congr_lanes (a : Vec F S2000x1280 .f32) (b b' : Vec F S2000x256 .f32) (w2 : Vec F S1280x512 .bf16) (w3 : Vec F S256x512 .bf16)
    (h : ∀ j : S2000x256.Idx, (j 1).val < 153 → b j = b' j) : k0_pay1 a b w2 w3 = k0_pay1 a b' w2 w3 := by
  unfold k0_pay1
  dsimp only
  rw [masked_congr0 b b' h]

/-- A load through the whole-buffer rectangle reads the contents. -/
theorem zero_off0 : (![0, 0] : Fin 2 → Nat) = fun _ => 0 := funext fun a => by fin_cases a <;> rfl
theorem ld0_0 (x : Vec F S2000x1280 .f32) : View.ld x r0_0 = x := View.ld_unit_zero zero_off0 _ x
theorem ld0_1 (x : Vec F S2000x256 .f32) : View.ld x r0_1 = x := View.ld_unit_zero zero_off0 _ x

/-- The result buffer's contents depend on the wide buffer as a whole and on the narrow one on lanes below 153 only. -/
theorem out0_4_congr {x0 x0' : Vec F S2000x1280 .f32} {x1 x1' : Vec F S2000x256 .f32} (x2 : Vec F S1280x512 .bf16) (x3 : Vec F S256x512 .bf16)
    (h0 : x0 = x0') (h1 : ∀ j : S2000x256.Idx, (j 1).val < 153 → x1 j = x1' j) : out0_4 x0 x1 x2 x3 = out0_4 x0' x1' x2 x3 := by
  subst h0
  unfold out0_4
  rw [ld0_1 x1, ld0_1 x1', k0_pay1_congr_lanes _ x1 x1' _ _ h1]

/-! ## What the transfers move of the two feature blocks -/

/-- The wide window's transfers move its whole block at every point; the narrow window's its 2000 rows and its
    first 153 lanes. -/
theorem xsize0_0 : ∀ t : Fin grid0.N, win0_0.xsize (grid0.coords t) 0 = 2000 ∧ win0_0.xsize (grid0.coords t) 1 = 1280 := by decide +kernel
theorem xsize0_1 : ∀ t : Fin grid0.N, win0_1.xsize (grid0.coords t) 0 = 2000 ∧ win0_1.xsize (grid0.coords t) 1 = 153 := by decide +kernel

theorem moved0_0 (t : Fin grid0.N) (j : S2000x1280.Idx) : win0_0.moved (grid0.coords t) j = true :=
  (win0_0.moved_iff _ j).mpr fun a => match a with
    | ⟨0, _⟩ => by show (j 0).val < win0_0.xsize (grid0.coords t) 0; rw [(xsize0_0 t).1]; exact (j 0).isLt
    | ⟨1, _⟩ => by show (j 1).val < win0_0.xsize (grid0.coords t) 1; rw [(xsize0_0 t).2]; exact (j 1).isLt

theorem moved0_1 (t : Fin grid0.N) (j : S2000x256.Idx) (hj : (j 1).val < 153) : win0_1.moved (grid0.coords t) j = true :=
  (win0_1.moved_iff _ j).mpr fun a => match a with
    | ⟨0, _⟩ => by show (j 0).val < win0_1.xsize (grid0.coords t) 0; rw [(xsize0_1 t).1]; exact (j 0).isLt
    | ⟨1, _⟩ => by show (j 1).val < win0_1.xsize (grid0.coords t) 1; rw [(xsize0_1 t).2]; exact hj

/-- So a fetched wide buffer holds nothing of what it held before, -/
theorem fill0_0 {α : Type} (t : Fin grid0.N) (d d' : S2000x1280.Idx → α) (g : (win0_0.xblock (grid0.coords t)).Idx → α) :
    win0_0.fill (grid0.coords t) d g = win0_0.fill (grid0.coords t) d' g := by
  funext j; unfold Window.fill; rw [dif_pos (moved0_0 t j), dif_pos (moved0_0 t j)]

/-- and a fetched narrow buffer nothing on lanes below 153. -/
theorem fill0_1 {α : Type} (t : Fin grid0.N) (d d' : S2000x256.Idx → α) (g : (win0_1.xblock (grid0.coords t)).Idx → α)
    (j : S2000x256.Idx) (hj : (j 1).val < 153) : win0_1.fill (grid0.coords t) d g j = win0_1.fill (grid0.coords t) d' g j := by
  unfold Window.fill; rw [dif_pos (moved0_1 t j hj), dif_pos (moved0_1 t j hj)]

/-! ## The body -/

/-- The store covers the buffer. -/
theorem cover0_4 (p0 : Vec F S2000x512 .bf16) (y : S2000x512.Idx) :
    ∃ pc ∈ ([⟨r0_4, p0⟩] : List (View.Piece (Elt F) S2000x512 .bf16)), y ∈ pc.1.set :=
  View.cover_of_tiled [⟨r0_4, p0⟩] S2000x512.size (by rfl) y

set_option maxHeartbeats 1000000 in
/-- The body on whole staging memrefs: the inputs' at any contents, the result's at anything, run to the
    continuation with the inputs' unchanged and the result's at the one store's payload over the inputs'. -/
theorem sound_kernel0 (c : Dev nD) (E : Set ℕ) (i : grid0.Coords)
    (arg1 : Memref sig .tc .vmem S2000x1280 .f32) (harg1 : arg1.IsWhole) (arg2 : Memref sig .tc .vmem S2000x256 .f32) (harg2 : arg2.IsWhole)
    (arg3 : Memref sig .tc .vmem S1280x512 .bf16) (harg3 : arg3.IsWhole) (arg4 : Memref sig .tc .vmem S256x512 .bf16) (harg4 : arg4.IsWhole)
    (arg5 : Memref sig .tc .vmem S2000x512 .bf16) (harg5 : arg5.IsWhole)
    (x0 : Vec F S2000x1280 .f32) (x1 : Vec F S2000x256 .f32) (x2 : Vec F S1280x512 .bf16) (x3 : Vec F S256x512 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__k1_body i arg1 harg1 arg2 harg2 arg3 harg3 arg4 harg4 arg5 harg5) K := by
  simp only [cc0__k1_body_eq_skeleton]; unfold cc0__k1_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## What the body finds in the staging buffers -/

variable (V : (c : Dev nD) → (b : Ref sig .tc) → Buf (Elt F) ((c : Thread nD τ).loc b))

/-- The two feature windows are fetched at every point: the buffer holds the block on the part the fetch moved and
    what the overwrite before the fetch left, any words, elsewhere. -/
theorem before0_0 (c : Dev nD) (t : Fin cfg0.N) (d) :
    (dat0 V c).before 0 t d = win0_0.fill (grid0.coords t) d (iblk0 V c 0 t) := by
  unfold Dat.before; rw [if_pos (fetch0_0 t)]; rfl
theorem before0_1 (c : Dev nD) (t : Fin cfg0.N) (d) :
    (dat0 V c).before 1 t d = win0_1.fill (grid0.coords t) d (iblk0 V c 1 t) := by
  unfold Dat.before; rw [if_pos (fetch0_1 t)]; rfl

/-- The two weight windows hold their block at every point, fetched there or at the first point. -/
theorem before0_2 (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
      (fun t => by rw [after0_3]; unfold Dat.blockOf iblk0; rw [A_eq0]; try rfl) t d).trans
    (by unfold Dat.fetched Dat.blockOf iblk0; rw [A_eq0]; try rfl)

/-- The zero-filled feature blocks, cut back to what the transfers move, are the blocks. -/
theorem cut_xa0 (c : Dev nD) (t : Fin cfg0.N) : win0_0.cut (grid0.coords t) (xa0 V c t) = iblk0 V c 0 t := by
  unfold xa0; exact win0_0.cut_fill _ _ _
theorem cut_xb0 (c : Dev nD) (t : Fin cfg0.N) : win0_1.cut (grid0.coords t) (xb0 V c t) = iblk0 V c 1 t := by
  unfold xb0; exact win0_1.cut_fill _ _ _

/-- The result over two fetched feature buffers, whatever words the fetches left past the blocks, is the result
    over the zero-filled blocks. -/
theorem out0_4_fill (c : Dev nD) (t : Fin cfg0.N) (d0 : S2000x1280.Idx → Elt F .f32) (d1 : S2000x256.Idx → Elt F .f32)
    (x2 : Vec F S1280x512 .bf16) (x3 : Vec F S256x512 .bf16) :
    out0_4 (win0_0.fill (grid0.coords t) d0 (iblk0 V c 0 t)) (win0_1.fill (grid0.coords t) d1 (iblk0 V c 1 t)) x2 x3
      = out0_4 (xa0 V c t) (xb0 V c t) x2 x3 := by
  unfold xa0 xb0
  exact out0_4_congr x2 x3 (fill0_0 t _ _ _) (fun j hj => fill0_1 t _ _ _ j hj)

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- The feature windows' buffers are stated on the part their transfers move only. -/
def bodyPost0 (c : Dev nD) (t : Fin cfg0.N) : sProp 𝕄 :=
  iprop((dat0 V c).Φ t.succ ∗ (dat0 V c).owesAt () t.succ
    ∗ (∃ d, owns (c : Thread nD τ) (st0_0 t) fullShare (win0_0.fill (grid0.coords t) d (win0_0.cut (grid0.coords t) ((dat0 V c).after 0 t))))
    ∗ (∃ d, owns (c : Thread nD τ) (st0_1 t) fullShare (win0_1.fill (grid0.coords t) d (win0_1.cut (grid0.coords t) ((dat0 V c).after 1 t))))
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  rw [show (dat0 V c).Φ t.succ = (dat0 V c).Φ t.castSucc from rfl,
    show (dat0 V c).owesAt () t.succ = (dat0 V c).owesAt () t.castSucc from rfl,
    after0_0, after0_1, after0_2, after0_3, after0_4, cut_xa0, cut_xb0]
  iintro ⟨HΦ, Ho, ⟨%d0, H0⟩, ⟨%d1, H1⟩, ⟨%d2, H2⟩, ⟨%d3, H3⟩, ⟨%d4, H4⟩⟩
  rw [before0_0 V c t d0, before0_1 V c t d1, before0_2 V c t d2, before0_3 V c t d3]
  iapply (sound_kernel0 c Set.univ _ _ _ _ _ _ _ _ _ _ _ (win0_0.fill (grid0.coords t) d0 (iblk0 V c 0 t))
    (win0_1.fill (grid0.coords t) d1 (iblk0 V c 1 t)) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexists d0; iexact H0
  isplitl [H1]; · iexists d1; iexact H1
  isplitl [H2]; · iexact H2
  isplitl [H3]; · iexact H3
  rw [out0_4_fill V c t d0 d1]
  iexact H4

theorem body_obligation0 (c : Dev nD) : BodyObligationLoose (dat0 (F := F) V c) (defs₀ (F := F)) Variants.none () Set.univ := fun t => by
  rw [bigSep_W0, bigSep_W0]
  exact sound_body0 V c t

/-! ## Entry and exit: the core's unscoped buffers against the windows' arrays

    The two feature windows read one array: the pipeline holds it twice, at the two halves of the full share.
    The other three arrays are held whole. -/

/-- The four buffers behind the five windows' arrays, one by one. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg0) ↦{fullShare} W main_arg0) ∗ (((c : Thread nD τ).loc main_v2) ↦{fullShare} W main_v2)
          ∗ (((c : Thread nD τ).loc main_v3) ↦{fullShare} W main_v3) ∗ (((c : Thread nD τ).loc main_v5) ↦{fullShare} W main_v5)) := by
  unfold Pipeline.arrBufs
  exact bigSep_eq_bigSepL_of_eq [main_arg0, main_v2, main_v3, main_v5] (by decide) (by decide) _

/-- The five windows' arrays at contents F, one by one: each a whole buffer, at the window's share. -/
theorem arrays0_eq (c : Dev nD) (G : (w : Fin cfg0.W) → Buf (Elt F) ((cfg0.win w).arr.view.loc (c : Thread nD τ))) :
    ((dat0 V c).arrays G : sProp 𝕄)
      = iprop((((c : Thread nD τ).loc main_arg0) ↦{fullShare.left} G 0) ∗ (((c : Thread nD τ).loc main_arg0) ↦{fullShare.right} G 1)
          ∗ (((c : Thread nD τ).loc main_v2) ↦{fullShare} G 2) ∗ (((c : Thread nD τ).loc main_v3) ↦{fullShare} G 3)
          ∗ (((c : Thread nD τ).loc main_v5) ↦{fullShare} G 4)) := by
  unfold Dat.arrays
  -- the two feature windows' arrays are one memref: one equation says of both that the memref is its whole buffer
  rw [bigSep_W0, (arr_whole0 0).set_eq_univ, (arr_whole0 2).set_eq_univ, (arr_whole0 3).set_eq_univ, (arr_whole0 4).set_eq_univ]
  rfl

theorem entry0 (c : Dev nD) : (unscopedBufs c (V c) : sProp 𝕄)
    ⊢ iprop((dat0 V c).arrays (dat0 V c).A ∗ Pipeline.unscopedRest (Ix := Unit) (Name := ℕ) (U := UR sig nD τ) (Lvl := ℕ) spec0 c (V c)) := by
  have hsplit : (unscopedBufs c (V c) : sProp 𝕄)
      = iprop(Pipeline.arrBufs (Ix := Unit) (Name := ℕ) (U := UR sig nD τ) (Lvl := ℕ) spec0 c (V c)
          ∗ Pipeline.unscopedRest (Ix := Unit) (Name := ℕ) (U := UR sig nD τ) (Lvl := ℕ) spec0 c (V c)) :=
    Pipeline.unscopedBufs_split₀ cfgs (0 : Fin 3) winFacts₀0.arr_unscoped c (V c)
  rw [hsplit, arrBufs0_eq, arrays0_eq]
  iintro ⟨⟨H0, H2, H3, H5⟩, Hr⟩
  ihave H0 := (pointsTo_share (PosShare.mem_left_op_right fullShare)).1 $$ H0
  icases H0 with ⟨H0l, H0r⟩
  isplitr [Hr]
  swap; · iexact Hr
  isplitl [H0l]; · iexact H0l
  isplitl [H0r]; · iexact H0r
  isplitl [H2]; · iexact H2
  isplitl [H3]; · iexact H3
  iexact H5

theorem exit0 (c : Dev nD) (V' : (b : Ref sig .tc) → Buf (Elt F) ((c : Thread nD τ).loc b))
    (h5 : V' main_v5 = (dat0 V c).arrAt 4 cfg0.N) (hrest : ∀ b, b ≠ main_v5 → V' b = V c b) :
    iprop((dat0 V c).arrays ((dat0 V c).arrAt · cfg0.N)
        ∗ Pipeline.unscopedRest (Ix := Unit) (Name := ℕ) (U := UR sig nD τ) (Lvl := ℕ) spec0 c (V c))
      ⊢ (unscopedBufs c V' : sProp 𝕄) := by
  have hsplit : (unscopedBufs c V' : sProp 𝕄)
      = iprop(Pipeline.arrBufs (Ix := Unit) (Name := ℕ) (U := UR sig nD τ) (Lvl := ℕ) spec0 c V'
          ∗ Pipeline.unscopedRest (Ix := Unit) (Name := ℕ) (U := UR sig nD τ) (Lvl := ℕ) spec0 c V') :=
    Pipeline.unscopedBufs_split₀ cfgs (0 : Fin 3) winFacts₀0.arr_unscoped c V'
  -- off the windows' arrays the two valuations agree: the result's array is a window's
  have hr : (Pipeline.unscopedRest (Ix := Unit) (Name := ℕ) (U := UR sig nD τ) (Lvl := ℕ) spec0 c (V c) : sProp 𝕄)
      = Pipeline.unscopedRest (Ix := Unit) (Name := ℕ) (U := UR sig nD τ) (Lvl := ℕ) spec0 c V' := by
    unfold Pipeline.unscopedRest
    exact bigSep_congr fun b hb => by
      rw [hrest b fun e => (Finset.mem_sdiff.mp hb).2 (e ▸ Finset.mem_image.mpr ⟨(4 : Fin 5), Finset.mem_univ _, rfl⟩)]
  -- the input windows' arrays are never written
  rw [hsplit, arrBufs0_eq, arrays0_eq, hr, (dat0 V c).arrAt_in 0 rfl, (dat0 V c).arrAt_in 1 rfl, (dat0 V c).arrAt_in 2 rfl,
    (dat0 V c).arrAt_in 3 rfl, A_eq0, A_eq0, A_eq0, A_eq0, ← h5]
  iintro ⟨⟨H0l, H0r, H2, H3, H5⟩, Hr⟩
  ihave H0 := (pointsTo_share (PosShare.mem_left_op_right fullShare)).2 $$ [H0l H0r]
  · isplitl [H0l]; · iexact H0l
    iexact H0r
  isplitr [Hr]
  swap; · iexact Hr
  isplitl [H0]; · rw [hrest main_arg0 (by decide)]; iexact H0
  isplitl [H2]; · rw [hrest main_v2 (by decide)]; iexact H2
  isplitl [H3]; · rw [hrest main_v3 (by decide)]; iexact H3
  iexact H5

end Cert.KernelIdeal.Hand

end
-- ==== Proof.KI.Run.lean ====
import proofs.«122189_g25812753449811_cont_sun_m_348_20_alg».proof.Proof.Gen.KernelIdeal.Launch
import proofs.«122189_g25812753449811_cont_sun_m_348_20_alg».proof.Proof.Gen.KernelIdeal.Skeleton
import proofs.«122189_g25812753449811_cont_sun_m_348_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«122189_g25812753449811_cont_sun_m_348_20_alg».proof.Proof.KI.RunDefs
import proofs.«122189_g25812753449811_cont_sun_m_348_20_alg».proof.Proof.KI.Region0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The launch: @main's eight items as segments over the fold of contents -/

/-! ## The proof data family and the thread state between two items -/

/-- Every call's proof data, each at its entry contents. -/
def pdats : (p : Fin 3) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state and the core's dues, none. -/
abbrev R (c : Dev nD) : sProp 𝕄 := iprop((∃ r, prngReg c r) ∗ ∃ W, owes (c : Thread nD τ) (0 : CellTallies nD τ sig Unit) W)
/-- A host stretch as a segment, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the register at some state. -/
abbrev Tₙ (c : Dev nD) : sProp 𝕄 := iprop(StableHlo.held (c : Thread nD τ) (Pipeline.ucRefs τ sig) (W8 m c) ∗ ∃ r, prngReg c r)

theorem hrest0 (c : Dev nD) : ∀ b, b ≠ main_v5 → V4 m c b = V3 m c b := fun b hb =>
  W4_of m c b (fun h => hb (List.mem_singleton.mp h))

set_option backward.isDefEq.respectTransparency.types false in
/-- Call 0 over the thread state: entered from every unscoped buffer at its entry contents, left at its exit
    contents. The feature array is split between the two windows that read it and joined again; the generator
    register goes into the invariant and comes out; nothing is owed; the kernel has no semaphore of its own. -/
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := body_obligation0 (V3 m) c
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (V3 m c)
  hentry c := by
    rw [Pipeline.ownSems0_none]
    have hsplit : (unscopedBufs c (V3 m c) : sProp 𝕄) ⊢ iprop((pdats m 0 c).arrays (pdats m 0 c).A
          ∗ Pipeline.unscopedRest (Ix := Unit) (Name := ℕ) (U := UR sig nD τ) (Lvl := ℕ) spec0 c (V3 m c)) := entry0 (V3 m) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin : iprop((pdats m 0 c).arrays ((pdats m 0 c).arrAt · cfg0.N)
          ∗ Pipeline.unscopedRest (Ix := Unit) (Name := ℕ) (U := UR sig nD τ) (Lvl := ℕ) spec0 c (V3 m c))
        ⊢ (unscopedBufs c (V4 m c) : sProp 𝕄) := exit0 (V3 m) c (V4 m c) (W4_main_v5 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After call 1 each of its arrays holds what the pipeline leaves (an input what it held, the result the folded
    write-backs), and every other buffer what it held at entry. -/
theorem hF1 (c : Dev nD) : ∀ w, (dat1 (V5 m) c).arrAt w cfg1.N = V6 m c (Pipeline.arrRef spec1 w) := fun
  | ⟨0, _⟩ => ((dat1 (V5 m) c).arrAt_in 0 rfl _).trans ((A_eq1 (V5 m) c 0).trans (W6_of m c _ (by decide)).symm)
  | ⟨1, _⟩ => ((dat1 (V5 m) c).arrAt_in 1 rfl _).trans ((A_eq1 (V5 m) c 1).trans (W6_of m c _ (by decide)).symm)
  | ⟨2, _⟩ => ((dat1 (V5 m) c).arrAt_in 2 rfl _).trans ((A_eq1 (V5 m) c 2).trans (W6_of m c _ (by decide)).symm)
  | ⟨3, _⟩ => ((dat1 (V5 m) c).arrAt_in 3 rfl _).trans ((A_eq1 (V5 m) c 3).trans (W6_of m c _ (by decide)).symm)
  | ⟨4, _⟩ => (W6_main_v7 m c).symm
theorem hrest1 (c : Dev nD) : ∀ b, b ∉ Finset.univ.image (Pipeline.arrRef spec1) → V6 m c b = V5 m c b := fun b hb =>
  W6_of m c b (fun h => hb (Finset.mem_image.mpr ⟨4, Finset.mem_univ _, (List.mem_singleton.mp h).symm⟩))

set_option backward.isDefEq.respectTransparency.types false in
/-- Call 1 over the thread state: entered from every unscoped buffer at its entry contents, left at its exit
    contents. Its arrays are split out of the unscoped buffers and put back; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (V5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V5 m c) (V6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- After call 2 each of its arrays holds what the pipeline leaves (an input what it held, the result the folded
    write-backs), and every other buffer what it held at entry. -/
theorem hF2 (c : Dev nD) : ∀ w, (dat2 (V7 m) c).arrAt w cfg2.N = V8 m c (Pipeline.arrRef spec2 w) := fun
  | ⟨0, _⟩ => ((dat2 (V7 m) c).arrAt_in 0 rfl _).trans ((A_eq2 (V7 m) c 0).trans (W8_of m c _ (by decide)).symm)
  | ⟨1, _⟩ => ((dat2 (V7 m) c).arrAt_in 1 rfl _).trans ((A_eq2 (V7 m) c 1).trans (W8_of m c _ (by decide)).symm)
  | ⟨2, _⟩ => ((dat2 (V7 m) c).arrAt_in 2 rfl _).trans ((A_eq2 (V7 m) c 2).trans (W8_of m c _ (by decide)).symm)
  | ⟨3, _⟩ => (W8_main_v9 m c).symm
theorem hrest2 (c : Dev nD) : ∀ b, b ∉ Finset.univ.image (Pipeline.arrRef spec2) → V8 m c b = V7 m c b := fun b hb =>
  W8_of m c b (fun h => hb (Finset.mem_image.mpr ⟨3, Finset.mem_univ _, (List.mem_singleton.mp h).symm⟩))

set_option backward.isDefEq.respectTransparency.types false in
/-- Call 2 over the thread state: entered from every unscoped buffer at its entry contents, left at its exit
    contents. Its arrays are split out of the unscoped buffers and put back; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m) c).loose
  hwaits := Pipeline.hwaits_of_owed_zero _ _ _ _ L lv 2 fun _ _ => rfl
  pre c := iprop(StableHlo.held (c : Thread nD τ) (Pipeline.ucRefs τ sig) (W7 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V7 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V7 m c) (V8 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's eight items in order. -/
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m) ]

/-- @main is the run of the segments. -/
theorem main_run (c : Dev nD) : main (F := F) c = Pipeline.Seg.run (segs m) := (main_chain c).trans (by chain_rfl)

set_option backward.isDefEq.respectTransparency.types false in
/-- From any memory with zero counters every weakly fair execution of @main terminates, nothing faulting, and
    every unscoped buffer ends at the fold's last contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- The same run read at the result and the six arguments: the result array holds what the third call's
    write-backs leave, every argument what it held at launch. -/
theorem run_result : θ_run defs (onTc (τ := τ) (main (F := F))) ⟨m, fun _ => 0, ρ⟩ (fun r => ∀ c : Dev nD,
      r.2.mem ((c.tc : Thread nD τ).loc main_v9) = A8 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_v9 (by decide))).trans (W8_main_v9 m c),
     (h c _ (mem_uc main_arg0 (by decide))).trans (W8_arg m c main_arg0 (by decide) (by decide) (by decide) (by decide) (by decide) (by decide) (by decide) (by decide)),
     (h c _ (mem_uc main_arg1 (by decide))).trans (W8_arg m c main_arg1 (by decide) (by decide) (by decide) (by decide) (by decide) (by decide) (by decide) (by decide)),
     (h c _ (mem_uc main_arg2 (by decide))).trans (W8_arg m c main_arg2 (by decide) (by decide) (by decide) (by decide) (by decide) (by decide) (by decide) (by decide)),
     (h c _ (mem_uc main_arg3 (by decide))).trans (W8_arg m c main_arg3 (by decide) (by decide) (by decide) (by decide) (by decide) (by decide) (by decide) (by decide)),
     (h c _ (mem_uc main_arg4 (by decide))).trans (W8_arg m c main_arg4 (by decide) (by decide) (by decide) (by decide) (by decide) (by decide) (by decide) (by decide)),
     (h c _ (mem_uc main_arg5 (by decide))).trans (W8_arg m c main_arg5 (by decide) (by decide) (by decide) (by decide) (by decide) (by decide) (by decide) (by decide))⟩)
    (run_main m ρ)

end Cert.KernelIdeal.Hand

end
-- ==== Proof.KI.HostVals.lean ====
import proofs.«122189_g25812753449811_cont_sun_m_348_20_alg».proof.Proof.Gen.KernelIdeal.Launch
import proofs.«122189_g25812753449811_cont_sun_m_348_20_alg».proof.Proof.Gen.KernelIdeal.Skeleton
import proofs.«122189_g25812753449811_cont_sun_m_348_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«122189_g25812753449811_cont_sun_m_348_20_alg».proof.Proof.KI.RunDefs
import Idealize.ShloMosaic.Lib.ValueIdx
import Idealize.ShloMosaic.Lib.Pipeline.Value
import Idealize.ShloMosaic.Lib.KernelVsHost
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx Idealize.ShloMosaic.StableHlo

/-! # What the host operations leave in the buffers the three calls read

Generic in the float values: each buffer's contents as the operations' term of the launch contents. Then, at the
ideal values, those terms read at an index. -/

variable (m : (ℓ : Loc nD τ sig) → Buf (Elt F) ℓ)

/-- The zero-padded first weight, 1433 rows padded to 1536 with the converted integer zero. -/
abbrev padW (w1 : (⟨S1433x512, .f32⟩ : BufTy).Contents (Elt F)) : (⟨S1536x512, .f32⟩ : BufTy).Contents (Elt F) :=
  pad S1536x512 ![0, 0] ![103, 0] ![0, 0] w1 (sitofp (F := F) .f32 (constantI S_ 32 0#32)) pads_S1433x512_S1536x512_01030_000 h_S_
/-- Its rows 0‥1279 and 1280‥1535 after the format change: what the first call's two weight windows stage. -/
abbrev padWtop (w1 : (⟨S1433x512, .f32⟩ : BufTy).Contents (Elt F)) : (⟨S1280x512, .bf16⟩ : BufTy).Contents (Elt F) :=
  extractStridedSlice S1280x512 ![0, 0] (truncf .bf16 (padW (F := F) w1) bitsLt_bf16_f32) slices_S1536x512_S1280x512_0_0
abbrev padWbot (w1 : (⟨S1433x512, .f32⟩ : BufTy).Contents (Elt F)) : (⟨S256x512, .bf16⟩ : BufTy).Contents (Elt F) :=
  extractStridedSlice S256x512 ![1280, 0] (truncf .bf16 (padW (F := F) w1) bitsLt_bf16_f32) slices_S1536x512_S256x512_1280_0

theorem W3_main_v2 (c : Dev nD) : W3 m c main_v2
    = padWtop (F := F) (m ((c : Thread nD τ).loc main_arg2)) := by
  simp only [W3, W2, W1, hostOps0_2, hostOps0_1, hostOps0]
  after_results
  rfl

theorem W3_main_v3 (c : Dev nD) : W3 m c main_v3
    = padWbot (F := F) (m ((c : Thread nD τ).loc main_arg2)) := by
  simp only [W3, W2, W1, hostOps0_2, hostOps0_1, hostOps0]
  after_results
  rfl

theorem W3_main_v4 (c : Dev nD) : W3 m c main_v4 = truncf .bf16 (m ((c : Thread nD τ).loc main_arg4)) bitsLt_bf16_f32 := by
  simp only [W3, W2, W1, hostOps0_2, hostOps0_1, hostOps0]
  after_results

theorem W5_main_v6 (c : Dev nD) : W5 m c main_v6 = shapeCast S1x512 (m ((c : Thread nD τ).loc main_arg3)) shapeCasts_S512_S1x512 := by
  simp only [W5, hostOps1]
  after_results
  rw [W4_of m c main_arg3 (by decide), W3_of m c main_arg3 (by decide), W2_of m c main_arg3 (by decide), W1_of m c main_arg3 (by decide)]
  rfl

theorem W7_main_v8 (c : Dev nD) : W7 m c main_v8 = shapeCast S1x7 (m ((c : Thread nD τ).loc main_arg5)) shapeCasts_S7_S1x7 := by
  simp only [W7, hostOps2]
  after_results
  rw [W6_of m c main_arg5 (by decide), W5_of m c main_arg5 (by decide), W4_of m c main_arg5 (by decide), W3_of m c main_arg5 (by decide), W2_of m c main_arg5 (by decide), W1_of m c main_arg5 (by decide)]
  rfl

/-! ## The same terms read at an index, at the ideal values -/

section AtIdeal

open scoped BigOperators

/-- Rows 0‥1279 of the padded weight are the weight's. -/
theorem padWtop_apply (w1 : (⟨S1433x512, .f32⟩ : BufTy).Contents (Elt Ideal)) (k : Fin 1280) (j : Fin 512) :
    padWtop (F := Ideal) w1 (ix2 k j) = w1 (ix2 (⟨k.val, by omega⟩ : Fin 1433) j) := by
  unfold padWtop
  rw [extractStridedSlice_apply ![0, 0] _ slices_S1536x512_S1280x512_0_0 (ix2 k j) (ix2 (⟨k.val, by omega⟩ : Fin 1536) j)
    (fun a => by match a with | ⟨0, _⟩ => simp | ⟨1, _⟩ => simp)]
  rw [truncf_apply]
  exact pad_apply_of_inside ![0, 0] ![103, 0] ![0, 0] w1 _ pads_S1433x512_S1536x512_01030_000 h_S_ (ix2 (⟨k.val, by omega⟩ : Fin 1536) j)
    (ix2 (⟨k.val, by omega⟩ : Fin 1433) j) (fun a => by match a with | ⟨0, _⟩ => simp | ⟨1, _⟩ => simp)

/-- Rows 1280‥1535 of the padded weight: the weight's rows 1280‥1432, then 103 rows of zeros. -/
theorem padWbot_apply (w1 : (⟨S1433x512, .f32⟩ : BufTy).Contents (Elt Ideal)) (k : Fin 256) (j : Fin 512) :
    padWbot (F := Ideal) w1 (ix2 k j) = if h : k.val < 153 then w1 (ix2 (⟨1280 + k.val, by omega⟩ : Fin 1433) j) else 0 := by
  unfold padWbot
  rw [extractStridedSlice_apply ![1280, 0] _ slices_S1536x512_S256x512_1280_0 (ix2 k j) (ix2 (⟨1280 + k.val, by omega⟩ : Fin 1536) j)
    (fun a => by match a with | ⟨0, _⟩ => simp | ⟨1, _⟩ => simp)]
  rw [truncf_apply]
  split
  · next h =>
    exact pad_apply_of_inside ![0, 0] ![103, 0] ![0, 0] w1 _ pads_S1433x512_S1536x512_01030_000 h_S_ (ix2 (⟨1280 + k.val, by omega⟩ : Fin 1536) j)
      (ix2 (⟨1280 + k.val, by omega⟩ : Fin 1433) j) (fun a => by match a with | ⟨0, _⟩ => simp | ⟨1, _⟩ => simp)
  · next h =>
    refine (pad_apply_of_not_inside ![0, 0] ![103, 0] ![0, 0] w1 _ pads_S1433x512_S1536x512_01030_000 h_S_ (ix2 (⟨1280 + k.val, by omega⟩ : Fin 1536) j) 0
      (by simp; omega)).trans ?_
    show ((((0#32 : BitVec 32).toInt : ℝ)) : EReal) = 0
    simp

/-- A vector reshaped to a one-row matrix, read at a lane. -/
theorem row512_apply (b : (⟨S512, .f32⟩ : BufTy).Contents (Elt Ideal)) (j : Fin 512) :
    shapeCast S1x512 b shapeCasts_S512_S1x512 (ix2 (0 : Fin 1) j) = b (ix1 j) :=
  shapeCast_apply b shapeCasts_S512_S1x512 (ix2 (0 : Fin 1) j) (ix1 j) (by decide +revert)
theorem row7_apply (b : (⟨S7, .f32⟩ : BufTy).Contents (Elt Ideal)) (j : Fin 7) :
    shapeCast S1x7 b shapeCasts_S7_S1x7 (ix2 (0 : Fin 1) j) = b (ix1 j) :=
  shapeCast_apply b shapeCasts_S7_S1x7 (ix2 (0 : Fin 1) j) (ix1 j) (by decide +revert)

end AtIdeal

end Cert.KernelIdeal.Hand

end
-- ==== Proof.KI.Val0.lean ====
import proofs.«122189_g25812753449811_cont_sun_m_348_20_alg».proof.Proof.KI.Defs0
import proofs.«122189_g25812753449811_cont_sun_m_348_20_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

/-! # The first call's value: the features times the zero-padded first weight

The call computes, row block by row block (point `t` covers rows `2000 t` to `2000 t + 1999`), the product of the
features `x : [10000, 1433]` with the weight `w1 : [1433, 512]`. The feature axis is read in two pieces of the one
array: columns 0 to 1279, and the 256-wide block from column 1280 on, of which only the first 153 lanes lie inside
the array; the body replaces the other lanes by zero, and the matching rows of the padded weight are zero. So element
`(r, j)` is `∑_{k<1280} x[r,k]·w1[k,j] + ∑_{k<256} x'[r,k]·w1'[k,j]` with `x'`, `w1'` the zero-padded trailing pieces,
which is `∑_{k<1433} x[r,k]·w1[k,j]`: the sum over `Fin 1433` split at 1280, the 103 padded terms being `0·0`. The
extended reals are a commutative monoid under addition, so no finiteness is asked.

Order: the whole-array function `G`; the body's arithmetic at one element; the input blocks at one element; what a
point writes back, the cover, the array; the reference's stage is `G`. -/

/-! ## The whole-array function -/

/-- Lane `k` of the trailing 256-wide feature block in row `r`: feature column `1280 + k` while that is inside the
    1433 columns, zero past the array's end. -/
def xpad (x : FVec Ideal S10000x1433 .f32) (r : Fin 10000) (k : Fin 256) : EReal :=
  if h : k.val < 153 then x (ix2 r (⟨1280 + k.val, by omega⟩ : Fin 1433)) else 0

/-- Row `k` of the trailing 256 rows of the zero-padded weight: weight row `1280 + k` while inside, zero past the end. -/
def wpad (w1 : FVec Ideal S1433x512 .f32) (k : Fin 256) (j : Fin 512) : EReal :=
  if h : k.val < 153 then w1 (ix2 (⟨1280 + k.val, by omega⟩ : Fin 1433) j) else 0

/-- Element `(r, j)` of the product as the call computes it: the sum over the 1280 leading feature columns, plus the
    sum over the 256 lanes of the trailing block (the 103 lanes past the array's end contribute zero times zero). -/
def Gc (x : FVec Ideal S10000x1433 .f32) (w1 : FVec Ideal S1433x512 .f32) (r : Fin 10000) (j : Fin 512) : EReal :=
  (∑ k : Fin 1280, x (ix2 r (⟨k.val, by omega⟩ : Fin 1433)) * w1 (ix2 (⟨k.val, by omega⟩ : Fin 1433) j))
    + ∑ k : Fin 256, xpad x r k * wpad w1 k j

/-- The result array as one function of the features and the weight. -/
def G (x : FVec Ideal S10000x1433 .f32) (w1 : FVec Ideal S1433x512 .f32) : S10000x512.Idx → EReal :=
  fun i => Gc x w1 (⟨(i 0).val, idx2_lt0 i⟩ : Fin 10000) (⟨(i 1).val, idx2_lt1 i⟩ : Fin 512)

theorem G_ix2 (x : FVec Ideal S10000x1433 .f32) (w1 : FVec Ideal S1433x512 .f32) (r : Fin 10000) (j : Fin 512) :
    G x w1 (ix2 r j) = Gc x w1 r j := rfl

/-! ## The body's arithmetic at one element -/

/-- Left operand of the wide product at output element `i` and contraction index `q`: row `i 0`, -/
theorem lhsA_0 (i : S2000x512.Idx) (q : dot_S2000x1280_S1280x512_S2000x512_1_0_0_1_n_n.contr.Idx) :
    (dot_S2000x1280_S1280x512_S2000x512_1_0_0_1_n_n.lhsIdx i q 0).val = (i 0).val := by
  unfold DotDims.lhsIdx
  rw [dif_neg (show ¬(0 : Fin S2000x1280.rank) ∈ dot_S2000x1280_S1280x512_S2000x512_1_0_0_1_n_n.lhsBatch by decide), dif_pos (show (0 : Fin S2000x1280.rank) ∈ dot_S2000x1280_S1280x512_S2000x512_1_0_0_1_n_n.lhsNonContracting by decide)]
  rfl
/-- column the contraction index; -/
theorem lhsA_1 (i : S2000x512.Idx) (q : dot_S2000x1280_S1280x512_S2000x512_1_0_0_1_n_n.contr.Idx) :
    (dot_S2000x1280_S1280x512_S2000x512_1_0_0_1_n_n.lhsIdx i q 1).val = (q ⟨0, by decide⟩).val :=
  dot_S2000x1280_S1280x512_S2000x512_1_0_0_1_n_n.lhsIdx_val_of_single rfl i q
/-- right operand: row the contraction index, -/
theorem rhsA_0 (i : S2000x512.Idx) (q : dot_S2000x1280_S1280x512_S2000x512_1_0_0_1_n_n.contr.Idx) :
    (dot_S2000x1280_S1280x512_S2000x512_1_0_0_1_n_n.rhsIdx i q 0).val = (q ⟨0, by decide⟩).val :=
  dot_S2000x1280_S1280x512_S2000x512_1_0_0_1_n_n.rhsIdx_val_of_single rfl i q
/-- column `i 1`. -/
theorem rhsA_1 (i : S2000x512.Idx) (q : dot_S2000x1280_S1280x512_S2000x512_1_0_0_1_n_n.contr.Idx) :
    (dot_S2000x1280_S1280x512_S2000x512_1_0_0_1_n_n.rhsIdx i q 1).val = (i 1).val := by
  unfold DotDims.rhsIdx
  rw [dif_neg (show ¬(1 : Fin S1280x512.rank) ∈ dot_S2000x1280_S1280x512_S2000x512_1_0_0_1_n_n.rhsBatch by decide), dif_pos (show (1 : Fin S1280x512.rank) ∈ dot_S2000x1280_S1280x512_S2000x512_1_0_0_1_n_n.rhsNonContracting by decide)]
  rfl

/-- The same four facts for the narrow product. -/
theorem lhsB_0 (i : S2000x512.Idx) (q : dot_S2000x256_S256x512_S2000x512_1_0_0_1_n_n.contr.Idx) :
    (dot_S2000x256_S256x512_S2000x512_1_0_0_1_n_n.lhsIdx i q 0).val = (i 0).val := by
  unfold DotDims.lhsIdx
  rw [dif_neg (show ¬(0 : Fin S2000x256.rank) ∈ dot_S2000x256_S256x512_S2000x512_1_0_0_1_n_n.lhsBatch by decide), dif_pos (show (0 : Fin S2000x256.rank) ∈ dot_S2000x256_S256x512_S2000x512_1_0_0_1_n_n.lhsNonContracting by decide)]
  rfl
theorem lhsB_1 (i : S2000x512.Idx) (q : dot_S2000x256_S256x512_S2000x512_1_0_0_1_n_n.contr.Idx) :
    (dot_S2000x256_S256x512_S2000x512_1_0_0_1_n_n.lhsIdx i q 1).val = (q ⟨0, by decide⟩).val :=
  dot_S2000x256_S256x512_S2000x512_1_0_0_1_n_n.lhsIdx_val_of_single rfl i q
theorem rhsB_0 (i : S2000x512.Idx) (q : dot_S2000x256_S256x512_S2000x512_1_0_0_1_n_n.contr.Idx) :
    (dot_S2000x256_S256x512_S2000x512_1_0_0_1_n_n.rhsIdx i q 0).val = (q ⟨0, by decide⟩).val :=
  dot_S2000x256_S256x512_S2000x512_1_0_0_1_n_n.rhsIdx_val_of_single rfl i q
theorem rhsB_1 (i : S2000x512.Idx) (q : dot_S2000x256_S256x512_S2000x512_1_0_0_1_n_n.contr.Idx) :
    (dot_S2000x256_S256x512_S2000x512_1_0_0_1_n_n.rhsIdx i q 1).val = (i 1).val := by
  unfold DotDims.rhsIdx
  rw [dif_neg (show ¬(1 : Fin S256x512.rank) ∈ dot_S2000x256_S256x512_S2000x512_1_0_0_1_n_n.rhsBatch by decide), dif_pos (show (1 : Fin S256x512.rank) ∈ dot_S2000x256_S256x512_S2000x512_1_0_0_1_n_n.rhsNonContracting by decide)]
  rfl

/-- The wide product into the zero accumulator, at element `(p, q)`: the sum over the 1280 columns. -/
theorem mmA_apply {φ₁ φ₂ : FTy} (a : FVec Ideal S2000x1280 φ₁) (b : FVec Ideal S1280x512 φ₂) (p : Fin 2000) (q : Fin 512) :
    FloatOps.matmul dot_S2000x1280_S1280x512_S2000x512_1_0_0_1_n_n none a b (constant (F := Ideal) S2000x512 .f32 0x00000000#32) (ix2 p q)
      = ∑ k : Fin 1280, a (ix2 p k) * b (ix2 k q) := by
  rw [Ideal.matmul_constant_zero_apply, ← Equiv.sum_comp (contrEquiv1 dot_S2000x1280_S1280x512_S2000x512_1_0_0_1_n_n 1280 rfl rfl).symm]
  refine Finset.sum_congr rfl fun k _ => ?_
  have hk := contrEquiv1_symm_val dot_S2000x1280_S1280x512_S2000x512_1_0_0_1_n_n 1280 rfl rfl k
  have el : dot_S2000x1280_S1280x512_S2000x512_1_0_0_1_n_n.lhsIdx (ix2 p q) ((contrEquiv1 dot_S2000x1280_S1280x512_S2000x512_1_0_0_1_n_n 1280 rfl rfl).symm k) = ix2 p k := funext fun a => Fin.ext (by
    match a with
    | ⟨0, _⟩ => exact lhsA_0 _ _
    | ⟨1, _⟩ => exact (lhsA_1 _ _).trans hk)
  have er : dot_S2000x1280_S1280x512_S2000x512_1_0_0_1_n_n.rhsIdx (ix2 p q) ((contrEquiv1 dot_S2000x1280_S1280x512_S2000x512_1_0_0_1_n_n 1280 rfl rfl).symm k) = ix2 k q := funext fun a => Fin.ext (by
    match a with
    | ⟨0, _⟩ => exact (rhsA_0 _ _).trans hk
    | ⟨1, _⟩ => exact rhsA_1 _ _)
  rw [el, er]

/-- The narrow product likewise: the sum over the 256 lanes. -/
theorem mmB_apply {φ₁ φ₂ : FTy} (a : FVec Ideal S2000x256 φ₁) (b : FVec Ideal S256x512 φ₂) (p : Fin 2000) (q : Fin 512) :
    FloatOps.matmul dot_S2000x256_S256x512_S2000x512_1_0_0_1_n_n none a b (constant (F := Ideal) S2000x512 .f32 0x00000000#32) (ix2 p q)
      = ∑ k : Fin 256, a (ix2 p k) * b (ix2 k q) := by
  rw [Ideal.matmul_constant_zero_apply, ← Equiv.sum_comp (contrEquiv1 dot_S2000x256_S256x512_S2000x512_1_0_0_1_n_n 256 rfl rfl).symm]
  refine Finset.sum_congr rfl fun k _ => ?_
  have hk := contrEquiv1_symm_val dot_S2000x256_S256x512_S2000x512_1_0_0_1_n_n 256 rfl rfl k
  have el : dot_S2000x256_S256x512_S2000x512_1_0_0_1_n_n.lhsIdx (ix2 p q) ((contrEquiv1 dot_S2000x256_S256x512_S2000x512_1_0_0_1_n_n 256 rfl rfl).symm k) = ix2 p k := funext fun a => Fin.ext (by
    match a with
    | ⟨0, _⟩ => exact lhsB_0 _ _
    | ⟨1, _⟩ => exact (lhsB_1 _ _).trans hk)
  have er : dot_S2000x256_S256x512_S2000x512_1_0_0_1_n_n.rhsIdx (ix2 p q) ((contrEquiv1 dot_S2000x256_S256x512_S2000x512_1_0_0_1_n_n 256 rfl rfl).symm k) = ix2 k q := funext fun a => Fin.ext (by
    match a with
    | ⟨0, _⟩ => exact (rhsB_0 _ _).trans hk
    | ⟨1, _⟩ => exact rhsB_1 _ _)
  rw [el, er]

/-- The lane mask's bit: lane `k` of the 256 is kept exactly when `k < 153` (the signed comparison of two small words). -/
theorem mask_bit : ∀ k : Fin 256, IntOp.cmpi .slt (BitVec.ofNat 32 k.val) 153#32 = if k.val < 153 then 1#1 else 0#1 := by
  decide +kernel

/-- The body's result at element `(p, q)` of the row block: the wide product's sum plus the narrow one's, the narrow
    block's lanes from 153 on replaced by zero. -/
theorem pay_apply (v0 : FVec Ideal S2000x1280 .f32) (v5 : FVec Ideal S2000x256 .f32) (v9 : FVec Ideal S1280x512 .bf16)
    (v12 : FVec Ideal S256x512 .bf16) (p : Fin 2000) (q : Fin 512) :
    k0_pay1 (F := Ideal) v0 v5 v9 v12 (ix2 p q)
      = (∑ k : Fin 1280, v0 (ix2 p k) * v9 (ix2 k q)) + ∑ k : Fin 256, (if k.val < 153 then v5 (ix2 p k) else 0) * v12 (ix2 k q) := by
  unfold k0_pay1
  show FloatOps.matmul dot_S2000x1280_S1280x512_S2000x512_1_0_0_1_n_n none v0 (shapeCast S1280x512 v9 shapeCasts_S1280x512_S1280x512) (constant (F := Ideal) S2000x512 .f32 0x00000000#32) (ix2 p q)
      + FloatOps.matmul dot_S2000x256_S256x512_S2000x512_1_0_0_1_n_n none
          (select (cmpi .slt (iota .tc S2000x256 32 [1] iota_S2000x256_d1_w32) (broadcast S2000x256 153#32)) v5 (broadcast S2000x256 (Scalar.ofBits (F := Ideal) .f32 0x00000000#32)))
          (shapeCast S256x512 v12 shapeCasts_S256x512_S256x512) (constant (F := Ideal) S2000x512 .f32 0x00000000#32) (ix2 p q) = _
  rw [shapeCast_self, shapeCast_self, mmA_apply, mmB_apply]
  refine congrArg (_ + ·) (Finset.sum_congr rfl fun k _ => ?_)
  refine congrArg (· * _) ?_
  show Scalar.select (IntOp.cmpi .slt (iota .tc S2000x256 32 [1] iota_S2000x256_d1_w32 (ix2 p k)) 153#32) (v5 (ix2 p k)) (Ideal.ofBits .f32 0x00000000#32) = _
  rw [iota_single_apply]
  show Scalar.select (IntOp.cmpi .slt (BitVec.ofNat 32 k.val) 153#32) _ _ = _
  rw [mask_bit k, Ideal.ofBits_zero_f32]
  by_cases hk : k.val < 153
  · rw [if_pos hk, if_pos hk]; exact select_one _ _
  · rw [if_neg hk, if_neg hk]; exact select_zero _ _

/-! ## The blocks, read at an element -/

theorem hz : (![0, 0] : Fin 2 → Nat) = fun _ => 0 := funext fun a => by fin_cases a <;> rfl

/-- The printed index maps over the five points: the two feature windows and the result move down the rows with the
    point, the narrow feature window sits at block column 5 (columns 1280 on), the weights' windows never move. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 5
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- What the two feature windows' transfers move: the wide block whole, of the narrow one all rows and 153 lanes. -/
theorem xsize_facts : ∀ t : Fin cfg0.N,
    win0_0.xsize (grid0.coords t) (0 : Fin 2) = 2000 ∧ win0_0.xsize (grid0.coords t) (1 : Fin 2) = 1280
    ∧ win0_1.xsize (grid0.coords t) (0 : Fin 2) = 2000 ∧ win0_1.xsize (grid0.coords t) (1 : Fin 2) = 153 :=
  (by decide +kernel : ∀ t : Fin grid0.N, _)

theorem t_lt (t : Fin cfg0.N) : t.val < 5 := by
  have h := t.isLt
  have hN : cfg0.N = 5 := N_0
  omega

variable (V : (c : Dev nD) → (b : Ref sig .tc) → Buf (Elt Ideal) ((c : Thread nD τ).loc b))

/-- The wide feature block at point `t`: rows `2000 t` on, columns 0 to 1279 of the features. -/
theorem xa0_apply (c : Dev nD) (t : Fin cfg0.N) (p : Fin 2000) (k : Fin 1280) :
    xa0 (F := Ideal) V c t (ix2 p k)
      = V c main_arg0 (ix2 (⟨t.val * 2000 + p.val, by have := t_lt t; omega⟩ : Fin 10000) (⟨k.val, by omega⟩ : Fin 1433)) := by
  obtain ⟨e0, e1, -⟩ := idx_facts t
  obtain ⟨s0, s1, -⟩ := xsize_facts t
  have hm : win0_0.moved (grid0.coords t) (ix2 p k) = true := (win0_0.moved_iff _ _).mpr fun a => by
    match a with
    | ⟨0, _⟩ => show p.val < win0_0.xsize (grid0.coords t) (0 : Fin 2); rw [s0]; exact p.isLt
    | ⟨1, _⟩ => show k.val < win0_0.xsize (grid0.coords t) (1 : Fin 2); rw [s1]; exact k.isLt
  unfold xa0 Window.fill
  rw [dif_pos hm]
  show V c main_arg0 (((cfg0.win 0).blk t).view.emb _) = _
  refine congrArg (V c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 1280 + 1 * k.val = k.val; rw [e1]; omega

/-- The narrow feature block at point `t`: on its first 153 lanes, columns 1280 on of the features; zero on the rest. -/
theorem xb0_apply (c : Dev nD) (t : Fin cfg0.N) (p : Fin 2000) (k : Fin 256) :
    xb0 (F := Ideal) V c t (ix2 p k)
      = if h : k.val < 153 then V c main_arg0 (ix2 (⟨t.val * 2000 + p.val, by have := t_lt t; omega⟩ : Fin 10000) (⟨1280 + k.val, by omega⟩ : Fin 1433)) else (0 : EReal) := by
  obtain ⟨-, -, e0, e1, -⟩ := idx_facts t
  obtain ⟨-, -, s0, s1⟩ := xsize_facts t
  by_cases hk : k.val < 153
  · have hm : win0_1.moved (grid0.coords t) (ix2 p k) = true := (win0_1.moved_iff _ _).mpr fun a => by
      match a with
      | ⟨0, _⟩ => show p.val < win0_1.xsize (grid0.coords t) (0 : Fin 2); rw [s0]; exact p.isLt
      | ⟨1, _⟩ => show k.val < win0_1.xsize (grid0.coords t) (1 : Fin 2); rw [s1]; exact hk
    unfold xb0 Window.fill
    rw [dif_pos hm, dif_pos hk]
    show V c main_arg0 (((cfg0.win 1).blk t).view.emb _) = _
    refine congrArg (V c main_arg0) (funext fun a => Fin.ext ?_)
    match a with
    | ⟨0, _⟩ => show win0_1.index t (0 : Fin 2) * 2000 + 1 * p.val = t.val * 2000 + p.val; rw [e0]; omega
    | ⟨1, _⟩ => show win0_1.index t (1 : Fin 2) * 256 + 1 * k.val = 1280 + k.val; rw [e1]; omega
  · have hm : ¬ win0_1.moved (grid0.coords t) (ix2 p k) = true := fun h => hk (by
      have h1 : k.val < win0_1.xsize (grid0.coords t) (1 : Fin 2) := (win0_1.moved_iff _ _).mp h 1
      rw [s1] at h1; exact h1)
    unfold xb0 Window.fill
    rw [dif_neg hm, dif_neg hk]
    exact Ideal.ofBits_zero_f32

/-- The two weight windows hold their whole arrays at every point. -/
theorem iblk2_apply (c : Dev nD) (t : Fin cfg0.N) (k : Fin 1280) (q : Fin 512) :
    iblk0 (F := Ideal) V c 2 t (ix2 k q) = V c main_v2 (ix2 k q) := by
  obtain ⟨-, -, -, -, e0, e1, -⟩ := idx_facts t
  show V c main_v2 (((cfg0.win 2).blk t).view.emb (ix2 k q)) = _
  refine congrArg (V c main_v2) (funext fun a => Fin.ext ?_)
  match a with
  | ⟨0, _⟩ => show win0_2.index t (0 : Fin 2) * 1280 + 1 * k.val = k.val; rw [e0]; omega
  | ⟨1, _⟩ => show win0_2.index t (1 : Fin 2) * 512 + 1 * q.val = q.val; rw [e1]; omega

theorem iblk3_apply (c : Dev nD) (t : Fin cfg0.N) (k : Fin 256) (q : Fin 512) :
    iblk0 (F := Ideal) V c 3 t (ix2 k q) = V c main_v3 (ix2 k q) := by
  obtain ⟨-, -, -, -, -, -, e0, e1, -⟩ := idx_facts t
  show V c main_v3 (((cfg0.win 3).blk t).view.emb (ix2 k q)) = _
  refine congrArg (V c main_v3) (funext fun a => Fin.ext ?_)
  match a with
  | ⟨0, _⟩ => show win0_3.index t (0 : Fin 2) * 256 + 1 * k.val = k.val; rw [e0]; omega
  | ⟨1, _⟩ => show win0_3.index t (1 : Fin 2) * 512 + 1 * q.val = q.val; rw [e1]; omega

/-! ## What a point writes back, the cover, the array -/

/-- Point `t` writes back block `t` of `G`: rows `2000 t` on. -/
theorem flushed_eq (c : Dev nD) (x : FVec Ideal S10000x1433 .f32) (w1 : FVec Ideal S1433x512 .f32)
    (hx : V c main_arg0 = x)
    (h2 : ∀ (k : Fin 1280) (j : Fin 512), V c main_v2 (ix2 k j) = w1 (ix2 (⟨k.val, by omega⟩ : Fin 1433) j))
    (h3 : ∀ (k : Fin 256) (j : Fin 512), V c main_v3 (ix2 k j) = if h : k.val < 153 then w1 (ix2 (⟨1280 + k.val, by omega⟩ : Fin 1433) j) else 0)
    (t : Fin cfg0.N) :
    (dat0 (F := Ideal) V c).flushed 4 t = ((cfg0.win 4).blk t).view.read (Elt Ideal) (G x w1) := by
  show (cfg0.win 4).cut (grid0.coords t) ((dat0 (F := Ideal) V c).after 4 t) = _
  rw [after0_4]
  unfold out0_4
  rw [View.canon_unit_zero hz]
  simp only [View.ld_unit_zero (S := S2000x1280) hz, View.ld_unit_zero (S := S2000x256) hz,
    View.ld_unit_zero (S := S1280x512) hz, View.ld_unit_zero (S := S256x512) hz]
  funext j
  obtain ⟨p, q, rfl⟩ : ∃ (p : Fin 2000) (q : Fin 512), j = ix2 p q := ⟨j 0, j 1, eq_ix2 j⟩
  show k0_pay1 (F := Ideal) (xa0 V c t) (xb0 V c t) (iblk0 V c 2 t) (iblk0 V c 3 t) (ix2 p q)
    = G x w1 (((cfg0.win 4).blk t).view.emb (ix2 p q))
  obtain ⟨-, -, -, -, -, -, -, -, e0, e1⟩ := idx_facts t
  have ht := t_lt t
  have hi : ((cfg0.win 4).blk t).view.emb (ix2 p q) = ix2 (⟨t.val * 2000 + p.val, by omega⟩ : Fin 10000) q :=
    funext fun a => Fin.ext (by
      match a with
      | ⟨0, _⟩ => show win0_4.index t (0 : Fin 2) * 2000 + 1 * p.val = t.val * 2000 + p.val; rw [e0]; omega
      | ⟨1, _⟩ => show win0_4.index t (1 : Fin 2) * 512 + 1 * q.val = q.val; rw [e1]; omega)
  rw [hi, G_ix2]
  refine (pay_apply (xa0 V c t) (xb0 V c t) (iblk0 V c 2 t) (iblk0 V c 3 t) p q).trans ?_
  unfold Gc xpad wpad
  refine congrArg₂ (· + ·) (Finset.sum_congr rfl fun k _ => ?_) (Finset.sum_congr rfl fun k _ => ?_)
  · have e1 := (xa0_apply V c t p k).trans (congrFun hx _)
    have e2 := (iblk2_apply V c t k q).trans (h2 k q)
    rw [e1, e2]
  · have e1 := (xb0_apply V c t p k)
    have e2 := (iblk3_apply V c t k q).trans (h3 k q)
    rw [e1, e2]
    by_cases hk : k.val < 153
    · rw [if_pos hk, dif_pos hk, dif_pos hk, dif_pos hk, hx]
    · rw [if_neg hk, dif_neg hk, dif_neg hk]

/-- An index of the result is in point `t`'s block iff each coordinate is in the block's range on its axis. -/
theorem mem_blk4 (t : Fin cfg0.N) (i : S10000x512.Idx) :
    i ∈ ((cfg0.win 4).blk t).view.set ↔ ∀ a : Fin 2, win0_4.index t a * S2000x512.size a ≤ (i a).val ∧ (i a).val < win0_4.index t a * S2000x512.size a + S2000x512.size a := by
  show i ∈ ((View.whole main_v5).slice (win0_4.rect t)).set ↔ _
  rw [View.set_slice_whole, Rect.mem_set_unit]
  exact Iff.rfl

/-- Row `r` is written by point `r / 2000`. -/
theorem cover (i : S10000x512.Idx) : ∃ t : Fin cfg0.N, (cfg0.win 4).flush t = true ∧ i ∈ ((cfg0.win 4).blk t).view.set := by
  have hi0 : (i 0).val < 10000 := (i 0).isLt
  have hi1 : (i 1).val < 512 := (i 1).isLt
  have hN : cfg0.N = 5 := N_0
  obtain ⟨t, ht⟩ : ∃ t : Fin cfg0.N, t.val = (i 0).val / 2000 := ⟨⟨(i 0).val / 2000, by rw [hN]; omega⟩, rfl⟩
  refine ⟨t, flush0_4 t, ?_⟩
  rw [mem_blk4]
  obtain ⟨-, -, -, -, -, -, -, -, e0, e1⟩ := idx_facts t
  intro a
  match a with
  | ⟨0, _⟩ => show win0_4.index t (0 : Fin 2) * 2000 ≤ (i 0).val ∧ (i 0).val < win0_4.index t (0 : Fin 2) * 2000 + 2000; rw [e0, ht]; omega
  | ⟨1, _⟩ => show win0_4.index t (1 : Fin 2) * 512 ≤ (i 1).val ∧ (i 1).val < win0_4.index t (1 : Fin 2) * 512 + 512; rw [e1]; omega

/-- The result array after the call is `G` of the features and the weight. -/
theorem final0 (c : Dev nD) (x : FVec Ideal S10000x1433 .f32) (w1 : FVec Ideal S1433x512 .f32)
    (hx : V c main_arg0 = x)
    (h2 : ∀ (k : Fin 1280) (j : Fin 512), V c main_v2 (ix2 k j) = w1 (ix2 (⟨k.val, by omega⟩ : Fin 1433) j))
    (h3 : ∀ (k : Fin 256) (j : Fin 512), V c main_v3 (ix2 k j) = if h : k.val < 153 then w1 (ix2 (⟨1280 + k.val, by omega⟩ : Fin 1433) j) else 0) :
    (dat0 (F := Ideal) V c).arrAt 4 cfg0.N = G x w1 :=
  (dat0 (F := Ideal) V c).arrAt_eq_of_cover 4 (G x w1) (fun t _ => flushed_eq V c x w1 hx h2 h3 t) cover

/-! ## The reference's product is the same function -/

/-- The trailing block's sum is the sum over the 153 feature columns from 1280 on: lanes 153 to 255 are zero times zero. -/
theorem tail_eq (x : FVec Ideal S10000x1433 .f32) (w1 : FVec Ideal S1433x512 .f32) (r : Fin 10000) (j : Fin 512) :
    ∑ k : Fin 256, xpad x r k * wpad w1 k j
      = ∑ k : Fin 153, x (ix2 r (⟨1280 + k.val, by omega⟩ : Fin 1433)) * w1 (ix2 (⟨1280 + k.val, by omega⟩ : Fin 1433) j) := by
  have ht : ∑ k : Fin 256, xpad x r k * wpad w1 k j
      = (∑ k : Fin 153, xpad x r (⟨k.val, by omega⟩ : Fin 256) * wpad w1 (⟨k.val, by omega⟩ : Fin 256) j)
        + ∑ k : Fin 103, xpad x r (⟨153 + k.val, by omega⟩ : Fin 256) * wpad w1 (⟨153 + k.val, by omega⟩ : Fin 256) j :=
    Fin.sum_univ_add (a := 153) (b := 103) (fun k => xpad x r k * wpad w1 k j)
  have h0 : ∑ k : Fin 103, xpad x r (⟨153 + k.val, by omega⟩ : Fin 256) * wpad w1 (⟨153 + k.val, by omega⟩ : Fin 256) j = 0 :=
    Finset.sum_eq_zero fun k _ => by
      unfold xpad
      rw [dif_neg (show ¬ 153 + k.val < 153 by omega), zero_mul]
  rw [ht, h0, add_zero]
  refine Finset.sum_congr rfl fun k _ => ?_
  unfold xpad wpad
  rw [dif_pos (show k.val < 153 from k.isLt), dif_pos (show k.val < 153 from k.isLt)]

/-- So the call's element is the full contraction over the 1433 feature columns, split at column 1280. -/
theorem Gc_eq (x : FVec Ideal S10000x1433 .f32) (w1 : FVec Ideal S1433x512 .f32) (r : Fin 10000) (j : Fin 512) :
    Gc x w1 r j = ∑ k : Fin 1433, x (ix2 r k) * w1 (ix2 k j) := by
  have hs : ∑ k : Fin 1433, x (ix2 r k) * w1 (ix2 k j)
      = (∑ k : Fin 1280, x (ix2 r (⟨k.val, by omega⟩ : Fin 1433)) * w1 (ix2 (⟨k.val, by omega⟩ : Fin 1433) j))
        + ∑ k : Fin 153, x (ix2 r (⟨1280 + k.val, by omega⟩ : Fin 1433)) * w1 (ix2 (⟨1280 + k.val, by omega⟩ : Fin 1433) j) :=
    Fin.sum_univ_add (a := 1280) (b := 153) (fun k => x (ix2 r k) * w1 (ix2 k j))
  unfold Gc
  rw [hs, tail_eq]

/-- The reference's first stage, the features times the weight, is `G`. -/
theorem G_eq_ref (x : FVec Ideal S10000x1433 .f32) (w1 : FVec Ideal S1433x512 .f32) :
    G x w1 = Cert.ReferenceIdeal.Read.val_main_v0 (F := Ideal) x w1 := by
  funext i
  rw [Cert.ReferenceIdeal.Read.val_main_v0_apply]
  show Gc x w1 (⟨(i 0).val, idx2_lt0 i⟩ : Fin 10000) (⟨(i 1).val, idx2_lt1 i⟩ : Fin 512) = _
  rw [Gc_eq]
  refine Finset.sum_congr rfl fun k _ => ?_
  have el : ix2 (⟨(i 0).val, idx2_lt0 i⟩ : Fin 10000) k = Cert.ReferenceIdeal.Read.lidx_main_v0 i k :=
    funext fun a => by match a with | ⟨0, _⟩ => rfl | ⟨1, _⟩ => rfl
  have er : ix2 k (⟨(i 1).val, idx2_lt1 i⟩ : Fin 512) = Cert.ReferenceIdeal.Read.ridx_main_v0 i k :=
    funext fun a => by match a with | ⟨0, _⟩ => rfl | ⟨1, _⟩ => rfl
  rw [el, er]

/-! ## The first call's value -/

/-- After the first call the result array holds the reference's first stage: the features times the first weight. -/
theorem value0 (c : Dev nD)
    (x : FVec Ideal S10000x1433 .f32) (w1 : FVec Ideal S1433x512 .f32)
    (hx : V c main_arg0 = x)
    (h2 : ∀ (k : Fin 1280) (j : Fin 512), V c main_v2 (ix2 k j) = w1 (ix2 (⟨k.val, by omega⟩ : Fin 1433) j))
    (h3 : ∀ (k : Fin 256) (j : Fin 512), V c main_v3 (ix2 k j) = if h : k.val < 153 then w1 (ix2 (⟨1280 + k.val, by omega⟩ : Fin 1433) j) else 0) :
    (dat0 (F := Ideal) V c).arrAt 4 cfg0.N = Cert.ReferenceIdeal.Read.val_main_v0 (F := Ideal) x w1 :=
  (final0 V c x w1 hx h2 h3).trans (G_eq_ref x w1)

end Cert.KernelIdeal.Hand

end
-- ==== Proof.KI.Val1.lean ====
import proofs.«122189_g25812753449811_cont_sun_m_348_20_alg».proof.Proof.KI.Region1
import proofs.«122189_g25812753449811_cont_sun_m_348_20_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

/-! # The second call's result as one function of the arrays it reads

Row `r`, column `c` of the result is `Σ_j max ((Σ_k adj[r,k] · s1[k,j]) + b[0,j]) 0 · w2[j,c]`: a row block of the
adjacency against the whole first-layer product, the bias row added to every row, the rectifier, and the second
weight. The zero of the rectifier is kept as the word the program names. -/

/-- One entry of the result, over explicit coordinates. -/
def entry1 (adj : S10000x10000.Idx → EReal) (s1 : S10000x512.Idx → EReal) (b : S1x512.Idx → EReal) (w2 : S512x7.Idx → EReal)
    (r : Fin 10000) (q : Fin 7) : EReal :=
  ∑ j : Fin 512, max ((∑ k : Fin 10000, adj (ix2 r k) * s1 (ix2 k j)) + b (ix2 (0 : Fin 1) j)) (Ideal.ofBits .f32 0x00000000#32) * w2 (ix2 j q)

/-- The whole result array. -/
def G1 (adj : S10000x10000.Idx → EReal) (s1 : S10000x512.Idx → EReal) (b : S1x512.Idx → EReal) (w2 : S512x7.Idx → EReal) :
    S10000x7.Idx → EReal :=
  fun i => entry1 adj s1 b w2 ⟨(i 0).val, (i 0).isLt⟩ ⟨(i 1).val, (i 1).isLt⟩

/-- `G1` at an index whose coordinates are known. -/
theorem G1_at (adj : S10000x10000.Idx → EReal) (s1 : S10000x512.Idx → EReal) (b : S1x512.Idx → EReal) (w2 : S512x7.Idx → EReal)
    (i : S10000x7.Idx) (r : Fin 10000) (q : Fin 7) (h0 : (i 0).val = r.val) (h1 : (i 1).val = q.val) :
    G1 adj s1 b w2 i = entry1 adj s1 b w2 r q := by
  unfold G1
  have e0 : (⟨(i 0).val, (i 0).isLt⟩ : Fin 10000) = r := Fin.ext h0
  have e1 : (⟨(i 1).val, (i 1).isLt⟩ : Fin 7) = q := Fin.ext h1
  rw [e0, e1]

/-! ## The body's two matrix products read at an index -/

theorem lhs_mmA_0 (i : S400x512.Idx) (q : dot_S400x10000_S10000x512_S400x512_1_0_0_1_n_n.contr.Idx) :
    (dot_S400x10000_S10000x512_S400x512_1_0_0_1_n_n.lhsIdx i q 0).val = (i 0).val := by
  unfold DotDims.lhsIdx
  rw [dif_neg (show ¬(0 : Fin S400x10000.rank) ∈ dot_S400x10000_S10000x512_S400x512_1_0_0_1_n_n.lhsBatch by decide), dif_pos (show (0 : Fin S400x10000.rank) ∈ dot_S400x10000_S10000x512_S400x512_1_0_0_1_n_n.lhsNonContracting by decide)]
  rfl
theorem lhs_mmA_1 (i : S400x512.Idx) (q : dot_S400x10000_S10000x512_S400x512_1_0_0_1_n_n.contr.Idx) :
    (dot_S400x10000_S10000x512_S400x512_1_0_0_1_n_n.lhsIdx i q 1).val = (q ⟨0, by decide⟩).val :=
  dot_S400x10000_S10000x512_S400x512_1_0_0_1_n_n.lhsIdx_val_of_single rfl i q
theorem rhs_mmA_0 (i : S400x512.Idx) (q : dot_S400x10000_S10000x512_S400x512_1_0_0_1_n_n.contr.Idx) :
    (dot_S400x10000_S10000x512_S400x512_1_0_0_1_n_n.rhsIdx i q 0).val = (q ⟨0, by decide⟩).val :=
  dot_S400x10000_S10000x512_S400x512_1_0_0_1_n_n.rhsIdx_val_of_single rfl i q
theorem rhs_mmA_1 (i : S400x512.Idx) (q : dot_S400x10000_S10000x512_S400x512_1_0_0_1_n_n.contr.Idx) :
    (dot_S400x10000_S10000x512_S400x512_1_0_0_1_n_n.rhsIdx i q 1).val = (i 1).val := by
  unfold DotDims.rhsIdx
  rw [dif_neg (show ¬(1 : Fin S10000x512.rank) ∈ dot_S400x10000_S10000x512_S400x512_1_0_0_1_n_n.rhsBatch by decide), dif_pos (show (1 : Fin S10000x512.rank) ∈ dot_S400x10000_S10000x512_S400x512_1_0_0_1_n_n.rhsNonContracting by decide)]
  rfl

/-- The first product into the zero accumulator: entry `(p, j)` is the sum over the 10000 columns of the row block. -/
theorem mm1A_apply (a : FVec Ideal S400x10000 .bf16) (b : FVec Ideal S10000x512 .bf16) (p : Fin 400) (j : Fin 512) :
    matmul dot_S400x10000_S10000x512_S400x512_1_0_0_1_n_n none a b (constant S400x512 .f32 0x00000000#32) (ix2 p j)
      = ∑ k : Fin 10000, a (ix2 p k) * b (ix2 k j) := by
  simp only [matmul]
  rw [Ideal.matmul_constant_zero_apply, ← Equiv.sum_comp (ValueIdx.contrEquiv1 dot_S400x10000_S10000x512_S400x512_1_0_0_1_n_n 10000 rfl rfl).symm]
  refine Finset.sum_congr rfl fun k _ => ?_
  have hk := ValueIdx.contrEquiv1_symm_val dot_S400x10000_S10000x512_S400x512_1_0_0_1_n_n 10000 rfl rfl k
  have el : dot_S400x10000_S10000x512_S400x512_1_0_0_1_n_n.lhsIdx (ix2 p j) ((ValueIdx.contrEquiv1 dot_S400x10000_S10000x512_S400x512_1_0_0_1_n_n 10000 rfl rfl).symm k) = ix2 p k := funext fun a => Fin.ext (by
    match a with
    | ⟨0, _⟩ => exact lhs_mmA_0 _ _
    | ⟨1, _⟩ => exact (lhs_mmA_1 _ _).trans hk)
  have er : dot_S400x10000_S10000x512_S400x512_1_0_0_1_n_n.rhsIdx (ix2 p j) ((ValueIdx.contrEquiv1 dot_S400x10000_S10000x512_S400x512_1_0_0_1_n_n 10000 rfl rfl).symm k) = ix2 k j := funext fun a => Fin.ext (by
    match a with
    | ⟨0, _⟩ => exact (rhs_mmA_0 _ _).trans hk
    | ⟨1, _⟩ => exact rhs_mmA_1 _ _)
  rw [el, er]

theorem lhs_mmB_0 (i : S400x7.Idx) (q : dot_S400x512_S512x7_S400x7_1_0_0_1_n_n.contr.Idx) :
    (dot_S400x512_S512x7_S400x7_1_0_0_1_n_n.lhsIdx i q 0).val = (i 0).val := by
  unfold DotDims.lhsIdx
  rw [dif_neg (show ¬(0 : Fin S400x512.rank) ∈ dot_S400x512_S512x7_S400x7_1_0_0_1_n_n.lhsBatch by decide), dif_pos (show (0 : Fin S400x512.rank) ∈ dot_S400x512_S512x7_S400x7_1_0_0_1_n_n.lhsNonContracting by decide)]
  rfl
theorem lhs_mmB_1 (i : S400x7.Idx) (q : dot_S400x512_S512x7_S400x7_1_0_0_1_n_n.contr.Idx) :
    (dot_S400x512_S512x7_S400x7_1_0_0_1_n_n.lhsIdx i q 1).val = (q ⟨0, by decide⟩).val :=
  dot_S400x512_S512x7_S400x7_1_0_0_1_n_n.lhsIdx_val_of_single rfl i q
theorem rhs_mmB_0 (i : S400x7.Idx) (q : dot_S400x512_S512x7_S400x7_1_0_0_1_n_n.contr.Idx) :
    (dot_S400x512_S512x7_S400x7_1_0_0_1_n_n.rhsIdx i q 0).val = (q ⟨0, by decide⟩).val :=
  dot_S400x512_S512x7_S400x7_1_0_0_1_n_n.rhsIdx_val_of_single rfl i q
theorem rhs_mmB_1 (i : S400x7.Idx) (q : dot_S400x512_S512x7_S400x7_1_0_0_1_n_n.contr.Idx) :
    (dot_S400x512_S512x7_S400x7_1_0_0_1_n_n.rhsIdx i q 1).val = (i 1).val := by
  unfold DotDims.rhsIdx
  rw [dif_neg (show ¬(1 : Fin S512x7.rank) ∈ dot_S400x512_S512x7_S400x7_1_0_0_1_n_n.rhsBatch by decide), dif_pos (show (1 : Fin S512x7.rank) ∈ dot_S400x512_S512x7_S400x7_1_0_0_1_n_n.rhsNonContracting by decide)]
  rfl

/-- The second product into the zero accumulator: entry `(p, q)` is the sum over the 512 hidden columns. -/
theorem mm1B_apply (a : FVec Ideal S400x512 .bf16) (b : FVec Ideal S512x7 .bf16) (p : Fin 400) (q : Fin 7) :
    matmul dot_S400x512_S512x7_S400x7_1_0_0_1_n_n none a b (constant S400x7 .f32 0x00000000#32) (ix2 p q)
      = ∑ j : Fin 512, a (ix2 p j) * b (ix2 j q) := by
  simp only [matmul]
  rw [Ideal.matmul_constant_zero_apply, ← Equiv.sum_comp (ValueIdx.contrEquiv1 dot_S400x512_S512x7_S400x7_1_0_0_1_n_n 512 rfl rfl).symm]
  refine Finset.sum_congr rfl fun k _ => ?_
  have hk := ValueIdx.contrEquiv1_symm_val dot_S400x512_S512x7_S400x7_1_0_0_1_n_n 512 rfl rfl k
  have el : dot_S400x512_S512x7_S400x7_1_0_0_1_n_n.lhsIdx (ix2 p q) ((ValueIdx.contrEquiv1 dot_S400x512_S512x7_S400x7_1_0_0_1_n_n 512 rfl rfl).symm k) = ix2 p k := funext fun a => Fin.ext (by
    match a with
    | ⟨0, _⟩ => exact lhs_mmB_0 _ _
    | ⟨1, _⟩ => exact (lhs_mmB_1 _ _).trans hk)
  have er : dot_S400x512_S512x7_S400x7_1_0_0_1_n_n.rhsIdx (ix2 p q) ((ValueIdx.contrEquiv1 dot_S400x512_S512x7_S400x7_1_0_0_1_n_n 512 rfl rfl).symm k) = ix2 k q := funext fun a => Fin.ext (by
    match a with
    | ⟨0, _⟩ => exact (rhs_mmB_0 _ _).trans hk
    | ⟨1, _⟩ => exact rhs_mmB_1 _ _)
  rw [el, er]

/-! ## The body's arithmetic at an index -/

/-- Entry `(p, q)` of what the body stores, from the four blocks it loads: the changes of float format are the
    identity on the extended reals, the bias row is read at its one row, the rectifier's zero is the named word. -/
theorem pay1_apply (x0 : Vec Ideal S400x10000 .f32) (x1 : Vec Ideal S10000x512 .bf16) (x2 : Vec Ideal S1x512 .f32) (x3 : Vec Ideal S512x7 .bf16)
    (p : Fin 400) (q : Fin 7) :
    k1_pay1 (F := Ideal) x0 x1 x2 x3 (ix2 p q)
      = ∑ j : Fin 512, max ((∑ k : Fin 10000, x0 (ix2 p k) * x1 (ix2 k j)) + x2 (ix2 (0 : Fin 1) j)) (Ideal.ofBits .f32 0x00000000#32) * x3 (ix2 j q) := by
  unfold k1_pay1
  simp only [shapeCast_self]
  rw [truncf_apply, mm1B_apply]
  refine Finset.sum_congr rfl fun j _ => ?_
  rw [truncf_apply, maximumf_apply, addf_apply, mm1A_apply, broadcastTo_1b_ab_apply, broadcast_apply]
  rfl

/-! # From the blocks to the array

Point `t` of the 25 covers rows `400·t ‥ 400·t + 399`: it reads that row block of the adjacency and the whole of the
three other arrays, and writes that row block of the result. -/

variable (V : (c : Dev nD) → (b : Ref sig .tc) → Buf (Elt Ideal) ((c : Thread nD τ).loc b))

theorem zero_offsets1 : (![0, 0] : Fin 2 → Nat) = fun _ => 0 := funext fun a => by fin_cases a <;> rfl

/-- The call's index maps over the grid: the adjacency's and the result's row block index is the point, every other
    block index is zero. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency's block at point `t`: row `p` of the block is row `400·t + p` of the array. -/
theorem blk1_0_apply (c : Dev nD) (t : Fin cfg1.N) (p : Fin 400) (k : Fin 10000) (r : Fin 10000) (hr : r.val = t.val * 400 + p.val) :
    (iblk1 (F := Ideal) V c 0 t : Vec Ideal S400x10000 .f32) (ix2 p k) = (V c main_arg1 : S10000x10000.Idx → EReal) (ix2 r k) := by
  obtain ⟨e0, e1, -⟩ := idx_facts1 t
  unfold iblk1
  rw [View.read_apply]
  show V c main_arg1 _ = V c main_arg1 _
  congr 1
  funext a; apply Fin.ext
  match a with
  | ⟨0, _⟩ => show win1_0.index t (0 : Fin 2) * 400 + 1 * p.val = r.val; rw [e0, hr]; omega
  | ⟨1, _⟩ => show win1_0.index t (1 : Fin 2) * 10000 + 1 * k.val = k.val; rw [e1]; omega

/-- The first-layer product's block is the whole array. -/
theorem blk1_1_apply (c : Dev nD) (t : Fin cfg1.N) (k : Fin 10000) (j : Fin 512) :
    (iblk1 (F := Ideal) V c 1 t : Vec Ideal S10000x512 .bf16) (ix2 k j) = (V c main_v5 : S10000x512.Idx → EReal) (ix2 k j) := by
  obtain ⟨-, -, e0, e1, -⟩ := idx_facts1 t
  unfold iblk1
  rw [View.read_apply]
  show V c main_v5 _ = V c main_v5 _
  congr 1
  funext a; apply Fin.ext
  match a with
  | ⟨0, _⟩ => show win1_1.index t (0 : Fin 2) * 10000 + 1 * k.val = k.val; rw [e0]; omega
  | ⟨1, _⟩ => show win1_1.index t (1 : Fin 2) * 512 + 1 * j.val = j.val; rw [e1]; omega

/-- The bias row's block is the whole array. -/
theorem blk1_2_apply (c : Dev nD) (t : Fin cfg1.N) (j : Fin 512) :
    (iblk1 (F := Ideal) V c 2 t : Vec Ideal S1x512 .f32) (ix2 (0 : Fin 1) j) = (V c main_v6 : S1x512.Idx → EReal) (ix2 (0 : Fin 1) j) := by
  obtain ⟨-, -, -, -, e0, e1, -⟩ := idx_facts1 t
  unfold iblk1
  rw [View.read_apply]
  show V c main_v6 _ = V c main_v6 _
  congr 1
  funext a; apply Fin.ext
  match a with
  | ⟨0, _⟩ => show win1_2.index t (0 : Fin 2) * 1 + 1 * 0 = 0; rw [e0]
  | ⟨1, _⟩ => show win1_2.index t (1 : Fin 2) * 512 + 1 * j.val = j.val; rw [e1]; omega

/-- The second weight's block is the whole array. -/
theorem blk1_3_apply (c : Dev nD) (t : Fin cfg1.N) (j : Fin 512) (q : Fin 7) :
    (iblk1 (F := Ideal) V c 3 t : Vec Ideal S512x7 .bf16) (ix2 j q) = (V c main_v4 : S512x7.Idx → EReal) (ix2 j q) := by
  obtain ⟨-, -, -, -, -, -, e0, e1, -⟩ := idx_facts1 t
  unfold iblk1
  rw [View.read_apply]
  show V c main_v4 _ = V c main_v4 _
  congr 1
  funext a; apply Fin.ext
  match a with
  | ⟨0, _⟩ => show win1_3.index t (0 : Fin 2) * 512 + 1 * j.val = j.val; rw [e0]; omega
  | ⟨1, _⟩ => show win1_3.index t (1 : Fin 2) * 7 + 1 * q.val = q.val; rw [e1]; omega

/-- What point `t` writes back is block `t` of `G1` of the arrays as the call finds them. -/
theorem flushed1_eq (c : Dev nD) (t : Fin cfg1.N) :
    (dat1 (F := Ideal) V c).flushed 4 t
      = ((cfg1.win 4).blk t).view.read (Elt Ideal) (G1 (V c main_arg1) (V c main_v5) (V c main_v6) (V c main_v4)) := by
  show (cfg1.win 4).cut (grid1.coords t) ((dat1 (F := Ideal) V c).after 4 t) = _
  rw [after1_4]
  unfold out1_4
  rw [View.canon_unit_zero zero_offsets1]
  simp only [View.ld_unit_zero (S := S400x10000) zero_offsets1, View.ld_unit_zero (S := S10000x512) zero_offsets1,
    View.ld_unit_zero (S := S1x512) zero_offsets1, View.ld_unit_zero (S := S512x7) zero_offsets1]
  funext y
  obtain ⟨p, q, rfl⟩ : ∃ (p : Fin 400) (q : Fin 7), y = ix2 p q := ⟨y 0, y 1, eq_ix2 y⟩
  obtain ⟨-, -, -, -, -, -, -, -, e0, e1⟩ := idx_facts1 t
  have hp : p.val < 400 := p.isLt
  have ht : t.val < 25 := Nat.lt_of_lt_of_eq t.isLt N_1
  show k1_pay1 (F := Ideal) (iblk1 V c 0 t) (iblk1 V c 1 t) (iblk1 V c 2 t) (iblk1 V c 3 t) (ix2 p q)
    = G1 (V c main_arg1) (V c main_v5) (V c main_v6) (V c main_v4) (((cfg1.win 4).blk t).view.emb (ix2 p q))
  refine (pay1_apply (iblk1 V c 0 t) (iblk1 V c 1 t) (iblk1 V c 2 t) (iblk1 V c 3 t) p q).trans ?_
  refine Eq.trans ?_ (G1_at _ _ _ _ _ (⟨t.val * 400 + p.val, by omega⟩ : Fin 10000) q ?_ ?_).symm
  · unfold entry1
    refine Finset.sum_congr rfl fun j _ => ?_
    rw [blk1_2_apply V c t j, blk1_3_apply V c t j q]
    refine congrArg (fun s : EReal => max (s + _) _ * _) (Finset.sum_congr rfl fun k _ => ?_)
    rw [blk1_0_apply V c t p k ⟨t.val * 400 + p.val, by omega⟩ rfl, blk1_1_apply V c t k j]
  · show win1_4.index t (0 : Fin 2) * 400 + 1 * p.val = t.val * 400 + p.val
    rw [e0]; omega
  · show win1_4.index t (1 : Fin 2) * 7 + 1 * q.val = q.val
    rw [e1]; omega

/-- An index of the result is in point `t`'s block iff each coordinate is in the block's range on its axis. -/
theorem mem_blk1 (t : Fin cfg1.N) (i : S10000x7.Idx) :
    i ∈ ((cfg1.win 4).blk t).view.set ↔ ∀ a : Fin 2, win1_4.index t a * S400x7.size a ≤ (i a).val ∧ (i a).val < win1_4.index t a * S400x7.size a + S400x7.size a := by
  show i ∈ ((View.whole main_v7).slice (win1_4.rect t)).set ↔ _
  rw [View.set_slice_whole, Rect.mem_set_unit]
  exact Iff.rfl

/-- Row `r` of the result is written by point `r / 400`, which writes its block back. -/
theorem cover1 (i : S10000x7.Idx) : ∃ t : Fin cfg1.N, (cfg1.win 4).flush t = true ∧ i ∈ ((cfg1.win 4).blk t).view.set := by
  have h0 : (i 0).val < 10000 := (i 0).isLt
  have h1 : (i 1).val < 7 := (i 1).isLt
  obtain ⟨t, ht⟩ : ∃ t : Fin cfg1.N, t.val = (i 0).val / 400 := ⟨⟨(i 0).val / 400, by rw [show cfg1.N = 25 from N_1]; omega⟩, rfl⟩
  obtain ⟨-, -, -, -, -, -, -, -, e0, e1⟩ := idx_facts1 t
  refine ⟨t, flush1_4 t, ?_⟩
  rw [mem_blk1]
  intro a
  match a with
  | ⟨0, _⟩ =>
    show win1_4.index t (0 : Fin 2) * 400 ≤ (i 0).val ∧ (i 0).val < win1_4.index t (0 : Fin 2) * 400 + 400
    rw [e0, ht]; omega
  | ⟨1, _⟩ =>
    show win1_4.index t (1 : Fin 2) * 7 ≤ (i 1).val ∧ (i 1).val < win1_4.index t (1 : Fin 2) * 7 + 7
    rw [e1]; omega

/-- The result array after the call is `G1` of the arrays as the call finds them. -/
theorem final1 (c : Dev nD) :
    (dat1 (F := Ideal) V c).arrAt 4 cfg1.N = G1 (V c main_arg1) (V c main_v5) (V c main_v6) (V c main_v4) :=
  (dat1 (F := Ideal) V c).arrAt_eq_of_cover 4 (G1 (V c main_arg1) (V c main_v5) (V c main_v6) (V c main_v4))
    (fun t _ => flushed1_eq V c t) cover1

/-! # The reference's stages are the same function

The reference multiplies the adjacency with its first stage, adds the bias broadcast over the rows, takes the maximum
with the broadcast zero word, and multiplies with the second weight: the same operations in the same order, so both
sides are read at an index and agree term by term. The first stage stays folded. -/

open Cert.ReferenceIdeal.Read in
theorem G1_eq_reference (x : FVec Ideal S10000x1433 .f32) (adj : FVec Ideal S10000x10000 .f32) (w1 : FVec Ideal S1433x512 .f32)
    (b1 : FVec Ideal S512 .f32) (w2 : FVec Ideal S512x7 .f32)
    (s1 : S10000x512.Idx → EReal) (brow : S1x512.Idx → EReal) (w2' : S512x7.Idx → EReal)
    (hs1 : s1 = val_main_v0 (F := Ideal) x w1)
    (hb : ∀ j : Fin 512, brow (ix2 (0 : Fin 1) j) = b1 (ix1 j)) (hw : ∀ i, w2' i = w2 i) :
    G1 adj s1 brow w2' = val_main_v6 (F := Ideal) x adj w1 b1 w2 := by
  subst hs1
  funext i
  rw [val_main_v6_apply]
  unfold G1 entry1
  refine Finset.sum_congr rfl fun j _ => ?_
  rw [val_main_v5_apply, val_main_v4_apply, val_main_v1_apply, val_main_v3_apply, val_main_v2_apply, val_main_call0_v0_apply,
    val_main_call0_cst_apply]
  have il : ∀ k : Fin 10000, lidx_main_v1 (lidx_main_v6 i j) k = ix2 (⟨(i 0).val, (i 0).isLt⟩ : Fin 10000) k := fun k =>
    funext fun a => Fin.ext (by match a with | ⟨0, _⟩ => rfl | ⟨1, _⟩ => rfl)
  have ir : ∀ k : Fin 10000, ridx_main_v1 (lidx_main_v6 i j) k = ix2 k j := fun k =>
    funext fun a => Fin.ext (by match a with | ⟨0, _⟩ => rfl | ⟨1, _⟩ => rfl)
  have ib : idx_main_v2 (idx_main_v3 (lidx_main_v6 i j)) = ix1 j :=
    funext fun a => Fin.ext (by match a with | ⟨0, _⟩ => rfl)
  have iw : ridx_main_v6 i j = ix2 j (⟨(i 1).val, (i 1).isLt⟩ : Fin 7) :=
    funext fun a => Fin.ext (by match a with | ⟨0, _⟩ => rfl | ⟨1, _⟩ => rfl)
  simp only [il, ir, ib, iw, hb j, hw]
  rfl

/-- THE SECOND CALL'S VALUE: with the adjacency, the first-layer product, the bias row and the second weight in the
    arrays the call reads, the array it writes ends at the reference's sixth stage. -/
theorem value1 (c : Dev nD)
    (x : FVec Ideal S10000x1433 .f32) (adj : FVec Ideal S10000x10000 .f32) (w1 : FVec Ideal S1433x512 .f32) (b1 : FVec Ideal S512 .f32) (w2 : FVec Ideal S512x7 .f32)
    (hadj : V c main_arg1 = adj)
    (hs1 : V c main_v5 = Cert.ReferenceIdeal.Read.val_main_v0 (F := Ideal) x w1)
    (hb : ∀ j : Fin 512, V c main_v6 (ix2 (0 : Fin 1) j) = b1 (ix1 j))
    (hw : ∀ i, V c main_v4 i = w2 i) :
    (dat1 (F := Ideal) V c).arrAt 4 cfg1.N = Cert.ReferenceIdeal.Read.val_main_v6 (F := Ideal) x adj w1 b1 w2 := by
  subst hadj
  exact (final1 V c).trans (G1_eq_reference x (V c main_arg1) w1 b1 w2 (V c main_v5) (V c main_v6) (V c main_v4) hs1 hb hw)

end Cert.KernelIdeal.Hand

end
-- ==== Proof.KI.Val2.lean ====
import proofs.«122189_g25812753449811_cont_sun_m_348_20_alg».proof.Proof.KI.Region2
import proofs.«122189_g25812753449811_cont_sun_m_348_20_alg».proof.Proof.Gen.ReferenceIdeal.Read
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx
open scoped BigOperators

namespace V2

/-! # The third call's value: every row of the result is the normalised exponential of that row of
    adj · S + b, on the kernel's side block of 400 rows by block, on the reference's side over the whole array. -/

/-! ## The row function -/

/-- The word of -∞ reads as the bottom of the extended reals. -/
theorem ninf_eq_bot : Ideal.ofBits .f32 0xFF800000#32 = (⊥ : EReal) := by simp [Ideal.ofBits, Ideal.ieee]

/-- The largest of a row's seven entries, as the fold of max from -∞. -/
def rowmax (L : Fin 7 → EReal) : EReal := (Finset.univ : Finset (Fin 7)).fold max (Ideal.ofBits .f32 0xFF800000#32) L

/-- The row-wise tail as ONE function of the row: exp (L q − max L) / Σ_k exp (L k − max L). -/
def softrow (L : Fin 7 → EReal) : Fin 7 → EReal := fun q =>
  Ideal.div (Ideal.exp (L q - rowmax L)) (∑ k : Fin 7, Ideal.exp (L k - rowmax L))

/-- Row r of adj · S + b. -/
def logits (adj : S10000x10000.Idx → EReal) (s2 : S10000x7.Idx → EReal) (b : Fin 7 → EReal) (r : Fin 10000) : Fin 7 → EReal :=
  fun k => (∑ j : Fin 10000, adj (ix2 r j) * s2 (ix2 j k)) + b k

/-- The whole result: entry (r, q) is the row function of row r of the logits, at q. -/
def G2 (adj : S10000x10000.Idx → EReal) (s2 : S10000x7.Idx → EReal) (b : Fin 7 → EReal) : S10000x7.Idx → EReal :=
  fun i => softrow (logits adj s2 b ⟨(i 0).val, idx2_lt0 i⟩) ⟨(i 1).val, idx2_lt1 i⟩

/-- G2 at an index whose coordinates are r and q. -/
theorem G2_apply (adj : S10000x10000.Idx → EReal) (s2 : S10000x7.Idx → EReal) (b : Fin 7 → EReal) (i : S10000x7.Idx)
    (r : Fin 10000) (q : Fin 7) (h0 : (i 0).val = r.val) (h1 : (i 1).val = q.val) :
    G2 adj s2 b i = softrow (logits adj s2 b r) q := by
  unfold G2
  have e0 : (⟨(i 0).val, idx2_lt0 i⟩ : Fin 10000) = r := Fin.ext h0
  have e1 : (⟨(i 1).val, idx2_lt1 i⟩ : Fin 7) = q := Fin.ext h1
  rw [e0, e1]

/-! ## The kernel's layout operations and reductions at an index -/

/-- A vector [a] cast to the column [a, 1] reads, at (i, u), the vector at i. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column at p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- A per-row value kept as a column and broadcast along the row: at (p, q) it is the value of row p. -/
theorem keep_apply {α : Type} (v : S400.Idx → α) (hs : S400.ShapeCasts S400x1) (hb : S400x1.Broadcasts S400x7) (p : Fin 400) (q : Fin 7) :
    broadcastTo S400x7 (shapeCast S400x1 v hs) hb (ix2 p q) = v (ix1 p) :=
  (broadcastTo_a1_ab_apply (shapeCast S400x1 v hs) hb p q).trans (shapeCast_a_a1_apply v hs p (0 : Fin 1))

/-- The reduced index p with lane k put back on axis 1 is (p, k). -/
theorem lift_row (h : S400x7.Reduces [1] S400) (p : Fin 400) (k : Fin (S400x7.size 1)) :
    h.lift (ix1 p) k = ix2 p (⟨k.val, k.isLt⟩ : Fin 7) := by
  funext c; apply Fin.ext
  fin_cases c <;> rfl

/-- The lane maximum of row p from -∞ is rowmax of the row. -/
theorem rowmax_apply (v : FVec Ideal S400x7 .f32) (h : S400x7.Reduces [1] S400) (hφ : FKind.Formats .f32)
    (hacc : (0xFF800000#32 : BitVec 32) = FKind.maximumf.neutral .f32 hφ) (p : Fin 400) :
    multiReduction (F := Ideal) .maximumf [1] S400 v 0xFF800000#32 h hφ hacc (ix1 p) = rowmax fun k => v (ix2 p k) := by
  refine (Ideal.multiReduction_maximumf_single v _ h hφ hacc (ix1 p)).trans ?_
  have hf : (v ∘ h.lift (ix1 p)) = fun k : Fin 7 => v (ix2 p k) := funext fun k => congrArg v (lift_row h p k)
  exact congrArg (fun f => Finset.fold max (Ideal.ofBits .f32 0xFF800000#32) f (Finset.univ : Finset (Fin 7))) hf

/-- The lane sum of row p is the sum of the row's seven entries. -/
theorem rowsum_apply (v : FVec Ideal S400x7 .f32) (h : S400x7.Reduces [1] S400) (hφ : FKind.Formats .f32)
    (hacc : (0x00000000#32 : BitVec 32) = FKind.add.neutral .f32 hφ) (p : Fin 400) :
    multiReduction (F := Ideal) .add [1] S400 v 0x00000000#32 h hφ hacc (ix1 p) = ∑ k : Fin 7, v (ix2 p k) := by
  refine (Ideal.multiReduction_add_single v _ h hφ hacc (ix1 p)).trans ?_
  exact Finset.sum_congr rfl fun k _ => congrArg v (lift_row h p k)

/-! ## The body's arithmetic at an index -/

/-- The tail the body applies to its block of logits: lane maximum, shifted exponential, lane sum, quotient. -/
def tailBlk (hr : S400x7.Reduces [1] S400) (hs : S400.ShapeCasts S400x1) (hb : S400x1.Broadcasts S400x7)
    (v8 : FVec Ideal S400x7 .f32) : FVec Ideal S400x7 .f32 :=
  have v9 : FVec Ideal S400 .f32 := multiReduction .maximumf [1] S400 v8 0xFF800000#32 hr (.inl rfl) rfl
  have v10 : FVec Ideal S400x1 .f32 := shapeCast S400x1 v9 hs
  have v11 : FVec Ideal S400x7 .f32 := broadcastTo S400x7 v10 hb
  have v12 : FVec Ideal S400x7 .f32 := subf v8 v11
  have v13 : FVec Ideal S400x7 .f32 := exp v12
  have v14 : FVec Ideal S400 .f32 := multiReduction .add [1] S400 v13 0x00000000#32 hr (.inl rfl) rfl
  have v15 : FVec Ideal S400x1 .f32 := shapeCast S400x1 v14 hs
  have v16 : FVec Ideal S400x7 .f32 := broadcastTo S400x7 v15 hb
  divf v13 v16

/-- At (p, q) the tail is the row function of row p of the block, at q. -/
theorem tailBlk_apply (hr : S400x7.Reduces [1] S400) (hs : S400.ShapeCasts S400x1) (hb : S400x1.Broadcasts S400x7)
    (v8 : FVec Ideal S400x7 .f32) (p : Fin 400) (q : Fin 7) :
    tailBlk hr hs hb v8 (ix2 p q) = softrow (fun k => v8 (ix2 p k)) q := by
  have hm : multiReduction (F := Ideal) .maximumf [1] S400 v8 0xFF800000#32 hr (.inl rfl) rfl (ix1 p) = rowmax fun k => v8 (ix2 p k) :=
    rowmax_apply v8 hr (.inl rfl) rfl p
  have he : ∀ k : Fin 7, exp (subf v8 (broadcastTo S400x7 (shapeCast S400x1
        (multiReduction (F := Ideal) .maximumf [1] S400 v8 0xFF800000#32 hr (.inl rfl) rfl) hs) hb)) (ix2 p k)
      = Ideal.exp (v8 (ix2 p k) - rowmax fun k => v8 (ix2 p k)) := fun k =>
    congrArg (fun m => Ideal.exp (v8 (ix2 p k) - m)) ((keep_apply _ hs hb p k).trans hm)
  unfold tailBlk softrow
  show Ideal.div (exp (subf v8 _) (ix2 p q)) (broadcastTo S400x7 (shapeCast S400x1 _ hs) hb (ix2 p q)) = _
  refine congrArg₂ Ideal.div (he q) ?_
  refine (keep_apply _ hs hb p q).trans ?_
  refine (rowsum_apply _ hr (.inl rfl) rfl p).trans ?_
  exact Finset.sum_congr rfl fun k _ => he k

theorem lhs_mm2_0 (i : S400x7.Idx) (q : dot_S400x10000_S10000x7_S400x7_1_0_0_1_n_n.contr.Idx) :
    (dot_S400x10000_S10000x7_S400x7_1_0_0_1_n_n.lhsIdx i q 0).val = (i 0).val := by
  unfold DotDims.lhsIdx
  rw [dif_neg (show ¬(0 : Fin S400x10000.rank) ∈ dot_S400x10000_S10000x7_S400x7_1_0_0_1_n_n.lhsBatch by decide), dif_pos (show (0 : Fin S400x10000.rank) ∈ dot_S400x10000_S10000x7_S400x7_1_0_0_1_n_n.lhsNonContracting by decide)]
  rfl
theorem lhs_mm2_1 (i : S400x7.Idx) (q : dot_S400x10000_S10000x7_S400x7_1_0_0_1_n_n.contr.Idx) :
    (dot_S400x10000_S10000x7_S400x7_1_0_0_1_n_n.lhsIdx i q 1).val = (q ⟨0, by decide⟩).val :=
  dot_S400x10000_S10000x7_S400x7_1_0_0_1_n_n.lhsIdx_val_of_single rfl i q
theorem rhs_mm2_0 (i : S400x7.Idx) (q : dot_S400x10000_S10000x7_S400x7_1_0_0_1_n_n.contr.Idx) :
    (dot_S400x10000_S10000x7_S400x7_1_0_0_1_n_n.rhsIdx i q 0).val = (q ⟨0, by decide⟩).val :=
  dot_S400x10000_S10000x7_S400x7_1_0_0_1_n_n.rhsIdx_val_of_single rfl i q
theorem rhs_mm2_1 (i : S400x7.Idx) (q : dot_S400x10000_S10000x7_S400x7_1_0_0_1_n_n.contr.Idx) :
    (dot_S400x10000_S10000x7_S400x7_1_0_0_1_n_n.rhsIdx i q 1).val = (i 1).val := by
  unfold DotDims.rhsIdx
  rw [dif_neg (show ¬(1 : Fin S10000x7.rank) ∈ dot_S400x10000_S10000x7_S400x7_1_0_0_1_n_n.rhsBatch by decide), dif_pos (show (1 : Fin S10000x7.rank) ∈ dot_S400x10000_S10000x7_S400x7_1_0_0_1_n_n.rhsNonContracting by decide)]
  rfl

/-- The block product into a zero accumulator, at (p, q): the sum over the 10000 columns of the left block's row p
    times the right operand's column q. -/
theorem mm2_apply (y0 : FVec Ideal S400x10000 .bf16) (y1 : FVec Ideal S10000x7 .bf16) (p : Fin 400) (q : Fin 7) :
    matmul dot_S400x10000_S10000x7_S400x7_1_0_0_1_n_n none y0 y1 (constant (F := Ideal) S400x7 .f32 0x00000000#32) (ix2 p q)
      = ∑ k : Fin 10000, y0 (ix2 p k) * y1 (ix2 k q) := by
  simp only [matmul]
  rw [Ideal.matmul_constant_zero_apply, ← Equiv.sum_comp (ValueIdx.contrEquiv1 dot_S400x10000_S10000x7_S400x7_1_0_0_1_n_n 10000 rfl rfl).symm]
  refine Finset.sum_congr rfl fun k _ => ?_
  have hk := ValueIdx.contrEquiv1_symm_val dot_S400x10000_S10000x7_S400x7_1_0_0_1_n_n 10000 rfl rfl k
  have el : dot_S400x10000_S10000x7_S400x7_1_0_0_1_n_n.lhsIdx (ix2 p q) ((ValueIdx.contrEquiv1 dot_S400x10000_S10000x7_S400x7_1_0_0_1_n_n 10000 rfl rfl).symm k) = ix2 p k := funext fun a => Fin.ext (by
    match a with
    | ⟨0, _⟩ => exact lhs_mm2_0 _ _
    | ⟨1, _⟩ => exact (lhs_mm2_1 _ _).trans hk)
  have er : dot_S400x10000_S10000x7_S400x7_1_0_0_1_n_n.rhsIdx (ix2 p q) ((ValueIdx.contrEquiv1 dot_S400x10000_S10000x7_S400x7_1_0_0_1_n_n 10000 rfl rfl).symm k) = ix2 k q := funext fun a => Fin.ext (by
    match a with
    | ⟨0, _⟩ => exact (rhs_mm2_0 _ _).trans hk
    | ⟨1, _⟩ => exact rhs_mm2_1 _ _)
  rw [el, er]

/-- The body's result at (p, q): the row function of row p of (left block) · (right operand) + (the bias row), at q. -/
theorem pay2_apply (x0 : Vec Ideal S400x10000 .f32) (x1 : Vec Ideal S10000x7 .bf16) (x2 : Vec Ideal S1x7 .f32) (p : Fin 400) (q : Fin 7) :
    k2_pay1 (F := Ideal) x0 x1 x2 (ix2 p q)
      = softrow (fun k => (∑ j : Fin 10000, x0 (ix2 p j) * x1 (ix2 j k)) + x2 (ix2 (0 : Fin 1) k)) q := by
  have e : k2_pay1 (F := Ideal) x0 x1 x2 = tailBlk Facts₀.reduces_S400x7_S400 Facts₀.shapeCasts_S400_S400x1 Facts₀.broadcasts_S400x1_S400x7
      (addf (matmul dot_S400x10000_S10000x7_S400x7_1_0_0_1_n_n none (truncf .bf16 x0 Facts₀.bitsLt_bf16_f32)
          (shapeCast S10000x7 x1 Facts₀.shapeCasts_S10000x7_S10000x7) (constant (F := Ideal) S400x7 .f32 0x00000000#32))
        (broadcastTo S400x7 (shapeCast S1x7 x2 Facts₀.shapeCasts_S1x7_S1x7) Facts₀.broadcasts_S1x7_S400x7)) := rfl
  rw [e]
  refine (tailBlk_apply _ _ _ _ p q).trans ?_
  refine congrArg (fun L => softrow L q) (funext fun k => ?_)
  show matmul dot_S400x10000_S10000x7_S400x7_1_0_0_1_n_n none _ _ _ (ix2 p k) + broadcastTo S400x7 _ Facts₀.broadcasts_S1x7_S400x7 (ix2 p k) = _
  rw [mm2_apply, shapeCast_self, shapeCast_self, broadcastTo_1b_ab_apply]
  rfl

/-! ## The reference's stages at an index -/

/-- The maximum with -∞ in front changes nothing. -/
theorem max_ninf (a : EReal) : max (Ideal.ofBits .f32 0xFF800000#32) a = a := by
  rw [ninf_eq_bot]; exact max_eq_right bot_le

/-- The reduced index r of the whole array with lane k put back on axis 1 is (r, k). -/
theorem lift_row_ref (h : Cert.ReferenceIdeal.S10000x7.Reduces [1] Cert.ReferenceIdeal.S10000) (r : Fin 10000)
    (k : Fin (Cert.ReferenceIdeal.S10000x7.size 1)) : h.lift (ix1 r) k = ix2 r (⟨k.val, k.isLt⟩ : Fin 7) := by
  funext c; apply Fin.ext
  fin_cases c <;> rfl

open Cert.ReferenceIdeal.Read in
/-- The reference's last stage is the whole-array function of the adjacency, its sixth stage and the bias: stage 10 is
    the logits, stages 11 and 13 the row's maximum (the second maximum with -∞ changes nothing), stage 17 the shifted
    exponential, stage 18 the row's sum from zero, stage 21 the quotient. -/
theorem ref_eq_G2 (x : FVec Ideal S10000x1433 .f32) (adj : FVec Ideal S10000x10000 .f32) (w1 : FVec Ideal S1433x512 .f32)
    (b1 : FVec Ideal S512 .f32) (w2 : FVec Ideal S512x7 .f32) (b2 : FVec Ideal S7 .f32) :
    G2 adj (val_main_v6 (F := Ideal) x adj w1 b1 w2) (fun j => b2 (ix1 j)) = val_main_v21 (F := Ideal) x adj w1 b1 w2 b2 := by
  funext i
  obtain ⟨r, q, rfl⟩ : ∃ (r : Fin 10000) (q : Fin 7), i = ix2 r q := ⟨i 0, i 1, eq_ix2 i⟩
  rw [G2_apply _ _ _ _ r q rfl rfl]
  generalize hs : val_main_v6 (F := Ideal) x adj w1 b1 w2 = s2
  generalize hL : logits adj s2 (fun j => b2 (ix1 j)) r = L
  have h10 : ∀ k : Fin 7, val_main_v10 (F := Ideal) x adj w1 b1 w2 b2 (ix2 r k) = L k := by
    intro k
    rw [val_main_v10_apply, val_main_v7_apply, val_main_v9_apply, val_main_v8_apply, hs, ← hL]
    have el : ∀ j : Fin 10000, lidx_main_v7 (ix2 r k) j = ix2 r j := fun j => funext fun a => Fin.ext (by
      match a with | ⟨0, _⟩ => rfl | ⟨1, _⟩ => rfl)
    have er : ∀ j : Fin 10000, ridx_main_v7 (ix2 r k) j = ix2 j k := fun j => funext fun a => Fin.ext (by
      match a with | ⟨0, _⟩ => rfl | ⟨1, _⟩ => rfl)
    have eb : idx_main_v8 (idx_main_v9 (ix2 r k)) = ix1 k := funext fun a => Fin.ext (by
      match a with | ⟨0, _⟩ => rfl)
    simp only [el, er, eb]
    rfl
  have hR : Cert.ReferenceIdeal.S10000x7.Reduces [1] Cert.ReferenceIdeal.S10000 := by decide
  have h11 : val_main_v11 (F := Ideal) x adj w1 b1 w2 b2 (ix1 r) = rowmax L := by
    unfold val_main_v11
    refine (Host.reduce_eq_fold_single FloatOps.maximumf _ _ _ hR _ (ix1 r)).trans ?_
    have hf : (val_main_v10 (F := Ideal) x adj w1 b1 w2 b2 ∘ hR.lift (ix1 r)) = L :=
      funext fun k => (congrArg (val_main_v10 (F := Ideal) x adj w1 b1 w2 b2) (lift_row_ref hR r k)).trans (h10 _)
    exact congrArg (fun f => Finset.fold max (Ideal.ofBits .f32 0xFF800000#32) f (Finset.univ : Finset (Fin 7))) hf
  have h13 : val_main_v13 (F := Ideal) x adj w1 b1 w2 b2 (ix1 r) = rowmax L := by
    rw [val_main_v13_apply, h11, val_main_v12_apply, val_main_cst_0_apply]
    exact max_ninf _
  have h15 : ∀ k : Fin 7, val_main_v15 (F := Ideal) x adj w1 b1 w2 b2 (ix2 r k) = rowmax L := by
    intro k
    have e : idx_main_v14 (idx_main_v15 (ix2 r k)) = ix1 r := funext fun a => Fin.ext (by
      match a with | ⟨0, _⟩ => rfl)
    rw [val_main_v15_apply, val_main_v14_apply, e, h13]
  have h17 : ∀ k : Fin 7, val_main_v17 (F := Ideal) x adj w1 b1 w2 b2 (ix2 r k) = Ideal.exp (L k - rowmax L) := by
    intro k
    rw [val_main_v17_apply, val_main_v16_apply, h10, h15]
    rfl
  have h18 : val_main_v18 (F := Ideal) x adj w1 b1 w2 b2 (ix1 r) = ∑ k : Fin 7, Ideal.exp (L k - rowmax L) := by
    have e : ∀ k : Fin 7, idx_main_v18 (ix1 r) k = ix2 r k := fun k => funext fun a => Fin.ext (by
      match a with | ⟨0, _⟩ => rfl | ⟨1, _⟩ => rfl)
    rw [val_main_v18_apply, val_main_cst_1_apply]
    simp only [e, h17]
    show Ideal.ofBits .f32 0x00000000#32 + _ = _
    rw [Ideal.ofBits_zero_f32, zero_add]
  have h20 : val_main_v20 (F := Ideal) x adj w1 b1 w2 b2 (ix2 r q) = ∑ k : Fin 7, Ideal.exp (L k - rowmax L) := by
    have e : idx_main_v19 (idx_main_v20 (ix2 r q)) = ix1 r := funext fun a => Fin.ext (by
      match a with | ⟨0, _⟩ => rfl)
    rw [val_main_v20_apply, val_main_v19_apply, e, h18]
  rw [val_main_v21_apply, h17, h20]
  rfl

/-! ## From blocks to the array -/

variable (V : (c : Dev nD) → (b : Ref sig .tc) → Buf (Elt Ideal) ((c : Thread nD τ).loc b))

/-- The printed index maps over the 25 points: the adjacency's window and the result's move down by one block of rows per
    point; the second-layer product and the bias are whole-array blocks. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

theorem hz2 : (![0, 0] : Fin 2 → Nat) = fun _ => 0 := funext fun a => by fin_cases a <;> rfl

/-- The adjacency's block at point t is its rows 400·t ‥ 400·t + 399. -/
theorem iblk2_0_apply (c : Dev nD) (t : Fin cfg2.N) (x : S400x10000.Idx) (k : S10000x10000.Idx)
    (hk0 : (k 0).val = 400 * t.val + (x 0).val) (hk1 : (k 1).val = (x 1).val) :
    (iblk2 (F := Ideal) V c 0 t : Vec Ideal S400x10000 .f32) x = (V c main_arg1 : S10000x10000.Idx → EReal) k := by
  obtain ⟨e0, e1, -⟩ := idx_facts2 t
  unfold iblk2
  rw [View.read_apply]
  show V c main_arg1 _ = V c main_arg1 _
  congr 1
  funext a
  apply Fin.ext
  match a with
  | ⟨0, _⟩ => show win2_0.index t (0 : Fin 2) * 400 + 1 * (x 0).val = (k 0).val; rw [e0, hk0]; omega
  | ⟨1, _⟩ => show win2_0.index t (1 : Fin 2) * 10000 + 1 * (x 1).val = (k 1).val; rw [e1, hk1]; omega

/-- The second-layer product's block at every point is the whole array. -/
theorem iblk2_1_apply (c : Dev nD) (t : Fin cfg2.N) (x : S10000x7.Idx) :
    (iblk2 (F := Ideal) V c 1 t : Vec Ideal S10000x7 .bf16) x = (V c main_v7 : S10000x7.Idx → EReal) x := by
  obtain ⟨-, -, e0, e1, -⟩ := idx_facts2 t
  unfold iblk2
  rw [View.read_apply]
  show V c main_v7 _ = V c main_v7 _
  congr 1
  funext a
  apply Fin.ext
  match a with
  | ⟨0, _⟩ => show win2_1.index t (0 : Fin 2) * 10000 + 1 * (x 0).val = (x 0).val; rw [e0]; omega
  | ⟨1, _⟩ => show win2_1.index t (1 : Fin 2) * 7 + 1 * (x 1).val = (x 1).val; rw [e1]; omega

/-- The bias row's block at every point is the whole row. -/
theorem iblk2_2_apply (c : Dev nD) (t : Fin cfg2.N) (x : S1x7.Idx) :
    (iblk2 (F := Ideal) V c 2 t : Vec Ideal S1x7 .f32) x = (V c main_v8 : S1x7.Idx → EReal) x := by
  obtain ⟨-, -, -, -, e0, e1, -⟩ := idx_facts2 t
  unfold iblk2
  rw [View.read_apply]
  show V c main_v8 _ = V c main_v8 _
  congr 1
  funext a
  apply Fin.ext
  match a with
  | ⟨0, _⟩ => show win2_2.index t (0 : Fin 2) * 1 + 1 * (x 0).val = (x 0).val; rw [e0]; omega
  | ⟨1, _⟩ => show win2_2.index t (1 : Fin 2) * 7 + 1 * (x 1).val = (x 1).val; rw [e1]; omega

/-- The whole-array function at the contents the call finds. -/
abbrev result2 (c : Dev nD) : S10000x7.Idx → EReal :=
  G2 (V c main_arg1 : S10000x10000.Idx → EReal) (V c main_v7 : S10000x7.Idx → EReal) (fun j => (V c main_v8 : S1x7.Idx → EReal) (ix2 (0 : Fin 1) j))

/-- What point t writes back is block t of the whole-array function. -/
theorem flushed2_3_eq (c : Dev nD) (t : Fin cfg2.N) :
    (dat2 (F := Ideal) V c).flushed 3 t = ((cfg2.win 3).blk t).view.read (Elt Ideal) (result2 V c) := by
  show (cfg2.win 3).cut (grid2.coords t) ((dat2 (F := Ideal) V c).after 3 t) = _
  rw [after2_3]
  unfold out2_3
  rw [View.canon_unit_zero hz2]
  simp only [View.ld_unit_zero (S := S400x10000) hz2, View.ld_unit_zero (S := S10000x7) hz2, View.ld_unit_zero (S := S1x7) hz2]
  obtain ⟨-, -, -, -, -, -, e0, e1⟩ := idx_facts2 t
  funext j

  have ht : t.val < 25 := lt_of_lt_of_eq t.isLt N_2
  have hp : (j (0 : Fin 2)).val < 400 := (j (0 : Fin 2)).isLt
  have hq : (j (1 : Fin 2)).val < 7 := (j (1 : Fin 2)).isLt
  have hj : (win2 3).xinj (grid2.coords t) j = ix2 (⟨(j (0 : Fin 2)).val, hp⟩ : Fin 400) (⟨(j (1 : Fin 2)).val, hq⟩ : Fin 7) :=
    funext fun a => Fin.ext (by match a with | ⟨0, _⟩ => rfl | ⟨1, _⟩ => rfl)
  show k2_pay1 (F := Ideal) (iblk2 (F := Ideal) V c 0 t) (iblk2 (F := Ideal) V c 1 t) (iblk2 (F := Ideal) V c 2 t) ((win2 3).xinj (grid2.coords t) j) = _
  refine (congrArg (k2_pay1 (F := Ideal) (iblk2 (F := Ideal) V c 0 t) (iblk2 (F := Ideal) V c 1 t) (iblk2 (F := Ideal) V c 2 t)) hj).trans ?_
  refine (pay2_apply (iblk2 (F := Ideal) V c 0 t) (iblk2 (F := Ideal) V c 1 t) (iblk2 (F := Ideal) V c 2 t) ⟨(j (0 : Fin 2)).val, hp⟩ ⟨(j (1 : Fin 2)).val, hq⟩).trans ?_
  rw [View.read_apply]
  show _ = result2 V c (((cfg2.win 3).blk t).view.emb j)
  refine Eq.trans ?_ (G2_apply _ _ _ (((cfg2.win 3).blk t).view.emb j) (⟨400 * t.val + (j (0 : Fin 2)).val, by omega⟩ : Fin 10000) ⟨(j (1 : Fin 2)).val, hq⟩ ?_ ?_).symm
  · refine congrArg (fun L => softrow L (⟨(j (1 : Fin 2)).val, hq⟩ : Fin 7)) (funext fun k => ?_)
    unfold logits
    refine congrArg₂ (· + ·) (Finset.sum_congr rfl fun j' _ => congrArg₂ (· * ·) ?_ ?_) ?_
    · exact iblk2_0_apply V c t (ix2 (⟨(j (0 : Fin 2)).val, hp⟩ : Fin 400) j') (ix2 (⟨400 * t.val + (j (0 : Fin 2)).val, by omega⟩ : Fin 10000) j') rfl rfl
    · exact iblk2_1_apply V c t (ix2 j' k)
    · exact iblk2_2_apply V c t (ix2 (0 : Fin 1) k)
  · show win2_3.index t (0 : Fin 2) * 400 + 1 * (j (0 : Fin 2)).val = 400 * t.val + (j (0 : Fin 2)).val
    rw [e0]; omega
  · show win2_3.index t (1 : Fin 2) * 7 + 1 * (j (1 : Fin 2)).val = (j (1 : Fin 2)).val
    rw [e1]; omega

/-- An index of the result array is in point t's block iff each coordinate is in the block's range on its axis. -/
theorem mem_blk2_3 (t : Fin cfg2.N) (i : S10000x7.Idx) :
    i ∈ ((cfg2.win 3).blk t).view.set ↔ ∀ a : Fin 2, win2_3.index t a * S400x7.size a ≤ (i a).val ∧ (i a).val < win2_3.index t a * S400x7.size a + S400x7.size a := by
  show i ∈ ((View.whole main_v9).slice (win2_3.rect t)).set ↔ _
  rw [View.set_slice_whole, Rect.mem_set_unit]
  exact Iff.rfl

/-- Row r of the result is written back by point r / 400. -/
theorem rows_cover2_3 (i : S10000x7.Idx) : ∃ t : Fin cfg2.N, (cfg2.win 3).flush t = true ∧ i ∈ ((cfg2.win 3).blk t).view.set := by
  have hi0 : (i 0).val < 10000 := (i 0).isLt
  have hi1 : (i 1).val < 7 := (i 1).isLt
  have hN : cfg2.N = 25 := N_2
  refine ⟨⟨(i 0).val / 400, by rw [hN]; omega⟩, flush2_3 _, ?_⟩
  obtain ⟨-, -, -, -, -, -, e0, e1⟩ := idx_facts2 ⟨(i 0).val / 400, by rw [hN]; omega⟩
  rw [mem_blk2_3]
  intro a
  match a with
  | ⟨0, _⟩ =>
    show win2_3.index ⟨(i 0).val / 400, _⟩ (0 : Fin 2) * 400 ≤ (i 0).val ∧ (i 0).val < win2_3.index ⟨(i 0).val / 400, _⟩ (0 : Fin 2) * 400 + 400
    rw [e0]; show (i 0).val / 400 * 400 ≤ (i 0).val ∧ (i 0).val < (i 0).val / 400 * 400 + 400; omega
  | ⟨1, _⟩ =>
    show win2_3.index ⟨(i 0).val / 400, _⟩ (1 : Fin 2) * 7 ≤ (i 1).val ∧ (i 1).val < win2_3.index ⟨(i 0).val / 400, _⟩ (1 : Fin 2) * 7 + 7
    rw [e1]; omega

/-- The result array after the call is the whole-array function of the contents the call found. -/
theorem final2_3 (c : Dev nD) : (dat2 (F := Ideal) V c).arrAt 3 cfg2.N = result2 V c :=
  (dat2 (F := Ideal) V c).arrAt_eq_of_cover 3 (result2 V c) (fun t _ => flushed2_3_eq V c t) rows_cover2_3

end V2

/-! ## The claim of this module -/

open V2 in
/-- With the adjacency, the second-layer product and the bias row as the call finds them, the result array after the
    call is the reference's last stage. -/
theorem value2 (V : (c : Dev nD) → (b : Ref sig .tc) → Buf (Elt Ideal) ((c : Thread nD τ).loc b)) (c : Dev nD)
    (x : FVec Ideal S10000x1433 .f32) (adj : FVec Ideal S10000x10000 .f32) (w1 : FVec Ideal S1433x512 .f32) (b1 : FVec Ideal S512 .f32) (w2 : FVec Ideal S512x7 .f32) (b2 : FVec Ideal S7 .f32)
    (hadj : V c main_arg1 = adj)
    (hs2 : V c main_v7 = Cert.ReferenceIdeal.Read.val_main_v6 (F := Ideal) x adj w1 b1 w2)
    (hb : ∀ j : Fin 7, V c main_v8 (ix2 (0 : Fin 1) j) = b2 (ix1 j)) :
    (dat2 (F := Ideal) V c).arrAt 3 cfg2.N = Cert.ReferenceIdeal.Read.val_main_v21 (F := Ideal) x adj w1 b1 w2 b2 := by
  have e1 : (V c main_arg1 : S10000x10000.Idx → EReal) = adj := hadj
  have e2 : (V c main_v7 : S10000x7.Idx → EReal) = Cert.ReferenceIdeal.Read.val_main_v6 (F := Ideal) x adj w1 b1 w2 := hs2
  have e3 : (fun j : Fin 7 => (V c main_v8 : S1x7.Idx → EReal) (ix2 (0 : Fin 1) j)) = fun j => b2 (ix1 j) := funext hb
  exact (final2_3 V c).trans ((congr (congr (congrArg G2 e1) e2) e3).trans (ref_eq_G2 x adj w1 b1 w2 b2))

end Cert.KernelIdeal.Hand

end
-- ==== Proof.KI.Value.lean ====
import proofs.«122189_g25812753449811_cont_sun_m_348_20_alg».proof.Proof.Gen.KernelIdeal.Launch
import proofs.«122189_g25812753449811_cont_sun_m_348_20_alg».proof.Proof.Gen.KernelIdeal.Skeleton
import proofs.«122189_g25812753449811_cont_sun_m_348_20_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
import proofs.«122189_g25812753449811_cont_sun_m_348_20_alg».proof.Proof.KI.RunDefs
import proofs.«122189_g25812753449811_cont_sun_m_348_20_alg».proof.Proof.KI.HostVals
import proofs.«122189_g25812753449811_cont_sun_m_348_20_alg».proof.Proof.Gen.ReferenceIdeal.Read
import proofs.«122189_g25812753449811_cont_sun_m_348_20_alg».proof.Proof.KI.Val0
import proofs.«122189_g25812753449811_cont_sun_m_348_20_alg».proof.Proof.KI.Val1
import proofs.«122189_g25812753449811_cont_sun_m_348_20_alg».proof.Proof.KI.Val2
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

open Idealize.ShloMosaic.ValueIdx

/-! # The result array is the reference's last stage

At the ideal values: each call's result array is a stage of the reference — the first product, the second-layer
product, the normalised exponential — given that the arrays it reads hold the stages before; the host operations
between the calls supply the padded weight's two slices, the two bias rows and the second weight. -/

variable (m : (ℓ : Loc nD τ sig) → Buf (Elt Ideal) ℓ)

/-- An argument array holds its launch contents at every boundary. -/
theorem W_arg (c : Dev nD) (r : Ref sig .tc) (h0 : r ∉ hostOps0_W) (h1 : r ∉ hostOps0_1_W) (h2 : r ∉ hostOps0_2_W)
    (h3 : r ∉ ([main_v5] : List (Ref sig .tc))) (h4 : r ∉ hostOps1_W) (h5 : r ∉ ([main_v7] : List (Ref sig .tc)))
    (h6 : r ∉ hostOps2_W) :
    W3 m c r = m ((c : Thread nD τ).loc r) ∧ W5 m c r = m ((c : Thread nD τ).loc r) ∧ W7 m c r = m ((c : Thread nD τ).loc r) := by
  have e3 : W3 m c r = m ((c : Thread nD τ).loc r) := (W3_of m c r h2).trans <| (W2_of m c r h1).trans <| (W1_of m c r h0).trans rfl
  have e5 : W5 m c r = m ((c : Thread nD τ).loc r) := (W5_of m c r h4).trans <| (W4_of m c r h3).trans e3
  exact ⟨e3, e5, (W7_of m c r h6).trans <| (W6_of m c r h5).trans e5⟩

/-- The first call's result array is the reference's first product. -/
theorem A4_eq (c : Dev nD) : A4 m c = Cert.ReferenceIdeal.Read.val_main_v0 (F := Ideal) (m ((c : Thread nD τ).loc main_arg0)) (m ((c : Thread nD τ).loc main_arg2)) :=
  value0 (V3 m) c _ _ (W_arg m c main_arg0 (by decide) (by decide) (by decide) (by decide) (by decide) (by decide) (by decide)).1
    (fun k j => by
      show W3 m c main_v2 (ix2 k j) = _
      rw [W3_main_v2]; exact padWtop_apply _ k j)
    (fun k j => by
      show W3 m c main_v3 (ix2 k j) = _
      rw [W3_main_v3]; exact padWbot_apply _ k j)

/-- The second call's result array is the reference's second-layer product. -/
theorem A6_eq (c : Dev nD) : A6 m c = Cert.ReferenceIdeal.Read.val_main_v6 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) :=
  value1 (V5 m) c _ _ _ _ _ (W_arg m c main_arg1 (by decide) (by decide) (by decide) (by decide) (by decide) (by decide) (by decide)).2.1
    (by
      show W5 m c main_v5 = _
      rw [W5_of m c main_v5 (by decide), W4_main_v5, A4_eq])
    (fun j => by
      show W5 m c main_v6 (ix2 (0 : Fin 1) j) = _
      rw [W5_main_v6]; exact row512_apply _ j)
    (fun i => by
      show W5 m c main_v4 i = _
      rw [W5_of m c main_v4 (by decide), W4_of m c main_v4 (by decide), W3_main_v4]; rfl)

/-- The third call's result array is the reference's result. -/
theorem A8_eq (c : Dev nD) : A8 m c = Cert.ReferenceIdeal.Read.val_main_v21 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) :=
  value2 (V7 m) c _ _ _ _ _ _ (W_arg m c main_arg1 (by decide) (by decide) (by decide) (by decide) (by decide) (by decide) (by decide)).2.2
    (by
      show W7 m c main_v7 = _
      rw [W7_of m c main_v7 (by decide), W6_main_v7, A6_eq])
    (fun j => by
      show W7 m c main_v8 (ix2 (0 : Fin 1) j) = _
      rw [W7_main_v8]; exact row7_apply _ j)

end Cert.KernelIdeal.Hand

end
-- ==== Proof.lean ====
/- The certificate of a two-layer graph convolution, softmax(adj · (relu(adj · (x · W1) + b1) · W2) + b2), computed by
   three row-blocked kernels — the first product x · W1 with the feature axis read through two windows of one
   array against the zero-padded weight, the hidden layer folded into W2 per row block of the adjacency, and the
   second adjacency product with the row-wise normalised exponential — against the same composition of whole-array
   products. At the ideal values a change of float format is the identity, each kernel's matrix product into a
   zero accumulator is the plain sum the reference's contraction is, and the 103 padded feature columns meet zeros
   on both sides of their products, so the two programs compute one function of the six arrays, index by index.

   The three frames: the kernel programs' by the launch of their eight items as segments (the run also names the
   result array), the reference's by its run with the result dropped. The idealization rewrote no operation, so
   there is nothing to preserve. The algebraic claim: the kernel's result array is the third call's folded
   write-backs, which are the reference's last stage of the same arguments. -/
import proofs.«122189_g25812753449811_cont_sun_m_348_20_alg».proof.Defs
import proofs.«122189_g25812753449811_cont_sun_m_348_20_alg».proof.Proof.Gen.Kernel
import proofs.«122189_g25812753449811_cont_sun_m_348_20_alg».proof.Proof.Gen.KernelIdeal
import proofs.«122189_g25812753449811_cont_sun_m_348_20_alg».proof.Proof.Gen.ReferenceIdeal
import proofs.«122189_g25812753449811_cont_sun_m_348_20_alg».proof.Proof.Gen.Pre_finite_inputs
import proofs.«122189_g25812753449811_cont_sun_m_348_20_alg».proof.Proof.Gen.ReferenceIdeal.Run
import proofs.«122189_g25812753449811_cont_sun_m_348_20_alg».proof.Proof.Gen.ReferenceIdeal.Read
import proofs.«122189_g25812753449811_cont_sun_m_348_20_alg».proof.Proof.K.Run
import proofs.«122189_g25812753449811_cont_sun_m_348_20_alg».proof.Proof.KI.Run
import proofs.«122189_g25812753449811_cont_sun_m_348_20_alg».proof.Proof.KI.Value
import Idealize.ShloMosaic.Adequacy
import Idealize.ShloMosaic.Init

noncomputable section

namespace Cert.Proof

open Idealize.ShloMosaic Idealize.SL.Sem

/-- The word-level kernel program runs to the end and leaves its six arguments as launched. -/
theorem frame_k : Cert.frame_Kernel := fun m ρ _ =>
  (θ_run Cert.Kernel.defs _ _).mono (fun _ h c => (h c).2) (Cert.Kernel.Hand.run_result (F := Bits) m ρ)

/-- So does the idealized kernel program. -/
theorem frame_ki : Cert.frame_KernelIdeal := fun m ρ _ =>
  (θ_run Cert.KernelIdeal.defs _ _).mono (fun _ h c => (h c).2) (Cert.KernelIdeal.Hand.run_result (F := Ideal) m ρ)

/-- And the idealized reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the six arguments both idealized programs end with one result array: the kernel's
    is the third call's folded write-backs, the reference's its last stage, and the two are equal. -/
theorem algebraic : Cert.algebraic_KernelIdeal_ReferenceIdeal := by
  intro m ρ m' ρ' _ hagree
  refine ⟨fun c => Cert.KernelIdeal.Hand.A8 (F := Ideal) m c, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, (hagree c).1, (hagree c).2.1, (hagree c).2.2.1, (hagree c).2.2.2.1,
    (hagree c).2.2.2.2.1, (hagree c).2.2.2.2.2]
  exact (Cert.KernelIdeal.Hand.A8_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
